-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20 : Shape := ⟨2, ![4096, 20]⟩
abbrev S25000x16 : Shape := ⟨2, ![25000, 16]⟩
abbrev S16x64 : Shape := ⟨2, ![16, 64]⟩
abbrev S64 : Shape := ⟨1, ![64]⟩
abbrev S64x256 : Shape := ⟨2, ![64, 256]⟩
abbrev S256 : Shape := ⟨1, ![256]⟩
abbrev S25000x32 : Shape := ⟨2, ![25000, 32]⟩
abbrev S32x64 : Shape := ⟨2, ![32, 64]⟩
abbrev S25000x64 : Shape := ⟨2, ![25000, 64]⟩
abbrev S64x64 : Shape := ⟨2, ![64, 64]⟩
abbrev S25000x128 : Shape := ⟨2, ![25000, 128]⟩
abbrev S128x64 : Shape := ⟨2, ![128, 64]⟩
abbrev S_ : Shape := ⟨0, ![]⟩

class Facts : Prop where
  bcast_S_S25000x16 : S_.BroadcastsInDim S25000x16 (![] : Fin 0 → Fin S25000x16.rank)
  reducesTo_S25000x16_S_d0_1 : S25000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S25000x32 : S_.BroadcastsInDim S25000x32 (![] : Fin 0 → Fin S25000x32.rank)
  reducesTo_S25000x32_S_d0_1 : S25000x32.ReducesTo [0, 1] S_
  bcast_S_S32x64 : S_.BroadcastsInDim S32x64 (![] : Fin 0 → Fin S32x64.rank)
  reducesTo_S32x64_S_d0_1 : S32x64.ReducesTo [0, 1] S_
  bcast_S_S25000x64 : S_.BroadcastsInDim S25000x64 (![] : Fin 0 → Fin S25000x64.rank)
  reducesTo_S25000x64_S_d0_1 : S25000x64.ReducesTo [0, 1] S_
  bcast_S_S64x64 : S_.BroadcastsInDim S64x64 (![] : Fin 0 → Fin S64x64.rank)
  reducesTo_S64x64_S_d0_1 : S64x64.ReducesTo [0, 1] S_
  bcast_S_S25000x128 : S_.BroadcastsInDim S25000x128 (![] : Fin 0 → Fin S25000x128.rank)
  reducesTo_S25000x128_S_d0_1 : S25000x128.ReducesTo [0, 1] S_
  bcast_S_S128x64 : S_.BroadcastsInDim S128x64 (![] : Fin 0 → Fin S128x64.rank)
  reducesTo_S128x64_S_d0_1 : S128x64.ReducesTo [0, 1] S_

variable [Facts]

def fn_part5 {F : FTy → Type} [FloatOps F] (main_arg19 : FVec F S64x256 .f32) (main_arg20 : FVec F S256 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64x256 .f32 := Host.absf main_arg19
  let main_cst_34 : FVec F S_ .f32 := constant S_ .f32 0x7F800000#32
  let main_v90 : FVec F S64x256 .f32 := broadcastInDim S64x256 ![] bcast_S_S64x256 main_cst_34
  let main_v91 : IVec S64x256 1 := cmpf .olt main_v89 main_v90
  let main_c_35 : IVec S_ 1 := constantI S_ 1 1#1
  let main_v92 : IVec S_ 1 := (fun x v => Host.reduce IntOp.andi x v reducesTo_S64x256_S_d0_1 h_S_) main_v91 main_c_35
  let main_v93 : IVec S_ 1 := andi main_v88 main_v92
  let main_v94 : FVec F S256 .f32 := Host.absf main_arg20
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  main_v98

def fn_part4 {F : FTy → Type} [FloatOps F] (main_arg15 : FVec F S256 .f32) (main_arg16 : FVec F S25000x128 .f32) (main_arg17 : FVec F S128x64 .f32) (main_arg18 : FVec F S64 .f32) (main_arg19 : FVec F S64x256 .f32) (main_arg20 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S25000x128 .f32 := Host.absf main_arg16
  let main_cst_28 : FVec F S_ .f32 := constant S_ .f32 0x7F800000#32
  let main_v75 : FVec F S25000x128 .f32 := broadcastInDim S25000x128 ![] bcast_S_S25000x128 main_cst_28
  let main_v76 : IVec S25000x128 1 := cmpf .olt main_v74 main_v75
  let main_c_29 : IVec S_ 1 := constantI S_ 1 1#1
  let main_v77 : IVec S_ 1 := (fun x v => Host.reduce IntOp.andi x v reducesTo_S25000x128_S_d0_1 h_S_) main_v76 main_c_29
  let main_v78 : IVec S_ 1 := andi main_v73 main_v77
  let main_v79 : FVec F S128x64 .f32 := Host.absf main_arg17
  let main_cst_30 : FVec F S_ .f32 := constant S_ .f32 0x7F800000#32
  let main_v80 : FVec F S128x64 .f32 := broadcastInDim S128x64 ![] bcast_S_S128x64 main_cst_30
  let main_v81 : IVec S128x64 1 := cmpf .olt main_v79 main_v80
  let main_c_31 : IVec S_ 1 := constantI S_ 1 1#1
  let main_v82 : IVec S_ 1 := (fun x v => Host.reduce IntOp.andi x v reducesTo_S128x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S64x64 .f32) (main_arg13 : FVec F S64 .f32) (main_arg14 : FVec F S64x256 .f32) (main_arg15 : FVec F S256 .f32) (main_arg16 : FVec F S25000x128 .f32) (main_arg17 : FVec F S128x64 .f32) (main_arg18 : FVec F S64 .f32) (main_arg19 : FVec F S64x256 .f32) (main_arg20 : FVec F S256 .f32) (main_v48 : IVec S_ 1) (main_v49 : FVec F S25000x64 .f32) (main_v50 : FVec F S25000x64 .f32) : IVec S_ 1 :=
  let main_v51 : IVec S25000x64 1 := cmpf .olt main_v49 main_v50
  let main_c_19 : IVec S_ 1 := constantI S_ 1 1#1
  let main_v52 : IVec S_ 1 := (fun x v => Host.reduce IntOp.andi x v reducesTo_S25000x64_S_d0_1 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x256 .f32 := Host.absf main_arg14
  let main_cst_24 : FVec F S_ .f32 := constant S_ .f32 0x7F800000#32
  let main_v65 : FVec F S64x256 .f32 := broadcastInDim S64x256 ![] bcast_S_S64x256 main_cst_24
  let main_v66 : IVec S64x256 1 := cmpf .olt main_v64 main_v65
  let main_c_25 : IVec S_ 1 := constantI S_ 1 1#1
  let main_v67 : IVec S_ 1 := (fun x v => Host.reduce IntOp.andi x v reducesTo_S64x256_S_d0_1 h_S_) main_v66 main_c_25
  fn_part4 (F := F) main_arg15 main_arg16 main_arg17 main_arg18 main_arg19 main_arg20 main_v63 main_v67

def fn_part2 {F : FTy → Type} [FloatOps F] (main_arg8 : FVec F S64 .f32) (main_arg9 : FVec F S64x256 .f32) (main_arg10 : FVec F S256 .f32) (main_arg11 : FVec F S25000x64 .f32) (main_arg12 : FVec F S64x64 .f32) (main_arg13 : FVec F S64 .f32) (main_arg14 : FVec F S64x256 .f32) (main_arg15 : FVec F S256 .f32) (main_arg16 : FVec F S25000x128 .f32) (main_arg17 : FVec F S128x64 .f32) (main_arg18 : FVec F S64 .f32) (main_arg19 : FVec F S64x256 .f32) (main_arg20 : FVec F S256 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x256 .f32 := Host.absf main_arg9
  let main_cst_14 : FVec F S_ .f32 := constant S_ .f32 0x7F800000#32
  let main_v40 : FVec F S64x256 .f32 := broadcastInDim S64x256 ![] bcast_S_S64x256 main_cst_14
  let main_v41 : IVec S64x256 1 := cmpf .olt main_v39 main_v40
  let main_c_15 : IVec S_ 1 := constantI S_ 1 1#1
  let main_v42 : IVec S_ 1 := (fun x v => Host.reduce IntOp.andi x v reducesTo_S64x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S25000x64 .f32 := Host.absf main_arg11
  let main_cst_18 : FVec F S_ .f32 := constant S_ .f32 0x7F800000#32
  let main_v50 : FVec F S25000x64 .f32 := broadcastInDim S25000x64 ![] bcast_S_S25000x64 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S256 .f32) (main_arg6 : FVec F S25000x32 .f32) (main_arg7 : FVec F S32x64 .f32) (main_arg8 : FVec F S64 .f32) (main_arg9 : FVec F S64x256 .f32) (main_arg10 : FVec F S256 .f32) (main_arg11 : FVec F S25000x64 .f32) (main_arg12 : FVec F S64x64 .f32) (main_arg13 : FVec F S64 .f32) (main_arg14 : FVec F S64x256 .f32) (main_arg15 : FVec F S256 .f32) (main_arg16 : FVec F S25000x128 .f32) (main_arg17 : FVec F S128x64 .f32) (main_arg18 : FVec F S64 .f32) (main_arg19 : FVec F S64x256 .f32) (main_arg20 : FVec F S256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S25000x32 .f32 := Host.absf main_arg6
  let main_cst_8 : FVec F S_ .f32 := constant S_ .f32 0x7F800000#32
  let main_v25 : FVec F S25000x32 .f32 := broadcastInDim S25000x32 ![] bcast_S_S25000x32 main_cst_8
  let main_v26 : IVec S25000x32 1 := cmpf .olt main_v24 main_v25
  let main_c_9 : IVec S_ 1 := constantI S_ 1 1#1
  let main_v27 : IVec S_ 1 := (fun x v => Host.reduce IntOp.andi x v reducesTo_S25000x32_S_d0_1 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : IVec S4096x20 32) (main_arg1 : FVec F S25000x16 .f32) (main_arg2 : FVec F S16x64 .f32) (main_arg3 : FVec F S64 .f32) (main_arg4 : FVec F S64x256 .f32) (main_arg5 : FVec F S256 .f32) (main_arg6 : FVec F S25000x32 .f32) (main_arg7 : FVec F S32x64 .f32) (main_arg8 : FVec F S64 .f32) (main_arg9 : FVec F S64x256 .f32) (main_arg10 : FVec F S256 .f32) (main_arg11 : FVec F S25000x64 .f32) (main_arg12 : FVec F S64x64 .f32) (main_arg13 : FVec F S64 .f32) (main_arg14 : FVec F S64x256 .f32) (main_arg15 : FVec F S256 .f32) (main_arg16 : FVec F S25000x128 .f32) (main_arg17 : FVec F S128x64 .f32) (main_arg18 : FVec F S64 .f32) (main_arg19 : FVec F S64x256 .f32) (main_arg20 : FVec F S256 .f32) : IVec S_ 1 :=
  let main_v0 : FVec F S25000x16 .f32 := Host.absf main_arg1
  let main_cst : FVec F S_ .f32 := constant S_ .f32 0x7F800000#32
  let main_v1 : FVec F S25000x16 .f32 := broadcastInDim S25000x16 ![] bcast_S_S25000x16 main_cst
  let main_v2 : IVec S25000x16 1 := cmpf .olt main_v0 main_v1
  let main_c : IVec S_ 1 := constantI S_ 1 1#1
  let main_v3 : IVec S_ 1 := (fun x v => Host.reduce IntOp.andi x v reducesTo_S25000x16_S_d0_1 h_S_) main_v2 main_c
  let main_v4 : FVec F S16x64 .f32 := Host.absf main_arg2
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg4
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x20 : Shape := ⟨2, ![4096, 20]⟩
abbrev S25000x16 : Shape := ⟨2, ![25000, 16]⟩
abbrev S16x64 : Shape := ⟨2, ![16, 64]⟩
abbrev S64 : Shape := ⟨1, ![64]⟩
abbrev S64x256 : Shape := ⟨2, ![64, 256]⟩
abbrev S256 : Shape := ⟨1, ![256]⟩
abbrev S25000x32 : Shape := ⟨2, ![25000, 32]⟩
abbrev S32x64 : Shape := ⟨2, ![32, 64]⟩
abbrev S25000x64 : Shape := ⟨2, ![25000, 64]⟩
abbrev S64x64 : Shape := ⟨2, ![64, 64]⟩
abbrev S25000x128 : Shape := ⟨2, ![25000, 128]⟩
abbrev S128x64 : Shape := ⟨2, ![128, 64]⟩
abbrev S81920 : Shape := ⟨1, ![81920]⟩
abbrev S_ : Shape := ⟨0, ![]⟩
abbrev S25000x256 : Shape := ⟨2, ![25000, 256]⟩
abbrev S1 : Shape := ⟨1, ![1]⟩
abbrev S100000x256 : Shape := ⟨2, ![100000, 256]⟩
abbrev S100000 : Shape := ⟨1, ![100000]⟩
abbrev S81920x1 : Shape := ⟨2, ![81920, 1]⟩
abbrev S81920x256 : Shape := ⟨2, ![81920, 256]⟩
abbrev S256x256 : Shape := ⟨2, ![256, 256]⟩
abbrev S2 : Shape := ⟨1, ![2]⟩
abbrev S1x256 : Shape := ⟨2, ![1, 256]⟩
abbrev S4x256 : Shape := ⟨2, ![4, 256]⟩
abbrev S4096x1 : Shape := ⟨2, ![4096, 1]⟩
abbrev S4096x256 : Shape := ⟨2, ![4096, 256]⟩
abbrev S4096x4 : Shape := ⟨2, ![4096, 4]⟩
abbrev S4096x20x256 : Shape := ⟨3, ![4096, 20, 256]⟩

abbrev nBuf : Space → Nat
  | .hbm => 134
  | .vmem => 9
  | .smem => 0
  | _ => 0

abbrev hbmTy0_0 (i : Nat) : BufTy := match i % 128 with
  | 0 => ⟨S4096x20, .i32⟩
  | 1 => ⟨S25000x16, .f32⟩
  | 2 => ⟨S16x64, .f32⟩
  | 3 => ⟨S64, .f32⟩
  | 4 => ⟨S64x256, .f32⟩
  | 5 => ⟨S256, .f32⟩
  | 6 => ⟨S25000x32, .f32⟩
  | 7 => ⟨S32x64, .f32⟩
  | 8 => ⟨S64, .f32⟩
  | 9 => ⟨S64x256, .f32⟩
  | 10 => ⟨S256, .f32⟩
  | 11 => ⟨S25000x64, .f32⟩
  | 12 => ⟨S64x64, .f32⟩
  | 13 => ⟨S64, .f32⟩
  | 14 => ⟨S64x256, .f32⟩
  | 15 => ⟨S256, .f32⟩
  | 16 => ⟨S25000x128, .f32⟩
  | 17 => ⟨S128x64, .f32⟩
  | 18 => ⟨S64, .f32⟩
  | 19 => ⟨S64x256, .f32⟩
  | 20 => ⟨S256, .f32⟩
  | 21 => ⟨S81920, .i32⟩
  | 22 => ⟨S_, .i32⟩
  | 23 => ⟨S81920, .i32⟩
  | 24 => ⟨S81920, .i1⟩
  | 25 => ⟨S_, .i32⟩
  | 26 => ⟨S_, .i32⟩
  | 27 => ⟨S81920, .i32⟩
  | 28 => ⟨S81920, .i32⟩
  | 29 => ⟨S_, .bf16⟩
  | 30 => ⟨S25000x256, .bf16⟩
  | 31 => ⟨S25000x16, .bf16⟩
  | 32 => ⟨S_, .i32⟩
  | 33 => ⟨S1, .i32⟩
  | 34 => ⟨S25000x256, .bf16⟩
  | 35 => ⟨S_, .bf16⟩
  | 36 => ⟨S25000x256, .bf16⟩
  | 37 => ⟨S25000x32, .bf16⟩
  | 38 => ⟨S_, .i32⟩
  | 39 => ⟨S1, .i32⟩
  | 40 => ⟨S25000x256, .bf16⟩
  | 41 => ⟨S_, .bf16⟩
  | 42 => ⟨S25000x256, .bf16⟩
  | 43 => ⟨S25000x64, .bf16⟩
  | 44 => ⟨S_, .i32⟩
  | 45 => ⟨S1, .i32⟩
  | 46 => ⟨S25000x256, .bf16⟩
  | 47 => ⟨S_, .bf16⟩
  | 48 => ⟨S25000x256, .bf16⟩
  | 49 => ⟨S25000x128, .bf16⟩
  | 50 => ⟨S_, .i32⟩
  | 51 => ⟨S1, .i32⟩
  | 52 => ⟨S25000x256, .bf16⟩
  | 53 => ⟨S100000x256, .bf16⟩
  | 54 => ⟨S_, .i32⟩
  | 55 => ⟨S1, .i32⟩
  | 56 => ⟨S_, .bf16⟩
  | 57 => ⟨S100000, .bf16⟩
  | 58 => ⟨S100000x256, .bf16⟩
  | 59 => ⟨S81920x1, .i32⟩
  | 60 => ⟨S81920x256, .bf16⟩
  | 61 => ⟨S_, .i32⟩
  | 62 => ⟨S_, .i32⟩
  | 63 => ⟨S81920, .i32⟩
  | 64 => ⟨S81920, .i32⟩
  | 65 => ⟨S81920, .i32⟩
  | 66 => ⟨S_, .i32⟩
  | 67 => ⟨S81920, .i32⟩
  | 68 => ⟨S81920, .i1⟩
  | 69 => ⟨S81920, .i32⟩
  | 70 => ⟨S81920, .i32⟩
  | 71 => ⟨S_, .i32⟩
  | 72 => ⟨S81920, .i32⟩
  | 73 => ⟨S81920, .i1⟩
  | 74 => ⟨S81920, .i1⟩
  | 75 => ⟨S_, .i32⟩
  | 76 => ⟨S81920, .i32⟩
  | 77 => ⟨S81920, .i32⟩
  | 78 => ⟨S81920, .i32⟩
  | 79 => ⟨S81920x1, .i32⟩
  | 80 => ⟨S64, .bf16⟩
  | 81 => ⟨S64, .bf16⟩
  | 82 => ⟨S64, .bf16⟩
  | 83 => ⟨S64, .bf16⟩
  | 84 => ⟨S256, .bf16⟩
  | 85 => ⟨S_, .bf16⟩
  | 86 => ⟨S256x256, .bf16⟩
  | 87 => ⟨S16x64, .bf16⟩
  | 88 => ⟨S_, .i32⟩
  | 89 => ⟨S1, .i32⟩
  | 90 => ⟨S_, .i32⟩
  | 91 => ⟨S1, .i32⟩
  | 92 => ⟨S2, .i32⟩
  | 93 => ⟨S256x256, .bf16⟩
  | 94 => ⟨S32x64, .bf16⟩
  | 95 => ⟨S_, .i32⟩
  | 96 => ⟨S1, .i32⟩
  | 97 => ⟨S_, .i32⟩
  | 98 => ⟨S1, .i32⟩
  | 99 => ⟨S2, .i32⟩
  | 100 => ⟨S256x256, .bf16⟩
  | 101 => ⟨S64x64, .bf16⟩
  | 102 => ⟨S_, .i32⟩
  | 103 => ⟨S1, .i32⟩
  | 104 => ⟨S_, .i32⟩
  | 105 => ⟨S1, .i32⟩
  | 106 => ⟨S2, .i32⟩
  | 107 => ⟨S256x256, .bf16⟩
  | 108 => ⟨S128x64, .bf16⟩
  | 109 => ⟨S_, .i32⟩
  | 110 => ⟨S1, .i32⟩
  | 111 => ⟨S_, .i32⟩
  | 112 => ⟨S1, .i32⟩
  | 113 => ⟨S2, .i32⟩
  | 114 => ⟨S256x256, .bf16⟩
  | 115 => ⟨S_, .i32⟩
  | 116 => ⟨S1, .i32⟩
  | 117 => ⟨S256x256, .bf16⟩
  | 118 => ⟨S64x256, .bf16⟩
  | 119 => ⟨S64x256, .bf16⟩
  | 120 => ⟨S64x256, .bf16⟩
  | 121 => ⟨S64x256, .bf16⟩
  | 122 => ⟨S256x256, .bf16⟩
  | 123 => ⟨S256, .bf16⟩
  | 124 => ⟨S256, .bf16⟩
  | 125 => ⟨S256, .bf16⟩
  | 126 => ⟨S256, .bf16⟩
  | 127 => ⟨S1x256, .bf16⟩
  | _ => ⟨S4096x20, .i32⟩

abbrev hbmTy0_1 (i : Nat) : BufTy := match i % 128 with
  | 0 => ⟨S1x256, .bf16⟩
  | 1 => ⟨S1x256, .bf16⟩
  | 2 => ⟨S1x256, .bf16⟩
  | 3 => ⟨S4x256, .bf16⟩
  | 4 => ⟨S81920x256, .f32⟩
  | 5 => ⟨S4096x20x256, .f32⟩
  | _ => ⟨S4096x20, .i32⟩

abbrev hbmTy (i : Nat) : BufTy := match i / 128 with
  | 0 => hbmTy0_0 i
  | 1 => hbmTy0_1 i
  | _ => ⟨S4096x20, .i32⟩

abbrev bufTy : (tb : Table) → Fin (tcTables nBuf tb) → BufTy
  | .hbm, ⟨i, _⟩ => hbmTy i
  | .local _ .vmem, ⟨0, _⟩ => ⟨S4096x1, .i32⟩
  | .local _ .vmem, ⟨1, _⟩ => ⟨S4096x1, .i32⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4x256, .bf16⟩
  | .local _ .vmem, ⟨7, _⟩ => ⟨S4096x256, .f32⟩
  | .local _ .vmem, ⟨8, _⟩ => ⟨S4096x256, .f32⟩
  | _, _ => ⟨S4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_c : Ref sig .tc := ⟨.hbm, 22, rfl⟩
abbrev main_v1 : Ref sig .tc := ⟨.hbm, 23, rfl⟩
abbrev main_v2 : Ref sig .tc := ⟨.hbm, 24, rfl⟩
abbrev main_c_0 : Ref sig .tc := ⟨.hbm, 25, rfl⟩
abbrev main_call0_v0 : Ref sig .tc := ⟨.hbm, 26, rfl⟩
abbrev main_call0_v1 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_cst_4 : Ref sig .tc := ⟨.hbm, 41, rfl⟩
abbrev main_v12 : Ref sig .tc := ⟨.hbm, 42, rfl⟩
abbrev main_v13 : Ref sig .tc := ⟨.hbm, 43, rfl⟩
abbrev main_c_5 : Ref sig .tc := ⟨.hbm, 44, rfl⟩
abbrev main_v14 : Ref sig .tc := ⟨.hbm, 45, rfl⟩
abbrev main_v15 : Ref sig .tc := ⟨.hbm, 46, rfl⟩
abbrev main_cst_6 : Ref sig .tc := ⟨.hbm, 47, rfl⟩
abbrev main_v16 : Ref sig .tc := ⟨.hbm, 48, rfl⟩
abbrev main_v17 : Ref sig .tc := ⟨.hbm, 49, rfl⟩
abbrev main_c_7 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_c_8 : Ref sig .tc := ⟨.hbm, 54, rfl⟩
abbrev main_v21 : Ref sig .tc := ⟨.hbm, 55, rfl⟩
abbrev main_cst_9 : Ref sig .tc := ⟨.hbm, 56, rfl⟩
abbrev main_v22 : Ref sig .tc := ⟨.hbm, 57, rfl⟩
abbrev main_v23 : Ref sig .tc := ⟨.hbm, 58, rfl⟩
abbrev main_call1_v0 : Ref sig .tc := ⟨.hbm, 59, rfl⟩
abbrev main_v24 : Ref sig .tc := ⟨.hbm, 60, rfl⟩
abbrev main_c_10 : Ref sig .tc := ⟨.hbm, 61, rfl⟩
abbrev main_call2_v0 : Ref sig .tc := ⟨.hbm, 62, rfl⟩
abbrev main_call2_v1 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_c : Ref sig .tc := ⟨.hbm, 71, rfl⟩
abbrev main_call2_v9 : Ref sig .tc := ⟨.hbm, 72, rfl⟩
abbrev main_call2_v10 : Ref sig .tc := ⟨.hbm, 73, rfl⟩
abbrev main_call2_v11 : Ref sig .tc := ⟨.hbm, 74, rfl⟩
abbrev main_call2_c_0 : Ref sig .tc := ⟨.hbm, 75, rfl⟩
abbrev main_call2_v12 : Ref sig .tc := ⟨.hbm, 76, rfl⟩
abbrev main_call2_v13 : Ref sig .tc := ⟨.hbm, 77, rfl⟩
abbrev main_v25 : Ref sig .tc := ⟨.hbm, 78, rfl⟩
abbrev main_v26 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_11 : Ref sig .tc := ⟨.hbm, 85, rfl⟩
abbrev main_v32 : Ref sig .tc := ⟨.hbm, 86, rfl⟩
abbrev main_v33 : Ref sig .tc := ⟨.hbm, 87, rfl⟩
abbrev main_c_12 : Ref sig .tc := ⟨.hbm, 88, rfl⟩
abbrev main_v34 : Ref sig .tc := ⟨.hbm, 89, rfl⟩
abbrev main_c_13 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_c_14 : Ref sig .tc := ⟨.hbm, 95, rfl⟩
abbrev main_v39 : Ref sig .tc := ⟨.hbm, 96, rfl⟩
abbrev main_c_15 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_c_16 : Ref sig .tc := ⟨.hbm, 102, rfl⟩
abbrev main_v44 : Ref sig .tc := ⟨.hbm, 103, rfl⟩
abbrev main_c_17 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_18 : Ref sig .tc := ⟨.hbm, 109, rfl⟩
abbrev main_v49 : Ref sig .tc := ⟨.hbm, 110, rfl⟩
abbrev main_c_19 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_c_20 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_v63 : Ref sig .tc := ⟨.hbm, 126, rfl⟩
abbrev main_v64 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096x20_S81920 : S4096x20.ShapeCasts S81920
  bcast_S_S81920 : S_.BroadcastsInDim S81920 (![] : Fin 0 → Fin S81920.rank)
  bcast_S_S25000x256 : S_.BroadcastsInDim S25000x256 (![] : Fin 0 → Fin S25000x256.rank)
  bitsLt_bf16_f32 : FTy.bits .bf16 < FTy.bits .f32
  bcast_S_S1 : S_.BroadcastsInDim S1 (![] : Fin 0 → Fin S1.rank)
  concatenates_S25000x256_S25000x256_S25000x256_S25000x256_S100000x256_d0 : Shape.Concatenates [S25000x256, S25000x256, S25000x256, S25000x256] S100000x256 0
  bcast_S_S100000 : S_.BroadcastsInDim S100000 (![] : Fin 0 → Fin S100000.rank)
  bcast_S81920_S81920x1_0 : S81920.BroadcastsInDim S81920x1 (![0] : Fin 1 → Fin S81920x1.rank)
  shapeCasts_S81920_S81920x1 : S81920.ShapeCasts S81920x1
  concatenates_S64_S64_S64_S64_S256_d0 : Shape.Concatenates [S64, S64, S64, S64] S256 0
  bcast_S_S256x256 : S_.BroadcastsInDim S256x256 (![] : Fin 0 → Fin S256x256.rank)
  concatenates_S1_S1_S2_d0 : Shape.Concatenates [S1, S1] S2 0
  concatenates_S64x256_S64x256_S64x256_S64x256_S256x256_d0 : Shape.Concatenates [S64x256, S64x256, S64x256, S64x256] S256x256 0
  bcast_S256_S1x256_1 : S256.BroadcastsInDim S1x256 (![1] : Fin 1 → Fin S1x256.rank)
  concatenates_S1x256_S1x256_S1x256_S1x256_S4x256_d0 : Shape.Concatenates [S1x256, S1x256, S1x256, S1x256] S4x256 0
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  iota_S4096x256_d1_w32 : S4096x256.Iotas .tc 32 [1]
  natLt_1_32 : 1 < 32
  broadcasts_S4096x1_S4096x256 : S4096x1.Broadcasts S4096x256
  iota_S4096x4_d1_w32 : S4096x4.Iotas .tc 32 [1]
  broadcasts_S4096x1_S4096x4 : S4096x1.Broadcasts S4096x4
  inb_S4x256_S4x256_0_0 : ∀ a, (![0, 0] : Fin 2 → Nat) a + S4x256.size a ≤ S4x256.size a
  h_S4x256 : 0 < S4x256.numel
  shapeCasts_S4x256_S4x256 : S4x256.ShapeCasts S4x256
  shapeCasts_S81920x256_S4096x20x256 : S81920x256.ShapeCasts S4096x20x256
  scatter_S25000x256_S1_S25000x16_01_n_1_0_wf : ScatterDims.WF S25000x256 S1 S25000x16 [0, 1] [] [1] 0
  scatter_S25000x256_S1_S25000x32_01_n_1_0_wf : ScatterDims.WF S25000x256 S1 S25000x32 [0, 1] [] [1] 0
  scatter_S25000x256_S1_S25000x64_01_n_1_0_wf : ScatterDims.WF S25000x256 S1 S25000x64 [0, 1] [] [1] 0
  scatter_S25000x256_S1_S25000x128_01_n_1_0_wf : ScatterDims.WF S25000x256 S1 S25000x128 [0, 1] [] [1] 0
  scatter_S100000x256_S1_S100000_0_1_1_0_wf : ScatterDims.WF S100000x256 S1 S100000 [0] [1] [1] 0
  gather_S100000x256_S81920x1_S81920x256_1_0_n_n_0_1_1256_wf : GatherDims.WF S100000x256 S81920x1 S81920x256 [1] [0] [] [0] [] 1 ![1, 256]
  scatter_S256x256_S2_S16x64_01_n_01_0_wf : ScatterDims.WF S256x256 S2 S16x64 [0, 1] [] [0, 1] 0
  scatter_S256x256_S2_S32x64_01_n_01_0_wf : ScatterDims.WF S256x256 S2 S32x64 [0, 1] [] [0, 1] 0
  scatter_S256x256_S2_S64x64_01_n_01_0_wf : ScatterDims.WF S256x256 S2 S64x64 [0, 1] [] [0, 1] 0
  scatter_S256x256_S2_S128x64_01_n_01_0_wf : ScatterDims.WF S256x256 S2 S128x64 [0, 1] [] [0, 1] 0
  scatter_S256x256_S1_S256_0_0_0_0_wf : ScatterDims.WF S256x256 S1 S256 [0] [0] [0] 0
  dot_S4096x256_S256x256_S4096x256_1_0_0_1_n_n_wf : DotDims.WF S4096x256 S256x256 S4096x256 [1] [0] [0] [1] [] []
  dot_S4096x4_S4x256_S4096x256_1_0_0_1_n_n_wf : DotDims.WF S4096x4 S4x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S81920x1.size a
  hwx0_0 : ∀ i : grid0.Coords, EltTy.bits .i32 = 32 ∨ (Rect.block (s := S81920x1) S4096x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S81920x256.size a
  hwx0_1 : ∀ i : grid0.Coords, EltTy.bits .bf16 = 32 ∨ (Rect.block (s := S81920x256) S4096x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x256.size a ≤ S4x256.size a
  hwx0_4 : ∀ i : grid0.Coords, EltTy.bits .bf16 = 32 ∨ (Rect.block (s := S4x256) S4x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x256.size a ≤ S81920x256.size a
  hwx0_5 : ∀ i : grid0.Coords, EltTy.bits .f32 = 32 ∨ (Rect.block (s := S81920x256) S4096x256.size (cc0_transform_5 i) (hinb0_5 i)).WholeWords (EltTy.packing .f32)

variable [Facts₀]

def scatter_S25000x256_S1_S25000x16_01_n_1_0 : ScatterDims S25000x256 S1 S25000x16 where
  updateWindowDims := [0, 1]
  insertedWindowDims := []
  scatterDimsToOperandDims := [1]
  indexVectorDim := 0
  wf := scatter_S25000x256_S1_S25000x16_01_n_1_0_wf
def scatter_S25000x256_S1_S25000x32_01_n_1_0 : ScatterDims S25000x256 S1 S25000x32 where
  updateWindowDims := [0, 1]
  insertedWindowDims := []
  scatterDimsToOperandDims := [1]
  indexVectorDim := 0
  wf := scatter_S25000x256_S1_S25000x32_01_n_1_0_wf
def scatter_S25000x256_S1_S25000x64_01_n_1_0 : ScatterDims S25000x256 S1 S25000x64 where
  updateWindowDims := [0, 1]
  insertedWindowDims := []
  scatterDimsToOperandDims := [1]
  indexVectorDim := 0
  wf := scatter_S25000x256_S1_S25000x64_01_n_1_0_wf
def scatter_S25000x256_S1_S25000x128_01_n_1_0 : ScatterDims S25000x256 S1 S25000x128 where
  updateWindowDims := [0, 1]
  insertedWindowDims := []
  scatterDimsToOperandDims := [1]
  indexVectorDim := 0
  wf := scatter_S25000x256_S1_S25000x128_01_n_1_0_wf
def scatter_S100000x256_S1_S100000_0_1_1_0 : ScatterDims S100000x256 S1 S100000 where
  updateWindowDims := [0]
  insertedWindowDims := [1]
  scatterDimsToOperandDims := [1]
  indexVectorDim := 0
  wf := scatter_S100000x256_S1_S100000_0_1_1_0_wf
def gather_S100000x256_S81920x1_S81920x256_1_0_n_n_0_1_1256 : GatherDims S100000x256 S81920x1 S81920x256 where
  offsetDims := [1]
  collapsedSliceDims := [0]
  operandBatchingDims := []
  startIndicesBatchingDims := []
  startIndexMap := [0]
  indexVectorDim := 1
  sliceSizes := ![1, 256]
  wf := gather_S100000x256_S81920x1_S81920x256_1_0_n_n_0_1_1256_wf
def scatter_S256x256_S2_S16x64_01_n_01_0 : ScatterDims S256x256 S2 S16x64 where
  updateWindowDims := [0, 1]
  insertedWindowDims := []
  scatterDimsToOperandDims := [0, 1]
  indexVectorDim := 0
  wf := scatter_S256x256_S2_S16x64_01_n_01_0_wf
def scatter_S256x256_S2_S32x64_01_n_01_0 : ScatterDims S256x256 S2 S32x64 where
  updateWindowDims := [0, 1]
  insertedWindowDims := []
  scatterDimsToOperandDims := [0, 1]
  indexVectorDim := 0
  wf := scatter_S256x256_S2_S32x64_01_n_01_0_wf
def scatter_S256x256_S2_S64x64_01_n_01_0 : ScatterDims S256x256 S2 S64x64 where
  updateWindowDims := [0, 1]
  insertedWindowDims := []
  scatterDimsToOperandDims := [0, 1]
  indexVectorDim := 0
  wf := scatter_S256x256_S2_S64x64_01_n_01_0_wf
def scatter_S256x256_S2_S128x64_01_n_01_0 : ScatterDims S256x256 S2 S128x64 where
  updateWindowDims := [0, 1]
  insertedWindowDims := []
  scatterDimsToOperandDims := [0, 1]
  indexVectorDim := 0
  wf := scatter_S256x256_S2_S128x64_01_n_01_0_wf
def scatter_S256x256_S1_S256_0_0_0_0 : ScatterDims S256x256 S1 S256 where
  updateWindowDims := [0]
  insertedWindowDims := [0]
  scatterDimsToOperandDims := [0]
  indexVectorDim := 0
  wf := scatter_S256x256_S1_S256_0_0_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x4_S4x256_S4096x256_1_0_0_1_n_n : DotDims S4096x4 S4x256 S4096x256 where
  lhsContracting := [1]
  rhsContracting := [0]
  lhsNonContracting := [0]
  rhsNonContracting := [1]
  lhsBatch := []
  rhsBatch := []
  wf := dot_S4096x4_S4x256_S4096x256_1_0_0_1_n_n_wf

abbrev win0_0 : Pipeline.Window sig grid0 :=
  Pipeline.Window.ofSpec (Memref.whole main_v26) S4096x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S4096x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v68) S4x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v69) S4096x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x20 : Shape := ⟨2, ![4096, 20]⟩
abbrev S25000x16 : Shape := ⟨2, ![25000, 16]⟩
abbrev S16x64 : Shape := ⟨2, ![16, 64]⟩
abbrev S64 : Shape := ⟨1, ![64]⟩
abbrev S64x256 : Shape := ⟨2, ![64, 256]⟩
abbrev S256 : Shape := ⟨1, ![256]⟩
abbrev S25000x32 : Shape := ⟨2, ![25000, 32]⟩
abbrev S32x64 : Shape := ⟨2, ![32, 64]⟩
abbrev S25000x64 : Shape := ⟨2, ![25000, 64]⟩
abbrev S64x64 : Shape := ⟨2, ![64, 64]⟩
abbrev S25000x128 : Shape := ⟨2, ![25000, 128]⟩
abbrev S128x64 : Shape := ⟨2, ![128, 64]⟩
abbrev S_ : Shape := ⟨0, ![]⟩
abbrev S4096x20x256 : Shape := ⟨3, ![4096, 20, 256]⟩
abbrev S4096x20x1 : Shape := ⟨3, ![4096, 20, 1]⟩
abbrev S4096x20x16 : Shape := ⟨3, ![4096, 20, 16]⟩
abbrev S4096x20x64 : Shape := ⟨3, ![4096, 20, 64]⟩
abbrev S1x1x64 : Shape := ⟨3, ![1, 1, 64]⟩
abbrev S1x1x256 : Shape := ⟨3, ![1, 1, 256]⟩
abbrev S4096x20x32 : Shape := ⟨3, ![4096, 20, 32]⟩
abbrev S4096x20x128 : Shape := ⟨3, ![4096, 20, 128]⟩

abbrev nBuf : Space → Nat
  | .hbm => 194
  | .vmem => 0
  | .smem => 0
  | _ => 0

abbrev hbmTy0_0 (i : Nat) : BufTy := match i % 128 with
  | 0 => ⟨S4096x20, .i32⟩
  | 1 => ⟨S25000x16, .f32⟩
  | 2 => ⟨S16x64, .f32⟩
  | 3 => ⟨S64, .f32⟩
  | 4 => ⟨S64x256, .f32⟩
  | 5 => ⟨S256, .f32⟩
  | 6 => ⟨S25000x32, .f32⟩
  | 7 => ⟨S32x64, .f32⟩
  | 8 => ⟨S64, .f32⟩
  | 9 => ⟨S64x256, .f32⟩
  | 10 => ⟨S256, .f32⟩
  | 11 => ⟨S25000x64, .f32⟩
  | 12 => ⟨S64x64, .f32⟩
  | 13 => ⟨S64, .f32⟩
  | 14 => ⟨S64x256, .f32⟩
  | 15 => ⟨S256, .f32⟩
  | 16 => ⟨S25000x128, .f32⟩
  | 17 => ⟨S128x64, .f32⟩
  | 18 => ⟨S64, .f32⟩
  | 19 => ⟨S64x256, .f32⟩
  | 20 => ⟨S256, .f32⟩
  | 21 => ⟨S_, .i32⟩
  | 22 => ⟨S4096x20, .i32⟩
  | 23 => ⟨S4096x20, .i1⟩
  | 24 => ⟨S_, .i32⟩
  | 25 => ⟨S_, .i32⟩
  | 26 => ⟨S4096x20, .i32⟩
  | 27 => ⟨S4096x20, .i32⟩
  | 28 => ⟨S_, .f32⟩
  | 29 => ⟨S4096x20x256, .f32⟩
  | 30 => ⟨S_, .i32⟩
  | 31 => ⟨S4096x20, .i32⟩
  | 32 => ⟨S4096x20, .i1⟩
  | 33 => ⟨S_, .i32⟩
  | 34 => ⟨S4096x20, .i32⟩
  | 35 => ⟨S4096x20, .i1⟩
  | 36 => ⟨S4096x20, .i1⟩
  | 37 => ⟨S_, .i32⟩
  | 38 => ⟨S4096x20, .i32⟩
  | 39 => ⟨S4096x20, .i32⟩
  | 40 => ⟨S_, .i32⟩
  | 41 => ⟨S_, .i32⟩
  | 42 => ⟨S_, .i32⟩
  | 43 => ⟨S4096x20, .i32⟩
  | 44 => ⟨S4096x20, .i32⟩
  | 45 => ⟨S_, .i32⟩
  | 46 => ⟨S4096x20, .i32⟩
  | 47 => ⟨S4096x20, .i32⟩
  | 48 => ⟨S_, .i32⟩
  | 49 => ⟨S4096x20, .i32⟩
  | 50 => ⟨S4096x20, .i1⟩
  | 51 => ⟨S_, .i32⟩
  | 52 => ⟨S4096x20, .i32⟩
  | 53 => ⟨S4096x20, .i32⟩
  | 54 => ⟨S4096x20, .i32⟩
  | 55 => ⟨S4096x20x1, .i32⟩
  | 56 => ⟨S4096x20x16, .f32⟩
  | 57 => ⟨S4096x20x64, .f32⟩
  | 58 => ⟨S1x1x64, .f32⟩
  | 59 => ⟨S4096x20x64, .f32⟩
  | 60 => ⟨S4096x20x64, .f32⟩
  | 61 => ⟨S_, .f32⟩
  | 62 => ⟨S4096x20x64, .f32⟩
  | 63 => ⟨S4096x20x64, .f32⟩
  | 64 => ⟨S4096x20x256, .f32⟩
  | 65 => ⟨S1x1x256, .f32⟩
  | 66 => ⟨S4096x20x256, .f32⟩
  | 67 => ⟨S4096x20x256, .f32⟩
  | 68 => ⟨S4096x20x1, .i1⟩
  | 69 => ⟨S4096x20x256, .i1⟩
  | 70 => ⟨S4096x20x256, .f32⟩
  | 71 => ⟨S_, .i32⟩
  | 72 => ⟨S4096x20, .i32⟩
  | 73 => ⟨S4096x20, .i1⟩
  | 74 => ⟨S_, .i32⟩
  | 75 => ⟨S4096x20, .i32⟩
  | 76 => ⟨S4096x20, .i1⟩
  | 77 => ⟨S4096x20, .i1⟩
  | 78 => ⟨S_, .i32⟩
  | 79 => ⟨S4096x20, .i32⟩
  | 80 => ⟨S4096x20, .i32⟩
  | 81 => ⟨S_, .i32⟩
  | 82 => ⟨S_, .i32⟩
  | 83 => ⟨S_, .i32⟩
  | 84 => ⟨S4096x20, .i32⟩
  | 85 => ⟨S4096x20, .i32⟩
  | 86 => ⟨S_, .i32⟩
  | 87 => ⟨S4096x20, .i32⟩
  | 88 => ⟨S4096x20, .i32⟩
  | 89 => ⟨S_, .i32⟩
  | 90 => ⟨S4096x20, .i32⟩
  | 91 => ⟨S4096x20, .i1⟩
  | 92 => ⟨S_, .i32⟩
  | 93 => ⟨S4096x20, .i32⟩
  | 94 => ⟨S4096x20, .i32⟩
  | 95 => ⟨S4096x20, .i32⟩
  | 96 => ⟨S4096x20x1, .i32⟩
  | 97 => ⟨S4096x20x32, .f32⟩
  | 98 => ⟨S4096x20x64, .f32⟩
  | 99 => ⟨S1x1x64, .f32⟩
  | 100 => ⟨S4096x20x64, .f32⟩
  | 101 => ⟨S4096x20x64, .f32⟩
  | 102 => ⟨S_, .f32⟩
  | 103 => ⟨S4096x20x64, .f32⟩
  | 104 => ⟨S4096x20x64, .f32⟩
  | 105 => ⟨S4096x20x256, .f32⟩
  | 106 => ⟨S1x1x256, .f32⟩
  | 107 => ⟨S4096x20x256, .f32⟩
  | 108 => ⟨S4096x20x256, .f32⟩
  | 109 => ⟨S4096x20x1, .i1⟩
  | 110 => ⟨S4096x20x256, .i1⟩
  | 111 => ⟨S4096x20x256, .f32⟩
  | 112 => ⟨S_, .i32⟩
  | 113 => ⟨S4096x20, .i32⟩
  | 114 => ⟨S4096x20, .i1⟩
  | 115 => ⟨S_, .i32⟩
  | 116 => ⟨S4096x20, .i32⟩
  | 117 => ⟨S4096x20, .i1⟩
  | 118 => ⟨S4096x20, .i1⟩
  | 119 => ⟨S_, .i32⟩
  | 120 => ⟨S4096x20, .i32⟩
  | 121 => ⟨S4096x20, .i32⟩
  | 122 => ⟨S_, .i32⟩
  | 123 => ⟨S_, .i32⟩
  | 124 => ⟨S_, .i32⟩
  | 125 => ⟨S4096x20, .i32⟩
  | 126 => ⟨S4096x20, .i32⟩
  | 127 => ⟨S_, .i32⟩
  | _ => ⟨S4096x20, .i32⟩

abbrev hbmTy0_1 (i : Nat) : BufTy := match i % 128 with
  | 0 => ⟨S4096x20, .i32⟩
  | 1 => ⟨S4096x20, .i32⟩
  | 2 => ⟨S_, .i32⟩
  | 3 => ⟨S4096x20, .i32⟩
  | 4 => ⟨S4096x20, .i1⟩
  | 5 => ⟨S_, .i32⟩
  | 6 => ⟨S4096x20, .i32⟩
  | 7 => ⟨S4096x20, .i32⟩
  | 8 => ⟨S4096x20, .i32⟩
  | 9 => ⟨S4096x20x1, .i32⟩
  | 10 => ⟨S4096x20x64, .f32⟩
  | 11 => ⟨S4096x20x64, .f32⟩
  | 12 => ⟨S1x1x64, .f32⟩
  | 13 => ⟨S4096x20x64, .f32⟩
  | 14 => ⟨S4096x20x64, .f32⟩
  | 15 => ⟨S_, .f32⟩
  | 16 => ⟨S4096x20x64, .f32⟩
  | 17 => ⟨S4096x20x64, .f32⟩
  | 18 => ⟨S4096x20x256, .f32⟩
  | 19 => ⟨S1x1x256, .f32⟩
  | 20 => ⟨S4096x20x256, .f32⟩
  | 21 => ⟨S4096x20x256, .f32⟩
  | 22 => ⟨S4096x20x1, .i1⟩
  | 23 => ⟨S4096x20x256, .i1⟩
  | 24 => ⟨S4096x20x256, .f32⟩
  | 25 => ⟨S_, .i32⟩
  | 26 => ⟨S4096x20, .i32⟩
  | 27 => ⟨S4096x20, .i1⟩
  | 28 => ⟨S_, .i32⟩
  | 29 => ⟨S4096x20, .i32⟩
  | 30 => ⟨S4096x20, .i1⟩
  | 31 => ⟨S4096x20, .i1⟩
  | 32 => ⟨S_, .i32⟩
  | 33 => ⟨S4096x20, .i32⟩
  | 34 => ⟨S4096x20, .i32⟩
  | 35 => ⟨S_, .i32⟩
  | 36 => ⟨S_, .i32⟩
  | 37 => ⟨S_, .i32⟩
  | 38 => ⟨S4096x20, .i32⟩
  | 39 => ⟨S4096x20, .i32⟩
  | 40 => ⟨S_, .i32⟩
  | 41 => ⟨S4096x20, .i32⟩
  | 42 => ⟨S4096x20, .i32⟩
  | 43 => ⟨S_, .i32⟩
  | 44 => ⟨S4096x20, .i32⟩
  | 45 => ⟨S4096x20, .i1⟩
  | 46 => ⟨S_, .i32⟩
  | 47 => ⟨S4096x20, .i32⟩
  | 48 => ⟨S4096x20, .i32⟩
  | 49 => ⟨S4096x20, .i32⟩
  | 50 => ⟨S4096x20x1, .i32⟩
  | 51 => ⟨S4096x20x128, .f32⟩
  | 52 => ⟨S4096x20x64, .f32⟩
  | 53 => ⟨S1x1x64, .f32⟩
  | 54 => ⟨S4096x20x64, .f32⟩
  | 55 => ⟨S4096x20x64, .f32⟩
  | 56 => ⟨S_, .f32⟩
  | 57 => ⟨S4096x20x64, .f32⟩
  | 58 => ⟨S4096x20x64, .f32⟩
  | 59 => ⟨S4096x20x256, .f32⟩
  | 60 => ⟨S1x1x256, .f32⟩
  | 61 => ⟨S4096x20x256, .f32⟩
  | 62 => ⟨S4096x20x256, .f32⟩
  | 63 => ⟨S4096x20x1, .i1⟩
  | 64 => ⟨S4096x20x256, .i1⟩
  | 65 => ⟨S4096x20x256, .f32⟩
  | _ => ⟨S4096x20, .i32⟩

abbrev hbmTy (i : Nat) : BufTy := match i / 128 with
  | 0 => hbmTy0_0 i
  | 1 => hbmTy0_1 i
  | _ => ⟨S4096x20, .i32⟩

abbrev bufTy : (tb : Table) → Fin (tcTables nBuf tb) → BufTy
  | .hbm, ⟨i, _⟩ => hbmTy i
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_call0_v0 : Ref sig .tc := ⟨.hbm, 25, rfl⟩
abbrev main_call0_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_c_2 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_c_4 : Ref sig .tc := ⟨.hbm, 40, rfl⟩
abbrev main_c_5 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_v11 : Ref sig .tc := ⟨.hbm, 47, rfl⟩
abbrev main_c_6 : Ref sig .tc := ⟨.hbm, 48, rfl⟩
abbrev main_v12 : Ref sig .tc := ⟨.hbm, 49, rfl⟩
abbrev main_v13 : Ref sig .tc := ⟨.hbm, 50, rfl⟩
abbrev main_c_7 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_call2_cst : Ref sig .tc := ⟨.hbm, 61, rfl⟩
abbrev main_call2_v0 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_call3_v0 : Ref sig .tc := ⟨.hbm, 69, rfl⟩
abbrev main_v29 : Ref sig .tc := ⟨.hbm, 70, rfl⟩
abbrev main_c_8 : Ref sig .tc := ⟨.hbm, 71, rfl⟩
abbrev main_v30 : Ref sig .tc := ⟨.hbm, 72, rfl⟩
abbrev main_v31 : Ref sig .tc := ⟨.hbm, 73, rfl⟩
abbrev main_c_9 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_c_10 : Ref sig .tc := ⟨.hbm, 78, rfl⟩
abbrev main_v35 : Ref sig .tc := ⟨.hbm, 79, rfl⟩
abbrev main_v36 : Ref sig .tc := ⟨.hbm, 80, rfl⟩
abbrev main_c_11 : Ref sig .tc := ⟨.hbm, 81, rfl⟩
abbrev main_c_12 : Ref sig .tc := ⟨.hbm, 82, rfl⟩
abbrev main_call4_v0 : Ref sig .tc := ⟨.hbm, 83, rfl⟩
abbrev main_call4_v1 : Ref sig .tc := ⟨.hbm, 84, rfl⟩
abbrev main_call4_v2 : Ref sig .tc := ⟨.hbm, 85, rfl⟩
abbrev main_call4_v3 : Ref sig .tc := ⟨.hbm, 86, rfl⟩
abbrev main_call4_v4 : Ref sig .tc := ⟨.hbm, 87, rfl⟩
abbrev main_v37 : Ref sig .tc := ⟨.hbm, 88, rfl⟩
abbrev main_c_13 : Ref sig .tc := ⟨.hbm, 89, rfl⟩
abbrev main_v38 : Ref sig .tc := ⟨.hbm, 90, rfl⟩
abbrev main_v39 : Ref sig .tc := ⟨.hbm, 91, rfl⟩
abbrev main_c_14 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_call5_cst : Ref sig .tc := ⟨.hbm, 102, rfl⟩
abbrev main_call5_v0 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_v53 : Ref sig .tc := ⟨.hbm, 108, rfl⟩
abbrev main_v54 : Ref sig .tc := ⟨.hbm, 109, rfl⟩
abbrev main_call6_v0 : Ref sig .tc := ⟨.hbm, 110, rfl⟩
abbrev main_v55 : Ref sig .tc := ⟨.hbm, 111, rfl⟩
abbrev main_c_15 : Ref sig .tc := ⟨.hbm, 112, rfl⟩
abbrev main_v56 : Ref sig .tc := ⟨.hbm, 113, rfl⟩
abbrev main_v57 : Ref sig .tc := ⟨.hbm, 114, rfl⟩
abbrev main_c_16 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_c_17 : Ref sig .tc := ⟨.hbm, 119, rfl⟩
abbrev main_v61 : Ref sig .tc := ⟨.hbm, 120, rfl⟩
abbrev main_v62 : Ref sig .tc := ⟨.hbm, 121, rfl⟩
abbrev main_c_18 : Ref sig .tc := ⟨.hbm, 122, rfl⟩
abbrev main_c_19 : Ref sig .tc := ⟨.hbm, 123, rfl⟩
abbrev main_call7_v0 : Ref sig .tc := ⟨.hbm, 124, rfl⟩
abbrev main_call7_v1 : Ref sig .tc := ⟨.hbm, 125, rfl⟩
abbrev main_call7_v2 : Ref sig .tc := ⟨.hbm, 126, rfl⟩
abbrev main_call7_v3 : Ref sig .tc := ⟨.hbm, 127, rfl⟩
abbrev main_call7_v4 : Ref sig .tc := ⟨.hbm, 128, rfl⟩
abbrev main_v63 : Ref sig .tc := ⟨.hbm, 129, rfl⟩
abbrev main_c_20 : Ref sig .tc := ⟨.hbm, 130, rfl⟩
abbrev main_v64 : Ref sig .tc := ⟨.hbm, 131, rfl⟩
abbrev main_v65 : Ref sig .tc := ⟨.hbm, 132, rfl⟩
abbrev main_c_21 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_call8_cst : Ref sig .tc := ⟨.hbm, 143, rfl⟩
abbrev main_call8_v0 : Ref sig .tc := ⟨.hbm, 144, rfl⟩
abbrev main_v75 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_v80 : Ref sig .tc := ⟨.hbm, 150, rfl⟩
abbrev main_call9_v0 : Ref sig .tc := ⟨.hbm, 151, rfl⟩
abbrev main_v81 : Ref sig .tc := ⟨.hbm, 152, rfl⟩
abbrev main_c_22 : Ref sig .tc := ⟨.hbm, 153, rfl⟩
abbrev main_v82 : Ref sig .tc := ⟨.hbm, 154, rfl⟩
abbrev main_v83 : Ref sig .tc := ⟨.hbm, 155, rfl⟩
abbrev main_c_23 : Ref sig .tc := ⟨.hbm, 156, rfl⟩
abbrev main_v84 : Ref sig .tc := ⟨.hbm, 157, rfl⟩
abbrev main_v85 : Ref sig .tc := ⟨.hbm, 158, rfl⟩
abbrev main_v86 : Ref sig .tc := ⟨.hbm, 159, rfl⟩
abbrev main_c_24 : Ref sig .tc := ⟨.hbm, 160, rfl⟩
abbrev main_v87 : Ref sig .tc := ⟨.hbm, 161, rfl⟩
abbrev main_v88 : Ref sig .tc := ⟨.hbm, 162, rfl⟩
abbrev main_c_25 : Ref sig .tc := ⟨.hbm, 163, rfl⟩
abbrev main_c_26 : Ref sig .tc := ⟨.hbm, 164, rfl⟩
abbrev main_call10_v0 : Ref sig .tc := ⟨.hbm, 165, rfl⟩
abbrev main_call10_v1 : Ref sig .tc := ⟨.hbm, 166, rfl⟩
abbrev main_call10_v2 : Ref sig .tc := ⟨.hbm, 167, rfl⟩
abbrev main_call10_v3 : Ref sig .tc := ⟨.hbm, 168, rfl⟩
abbrev main_call10_v4 : Ref sig .tc := ⟨.hbm, 169, rfl⟩
abbrev main_v89 : Ref sig .tc := ⟨.hbm, 170, rfl⟩
abbrev main_c_27 : Ref sig .tc := ⟨.hbm, 171, rfl⟩
abbrev main_v90 : Ref sig .tc := ⟨.hbm, 172, rfl⟩
abbrev main_v91 : Ref sig .tc := ⟨.hbm, 173, rfl⟩
abbrev main_c_28 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩
abbrev main_v98 : Ref sig .tc := ⟨.hbm, 181, rfl⟩
abbrev main_v99 : Ref sig .tc := ⟨.hbm, 182, rfl⟩
abbrev main_v100 : Ref sig .tc := ⟨.hbm, 183, rfl⟩
abbrev main_call11_cst : Ref sig .tc := ⟨.hbm, 184, rfl⟩
abbrev main_call11_v0 : Ref sig .tc := ⟨.hbm, 185, rfl⟩
abbrev main_v101 : Ref sig .tc := ⟨.hbm, 186, rfl⟩
abbrev main_v102 : Ref sig .tc := ⟨.hbm, 187, rfl⟩
abbrev main_v103 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_call12_v0 : Ref sig .tc := ⟨.hbm, 192, rfl⟩
abbrev main_v107 : Ref sig .tc := ⟨.hbm, 193, rfl⟩

abbrev nD : Nat := 1
abbrev τ : Topo := Topo.v7x

variable {F : FTy → Type} [FloatOps F]

class Facts₀ : Prop where
  bcast_S_S4096x20 : S_.BroadcastsInDim S4096x20 (![] : Fin 0 → Fin S4096x20.rank)
  bcast_S_S4096x20x256 : S_.BroadcastsInDim S4096x20x256 (![] : Fin 0 → Fin S4096x20x256.rank)
  bcast_S4096x20_S4096x20x1_0_1 : S4096x20.BroadcastsInDim S4096x20x1 (![0, 1] : Fin 2 → Fin S4096x20x1.rank)
  bcast_S64_S1x1x64_2 : S64.BroadcastsInDim S1x1x64 (![2] : Fin 1 → Fin S1x1x64.rank)
  bcast_S1x1x64_S4096x20x64_0_1_2 : S1x1x64.BroadcastsInDim S4096x20x64 (![0, 1, 2] : Fin 3 → Fin S4096x20x64.rank)
  bcast_S_S4096x20x64 : S_.BroadcastsInDim S4096x20x64 (![] : Fin 0 → Fin S4096x20x64.rank)
  bcast_S256_S1x1x256_2 : S256.BroadcastsInDim S1x1x256 (![2] : Fin 1 → Fin S1x1x256.rank)
  bcast_S1x1x256_S4096x20x256_0_1_2 : S1x1x256.BroadcastsInDim S4096x20x256 (![0, 1, 2] : Fin 3 → Fin S4096x20x256.rank)
  bcast_S4096x20x1_S4096x20x256_0_1_2 : S4096x20x1.BroadcastsInDim S4096x20x256 (![0, 1, 2] : Fin 3 → Fin S4096x20x256.rank)
  gather_S25000x16_S4096x20x1_S4096x20x16_2_0_n_n_0_2_116_wf : GatherDims.WF S25000x16 S4096x20x1 S4096x20x16 [2] [0] [] [0] [] 2 ![1, 16]
  dot_S4096x20x16_S16x64_S4096x20x64_2_0_01_1_n_n_wf : DotDims.WF S4096x20x16 S16x64 S4096x20x64 [2] [0] [0, 1] [1] [] []
  dot_S4096x20x64_S64x256_S4096x20x256_2_0_01_1_n_n_wf : DotDims.WF S4096x20x64 S64x256 S4096x20x256 [2] [0] [0, 1] [1] [] []
  gather_S25000x32_S4096x20x1_S4096x20x32_2_0_n_n_0_2_132_wf : GatherDims.WF S25000x32 S4096x20x1 S4096x20x32 [2] [0] [] [0] [] 2 ![1, 32]
  dot_S4096x20x32_S32x64_S4096x20x64_2_0_01_1_n_n_wf : DotDims.WF S4096x20x32 S32x64 S4096x20x64 [2] [0] [0, 1] [1] [] []
  gather_S25000x64_S4096x20x1_S4096x20x64_2_0_n_n_0_2_164_wf : GatherDims.WF S25000x64 S4096x20x1 S4096x20x64 [2] [0] [] [0] [] 2 ![1, 64]
  dot_S4096x20x64_S64x64_S4096x20x64_2_0_01_1_n_n_wf : DotDims.WF S4096x20x64 S64x64 S4096x20x64 [2] [0] [0, 1] [1] [] []
  gather_S25000x128_S4096x20x1_S4096x20x128_2_0_n_n_0_2_1128_wf : GatherDims.WF S25000x128 S4096x20x1 S4096x20x128 [2] [0] [] [0] [] 2 ![1, 128]
  dot_S4096x20x128_S128x64_S4096x20x64_2_0_01_1_n_n_wf : DotDims.WF S4096x20x128 S128x64 S4096x20x64 [2] [0] [0, 1] [1] [] []

variable [Facts₀]

def gather_S25000x16_S4096x20x1_S4096x20x16_2_0_n_n_0_2_116 : GatherDims S25000x16 S4096x20x1 S4096x20x16 where
  offsetDims := [2]
  collapsedSliceDims := [0]
  operandBatchingDims := []
  startIndicesBatchingDims := []
  startIndexMap := [0]
  indexVectorDim := 2
  sliceSizes := ![1, 16]
  wf := gather_S25000x16_S4096x20x1_S4096x20x16_2_0_n_n_0_2_116_wf
def dot_S4096x20x16_S16x64_S4096x20x64_2_0_01_1_n_n : DotDims S4096x20x16 S16x64 S4096x20x64 where
  lhsContracting := [2]
  rhsContracting := [0]
  lhsNonContracting := [0, 1]
  rhsNonContracting := [1]
  lhsBatch := []
  rhsBatch := []
  wf := dot_S4096x20x16_S16x64_S4096x20x64_2_0_01_1_n_n_wf
def dot_S4096x20x64_S64x256_S4096x20x256_2_0_01_1_n_n : DotDims S4096x20x64 S64x256 S4096x20x256 where
  lhsContracting := [2]
  rhsContracting := [0]
  lhsNonContracting := [0, 1]
  rhsNonContracting := [1]
  lhsBatch := []
  rhsBatch := []
  wf := dot_S4096x20x64_S64x256_S4096x20x256_2_0_01_1_n_n_wf
def gather_S25000x32_S4096x20x1_S4096x20x32_2_0_n_n_0_2_132 : GatherDims S25000x32 S4096x20x1 S4096x20x32 where
  offsetDims := [2]
  collapsedSliceDims := [0]
  operandBatchingDims := []
  startIndicesBatchingDims := []
  startIndexMap := [0]
  indexVectorDim := 2
  sliceSizes := ![1, 32]
  wf := gather_S25000x32_S4096x20x1_S4096x20x32_2_0_n_n_0_2_132_wf
def dot_S4096x20x32_S32x64_S4096x20x64_2_0_01_1_n_n : DotDims S4096x20x32 S32x64 S4096x20x64 where
  lhsContracting := [2]
  rhsContracting := [0]
  lhsNonContracting := [0, 1]
  rhsNonContracting := [1]
  lhsBatch := []
  rhsBatch := []
  wf := dot_S4096x20x32_S32x64_S4096x20x64_2_0_01_1_n_n_wf
def gather_S25000x64_S4096x20x1_S4096x20x64_2_0_n_n_0_2_164 : GatherDims S25000x64 S4096x20x1 S4096x20x64 where
  offsetDims := [2]
  collapsedSliceDims := [0]
  operandBatchingDims := []
  startIndicesBatchingDims := []
  startIndexMap := [0]
  indexVectorDim := 2
  sliceSizes := ![1, 64]
  wf := gather_S25000x64_S4096x20x1_S4096x20x64_2_0_n_n_0_2_164_wf
def dot_S4096x20x64_S64x64_S4096x20x64_2_0_01_1_n_n : DotDims S4096x20x64 S64x64 S4096x20x64 where
  lhsContracting := [2]
  rhsContracting := [0]
  lhsNonContracting := [0, 1]
  rhsNonContracting := [1]
  lhsBatch := []
  rhsBatch := []
  wf := dot_S4096x20x64_S64x64_S4096x20x64_2_0_01_1_n_n_wf
def gather_S25000x128_S4096x20x1_S4096x20x128_2_0_n_n_0_2_1128 : GatherDims S25000x128 S4096x20x1 S4096x20x128 where
  offsetDims := [2]
  collapsedSliceDims := [0]
  operandBatchingDims := []
  startIndicesBatchingDims := []
  startIndexMap := [0]
  indexVectorDim := 2
  sliceSizes := ![1, 128]
  wf := gather_S25000x128_S4096x20x1_S4096x20x128_2_0_n_n_0_2_1128_wf
def dot_S4096x20x128_S128x64_S4096x20x64_2_0_01_1_n_n : DotDims S4096x20x128 S128x64 S4096x20x64 where
  lhsContracting := [2]
  rhsContracting := [0]
  lhsNonContracting := [0, 1]
  rhsNonContracting := [1]
  lhsBatch := []
  rhsBatch := []
  wf := dot_S4096x20x128_S128x64_S4096x20x64_2_0_01_1_n_n_wf

class Facts : Prop extends Facts₀ where

variable [Facts]
-- ==== Proof.KernelFrame.lean ====
/-
  The frame of the kernel program, stated at any float instance (the same text serves the printed program and
  its idealization, which differ in the instance only): the program is a long stretch of host
  operations (scatters of the four embedding tables into one padded table, a clamped row gather, the floor
  quotient of the ids by the bucket size, the block-diagonal first-layer matrix, the stacked second-layer
  matrix and bias rows), ONE pipelined region over twenty blocks of 4096 tokens, and a reshape of the result.
  Here: the buffer contents when the region is entered (`V`), that no host operation writes an argument
  array, each window's block at a grid point, what the body leaves in the output block as a function of the
  five input blocks, the body's triple, the proof data, and the run of the whole program, from which the
  frame follows.
-/
import proofs.«401935_j50148038148546_3_alg».proof.Proof.Gen.Kernel.Launch
import proofs.«401935_j50148038148546_3_alg».proof.Proof.Gen.Kernel.Skeleton
import proofs.«401935_j50148038148546_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host operations before the region, stretch by stretch. -/
abbrev before : List (List (HloOp τ sig (Elt F))) := [hostOps0, hostOps0_1, hostOps0_2, hostOps0_3, hostOps0_4, hostOps0_5, hostOps0_6]

/-- The buffer contents of core `c` when the region is entered: the launch contents after the host
    operations before the region. -/
abbrev V0 (c : Dev nD) : Valuation τ sig (Elt F) := StableHlo.after (List.flatten (before (F := F))) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩
theorem before_fresh : (before (F := F)).Forall fun ops => ops.Forall fun op => op.fresh = ∅ := by
  simp only [List.Forall]
  exact ⟨hostOps0_fresh, hostOps0_1_fresh, hostOps0_2_fresh, hostOps0_3_fresh, hostOps0_4_fresh, hostOps0_5_fresh, hostOps0_6_fresh⟩

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1] before_sub before_fresh main_chain

/-- The reshape after the region touches unscoped references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array the region stages (it writes the program's result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host operation -/

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

set_option maxHeartbeats 8000000 in
/-- No host operation before the region writes an argument array (each writes its own result buffer). -/
theorem before_keeps_args : ∀ b ∈ argRefs, (List.flatten (before (F := F))).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [before, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)

/-- Nor does the reshape after it. -/
theorem after_keeps_args : ∀ b ∈ argRefs, (List.flatten [(hostOps1 : List (HloOp τ sig (Elt F)))]).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    try repeat' apply And.intro
    all_goals exact StableHlo.devRef_ne_of_ne (by decide)

/-- No argument array is an array the region stages (those are results of host operations). -/
theorem arg_ne_arr : ∀ b ∈ argRefs, ∀ w, Pipeline.arrRef spec0 w ≠ b := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl
  all_goals decide

/-- The region finds every argument array as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (before_keeps_args b hb))

/-- And the program ends with every argument array as launched. -/
theorem W_arg (dats : (p : Fin _) → (c : Dev nD) → Dat τ (Elt F) Unit ℕ (UR sig nD τ) ℕ (cfgs p) c) (c : Dev nD)
    (b : Ref sig .tc) (hb : b ∈ argRefs) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (after_keeps_args b hb)),
    Pipeline.withArrays_of_ne _ c (V0 m c) _ b (arg_ne_arr b hb)]
  exact V_arg m c b hb

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the library's post -/

/-- For any proof data whose arrays are the region-entry contents, a run of the program to the library's
    post — every staged array at what the proof data computes, every other unscoped buffer as the reshape
    leaves it — is a run after which every argument array is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    have K : ∀ b ∈ argRefs, b.isScoped = false → (∀ w, ((spec0 w).arr.view.ref) ≠ b) →
        r.2.mem ((c.tc : Thread nD τ).loc b) = m ((c.tc : Thread nD τ).loc b) := fun b hb hs ha =>
      ((h c).2 b (Pipeline.mem_restRefs_of b hs ha)).trans (W_arg m dats c b hb)
    ⟨K main_arg0 (by decide) (by decide) (by decide),
     K main_arg1 (by decide) (by decide) (by decide),
     K main_arg2 (by decide) (by decide) (by decide),
     K main_arg3 (by decide) (by decide) (by decide),
     K main_arg4 (by decide) (by decide) (by decide),
     K main_arg5 (by decide) (by decide) (by decide),
     K main_arg6 (by decide) (by decide) (by decide),
     K main_arg7 (by decide) (by decide) (by decide),
     K main_arg8 (by decide) (by decide) (by decide),
     K main_arg9 (by decide) (by decide) (by decide),
     K main_arg10 (by decide) (by decide) (by decide),
     K main_arg11 (by decide) (by decide) (by decide),
     K main_arg12 (by decide) (by decide) (by decide),
     K main_arg13 (by decide) (by decide) (by decide),
     K main_arg14 (by decide) (by decide) (by decide),
     K main_arg15 (by decide) (by decide) (by decide),
     K main_arg16 (by decide) (by decide) (by decide),
     K main_arg17 (by decide) (by decide) (by decide),
     K main_arg18 (by decide) (by decide) (by decide),
     K main_arg19 (by decide) (by decide) (by decide),
     K main_arg20 (by decide) (by decide) (by decide)⟩) h

/-! ## What the body leaves in the output block -/

abbrev rIds : Rect S4096x1 := Rect.unit (s := S4096x1) ![0, 0] S4096x1.size inb_S4096x1_S4096x1_0_0
abbrev rTok : Rect S4096x256 := Rect.unit (s := S4096x256) ![0, 0] S4096x256.size inb_S4096x256_S4096x256_0_0
abbrev rMat : Rect S256x256 := Rect.unit (s := S256x256) ![0, 0] S256x256.size inb_S256x256_S256x256_0_0
abbrev rBias : Rect S4x256 := Rect.unit (s := S4x256) ![0, 0] S4x256.size inb_S4x256_S4x256_0_0

/-- The output block after the body, from the five input blocks (bucket ids, gathered rows, first-layer
    matrix, second-layer matrix, bias rows): its one store, of the body's value over the loaded blocks. -/
def outBlock (x0 : Vec F S4096x1 .i32) (x1 : Vec F S4096x256 .bf16) (x2 : Vec F S256x256 .bf16) (x3 : Vec F S256x256 .bf16)
    (x4 : Vec F S4x256 .bf16) : Vec F S4096x256 .f32 :=
  View.canon [⟨rTok, k0_pay1 (k0_pay2 (View.ld x0 rIds)) (k0_pay3 (View.ld x0 rIds) (View.ld x1 rTok) (View.ld x2 rMat))
    (k0_pay4 (View.ld x3 rMat)) (View.ld x4 rBias)⟩]

/-- The store covers the block. -/
theorem outBlock_cover (p0 : Vec F S4096x256 .f32) (y : S4096x256.Idx) :
    ∃ pc ∈ ([⟨rTok, p0⟩] : List (View.Piece (Elt F) S4096x256 .f32)), y ∈ pc.1.set :=
  View.cover_of_tiled [⟨rTok, p0⟩] S4096x256.size (by rfl) y

/-! ## The body's triple -/

set_option maxHeartbeats 1000000 in
/-- The body on whole staging memrefs, the inputs' at contents `xW` and the output's at anything, runs to the
    continuation with the inputs as they were and the output at `outBlock` of the inputs. -/
theorem sound_kernel (c : Dev nD) (E : Set ℕ) (i : grid0.Coords)
    (arg1 : Memref sig .tc .vmem S4096x1 .i32) (harg1 : arg1.IsWhole) (arg2 : Memref sig .tc .vmem S4096x256 .bf16) (harg2 : arg2.IsWhole)
    (arg3 : Memref sig .tc .vmem S256x256 .bf16) (harg3 : arg3.IsWhole) (arg4 : Memref sig .tc .vmem S256x256 .bf16) (harg4 : arg4.IsWhole)
    (arg5 : Memref sig .tc .vmem S4x256 .bf16) (harg5 : arg5.IsWhole) (arg6 : Memref sig .tc .vmem S4096x256 .f32) (harg6 : arg6.IsWhole)
    (x0 : Vec F S4096x1 .i32) (x1 : Vec F S4096x256 .bf16) (x2 : Vec F S256x256 .bf16) (x3 : Vec F S256x256 .bf16) (x4 : Vec F S4x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__fused_bucket_mlp_kernel i arg1 harg1 arg2 harg2 arg3 harg3 arg4 harg4 arg5 harg5 arg6 harg6) K := by
  simp only [cc0__fused_bucket_mlp_kernel_eq_skeleton]; unfold cc0__fused_bucket_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outBlock_cover _)

/-! ## The proof data -/

/-- The region's proof data on core `c`: the arrays as the region finds them; after the body at point `t` each
    input buffer at its block and the output buffer at `outBlock` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every staged array at what the proof data
    computes and every other unscoped buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (run_main m ρ)

end Cert.Kernel.Hand

end
-- ==== Proof.KernelIdealFrame.lean ====
/-
  The frame of the kernel program, stated at any float instance (the same text serves the printed program and
  its idealization, which differ in the instance only): the program is a long stretch of host
  operations (scatters of the four embedding tables into one padded table, a clamped row gather, the floor
  quotient of the ids by the bucket size, the block-diagonal first-layer matrix, the stacked second-layer
  matrix and bias rows), ONE pipelined region over twenty blocks of 4096 tokens, and a reshape of the result.
  Here: the buffer contents when the region is entered (`V`), that no host operation writes an argument
  array, each window's block at a grid point, what the body leaves in the output block as a function of the
  five input blocks, the body's triple, the proof data, and the run of the whole program, from which the
  frame follows.
-/
import proofs.«401935_j50148038148546_3_alg».proof.Proof.Gen.KernelIdeal.Launch
import proofs.«401935_j50148038148546_3_alg».proof.Proof.Gen.KernelIdeal.Skeleton
import proofs.«401935_j50148038148546_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- The host operations before the region, stretch by stretch. -/
abbrev before : List (List (HloOp τ sig (Elt F))) := [hostOps0, hostOps0_1, hostOps0_2, hostOps0_3, hostOps0_4, hostOps0_5, hostOps0_6]

/-- The buffer contents of core `c` when the region is entered: the launch contents after the host
    operations before the region. -/
abbrev V0 (c : Dev nD) : Valuation τ sig (Elt F) := StableHlo.after (List.flatten (before (F := F))) (fun b => m (c, b))
/-- The same at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

theorem before_sub : (before (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub⟩
theorem before_fresh : (before (F := F)).Forall fun ops => ops.Forall fun op => op.fresh = ∅ := by
  simp only [List.Forall]
  exact ⟨hostOps0_fresh, hostOps0_1_fresh, hostOps0_2_fresh, hostOps0_3_fresh, hostOps0_4_fresh, hostOps0_5_fresh, hostOps0_6_fresh⟩

/-- The program is: the host operations before the region, the region, the reshape after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (before (F := F)) [hostOps1] before_sub before_fresh main_chain

/-- The reshape after the region touches unscoped references only, -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- allocates nothing, -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
/-- and writes no array the region stages (it writes the program's result only). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host operation -/

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20]

set_option maxHeartbeats 8000000 in
/-- No host operation before the region writes an argument array (each writes its own result buffer). -/
theorem before_keeps_args : ∀ b ∈ argRefs, (List.flatten (before (F := F))).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [before, hostOps0, hostOps0_1, hostOps0_2, hostOps0_3, hostOps0_4, hostOps0_5, hostOps0_6, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)

/-- Nor does the reshape after it. -/
theorem after_keeps_args : ∀ b ∈ argRefs, (List.flatten [(hostOps1 : List (HloOp τ sig (Elt F)))]).Forall fun op => Proc.devRef .tc b ∉ op.writes := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl
  all_goals
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    try repeat' apply And.intro
    all_goals exact StableHlo.devRef_ne_of_ne (by decide)

/-- No argument array is an array the region stages (those are results of host operations). -/
theorem arg_ne_arr : ∀ b ∈ argRefs, ∀ w, Pipeline.arrRef spec0 w ≠ b := by
  intro b hb
  simp only [argRefs, List.mem_cons, List.mem_nil_iff, or_false] at hb
  rcases hb with rfl | rfl | rfl | rfl | rfl | rfl | rfl | rfl | rfl | rfl | rfl | rfl | rfl | rfl | rfl | rfl | rfl | rfl | rfl | rfl | rfl
  all_goals decide

/-- The region finds every argument array as launched. -/
theorem V_arg (c : Dev nD) (b : Ref sig .tc) (hb : b ∈ argRefs) : V m c b = m ((c : Thread nD τ).loc b) :=
  StableHlo.after_of_forall_not_mem (b := Proc.devRef .tc b) _ _ (List.forall_iff_forall_mem.mp (before_keeps_args b hb))

/-- And the program ends with every argument array as launched. -/
theorem W_arg (dats : (p : Fin _) → (c : Dev nD) → Dat τ (Elt F) Unit ℕ (UR sig nD τ) ℕ (cfgs p) c) (c : Dev nD)
    (b : Ref sig .tc) (hb : b ∈ argRefs) :
    Pipeline.afterTail₀ cfgs dats 0 (V0 m) [hostOps1] c b = m ((c : Thread nD τ).loc b) := by
  unfold Pipeline.afterTail₀
  rw [StableHlo.after_of_forall_not_mem (b := Proc.devRef .tc b) _ _ (List.forall_iff_forall_mem.mp (after_keeps_args b hb)),
    Pipeline.withArrays_of_ne _ c (V0 m c) _ b (arg_ne_arr b hb)]
  exact V_arg m c b hb

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame from a run to the library's post -/

/-- For any proof data whose arrays are the region-entry contents, a run of the program to the library's
    post — every staged array at what the proof data computes, every other unscoped buffer as the reshape
    leaves it — is a run after which every argument array is as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    have K : ∀ b ∈ argRefs, b.isScoped = false → (∀ w, ((spec0 w).arr.view.ref) ≠ b) →
        r.2.mem ((c.tc : Thread nD τ).loc b) = m ((c.tc : Thread nD τ).loc b) := fun b hb hs ha =>
      ((h c).2 b (Pipeline.mem_restRefs_of b hs ha)).trans (W_arg m dats c b hb)
    ⟨K main_arg0 (by decide) (by decide) (by decide),
     K main_arg1 (by decide) (by decide) (by decide),
     K main_arg2 (by decide) (by decide) (by decide),
     K main_arg3 (by decide) (by decide) (by decide),
     K main_arg4 (by decide) (by decide) (by decide),
     K main_arg5 (by decide) (by decide) (by decide),
     K main_arg6 (by decide) (by decide) (by decide),
     K main_arg7 (by decide) (by decide) (by decide),
     K main_arg8 (by decide) (by decide) (by decide),
     K main_arg9 (by decide) (by decide) (by decide),
     K main_arg10 (by decide) (by decide) (by decide),
     K main_arg11 (by decide) (by decide) (by decide),
     K main_arg12 (by decide) (by decide) (by decide),
     K main_arg13 (by decide) (by decide) (by decide),
     K main_arg14 (by decide) (by decide) (by decide),
     K main_arg15 (by decide) (by decide) (by decide),
     K main_arg16 (by decide) (by decide) (by decide),
     K main_arg17 (by decide) (by decide) (by decide),
     K main_arg18 (by decide) (by decide) (by decide),
     K main_arg19 (by decide) (by decide) (by decide),
     K main_arg20 (by decide) (by decide) (by decide)⟩) h

/-! ## What the body leaves in the output block -/

abbrev rIds : Rect S4096x1 := Rect.unit (s := S4096x1) ![0, 0] S4096x1.size inb_S4096x1_S4096x1_0_0
abbrev rTok : Rect S4096x256 := Rect.unit (s := S4096x256) ![0, 0] S4096x256.size inb_S4096x256_S4096x256_0_0
abbrev rMat : Rect S256x256 := Rect.unit (s := S256x256) ![0, 0] S256x256.size inb_S256x256_S256x256_0_0
abbrev rBias : Rect S4x256 := Rect.unit (s := S4x256) ![0, 0] S4x256.size inb_S4x256_S4x256_0_0

/-- The output block after the body, from the five input blocks (bucket ids, gathered rows, first-layer
    matrix, second-layer matrix, bias rows): its one store, of the body's value over the loaded blocks. -/
def outBlock (x0 : Vec F S4096x1 .i32) (x1 : Vec F S4096x256 .bf16) (x2 : Vec F S256x256 .bf16) (x3 : Vec F S256x256 .bf16)
    (x4 : Vec F S4x256 .bf16) : Vec F S4096x256 .f32 :=
  View.canon [⟨rTok, k0_pay1 (k0_pay2 (View.ld x0 rIds)) (k0_pay3 (View.ld x0 rIds) (View.ld x1 rTok) (View.ld x2 rMat))
    (k0_pay4 (View.ld x3 rMat)) (View.ld x4 rBias)⟩]

/-- The store covers the block. -/
theorem outBlock_cover (p0 : Vec F S4096x256 .f32) (y : S4096x256.Idx) :
    ∃ pc ∈ ([⟨rTok, p0⟩] : List (View.Piece (Elt F) S4096x256 .f32)), y ∈ pc.1.set :=
  View.cover_of_tiled [⟨rTok, p0⟩] S4096x256.size (by rfl) y

/-! ## The body's triple -/

set_option maxHeartbeats 1000000 in
/-- The body on whole staging memrefs, the inputs' at contents `xW` and the output's at anything, runs to the
    continuation with the inputs as they were and the output at `outBlock` of the inputs. -/
theorem sound_kernel (c : Dev nD) (E : Set ℕ) (i : grid0.Coords)
    (arg1 : Memref sig .tc .vmem S4096x1 .i32) (harg1 : arg1.IsWhole) (arg2 : Memref sig .tc .vmem S4096x256 .bf16) (harg2 : arg2.IsWhole)
    (arg3 : Memref sig .tc .vmem S256x256 .bf16) (harg3 : arg3.IsWhole) (arg4 : Memref sig .tc .vmem S256x256 .bf16) (harg4 : arg4.IsWhole)
    (arg5 : Memref sig .tc .vmem S4x256 .bf16) (harg5 : arg5.IsWhole) (arg6 : Memref sig .tc .vmem S4096x256 .f32) (harg6 : arg6.IsWhole)
    (x0 : Vec F S4096x1 .i32) (x1 : Vec F S4096x256 .bf16) (x2 : Vec F S256x256 .bf16) (x3 : Vec F S256x256 .bf16) (x4 : Vec F S4x256 .bf16)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outBlock x0 x1 x2 x3 x4)) -∗ K ⟨⟩))
      ⊢ wp frame (wpE (defs₀ (F := F)) Variants.none c none) E
          (cc0__fused_bucket_mlp_kernel i arg1 harg1 arg2 harg2 arg3 harg3 arg4 harg4 arg5 harg5 arg6 harg6) K := by
  simp only [cc0__fused_bucket_mlp_kernel_eq_skeleton]; unfold cc0__fused_bucket_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outBlock_cover _)

/-! ## The proof data -/

/-- The region's proof data on core `c`: the arrays as the region finds them; after the body at point `t` each
    input buffer at its block and the output buffer at `outBlock` of the input blocks; the invariant the scoped
    rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) :
    (dats m 0 c).after 5 t = outBlock (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, with every staged array at what the proof data
    computes and every other unscoped buffer as the reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_of m ρ (dats m) (run_main m ρ)

end Cert.KernelIdeal.Hand

end
-- ==== Proof.Spec.lean ====
/-
  The mathematics of the bucketed embedding perceptron, with no program in sight.

  An id `x` (a 32-bit word; the sentinel 100000 stands for 0) selects a bucket `b = x / 25000` when
  `0 ≤ x < 100000` and a row `r = x - 25000 b` of that bucket's embedding table, whose rows have 16, 32, 64
  or 128 entries; the result row is the two-layer perceptron of that bucket,
  `relu (e · W1 + b1) · W2 + b2`, and the zero row for an id outside `[0, 100000)` (`spec`).

  The fused form computes the same row from ONE padded table of 100000 rows of 256 lanes (bucket `b`'s
  entries at lanes `off b … off b + size b`, a one at lane 240, zeros elsewhere: `combined`), ONE 256 × 256
  block-diagonal first-layer matrix whose row 240 carries the four first-layer biases side by side (`w1bd`),
  the four second-layer matrices stacked (`w2st`) and the four second-layer biases as rows (`b2st`):
  hidden lane `k` belongs to bucket `k / 64`, the hidden row is kept on the lanes of the token's bucket word
  and zeroed elsewhere, and the bias row is picked by a one-hot product (`rowOut`).
-/
import Idealize.ShloMosaic.PureOps.Ideal
import Idealize.ShloMosaic.Lib.ValueIdx

noncomputable section

namespace Cert.BucketMlp

open scoped BigOperators

/-- One row of a two-layer perceptron with 64 hidden units and 256 outputs. -/
def mlp {n : Nat} (e : Fin n → EReal) (w1 : Fin n → Fin 64 → EReal) (b1 : Fin 64 → EReal)
    (w2 : Fin 64 → Fin 256 → EReal) (b2 : Fin 256 → EReal) (d : Fin 256) : EReal :=
  (∑ j : Fin 64, max ((∑ k : Fin n, e k * w1 k j) + b1 j) 0 * w2 j d) + b2 d

/-- The four buckets' tables and weights, as plain functions. -/
structure Tables where
  emb0 : Fin 25000 → Fin 16 → EReal
  w1_0 : Fin 16 → Fin 64 → EReal
  b1_0 : Fin 64 → EReal
  w2_0 : Fin 64 → Fin 256 → EReal
  b2_0 : Fin 256 → EReal
  emb1 : Fin 25000 → Fin 32 → EReal
  w1_1 : Fin 32 → Fin 64 → EReal
  b1_1 : Fin 64 → EReal
  w2_1 : Fin 64 → Fin 256 → EReal
  b2_1 : Fin 256 → EReal
  emb2 : Fin 25000 → Fin 64 → EReal
  w1_2 : Fin 64 → Fin 64 → EReal
  b1_2 : Fin 64 → EReal
  w2_2 : Fin 64 → Fin 256 → EReal
  b2_2 : Fin 256 → EReal
  emb3 : Fin 25000 → Fin 128 → EReal
  w1_3 : Fin 128 → Fin 64 → EReal
  b1_3 : Fin 64 → EReal
  w2_3 : Fin 64 → Fin 256 → EReal
  b2_3 : Fin 256 → EReal

/-- The id with the sentinel 100000 remapped to 0. -/
def remap (x : BitVec 32) : BitVec 32 := if x = 100000#32 then 0#32 else x

/-- THE SPECIFICATION: the result row of the token whose (remapped) id is `z`, read as a signed integer. -/
def specRow (T : Tables) (z : Int) (d : Fin 256) : EReal :=
  if h0 : 0 ≤ z ∧ z < 25000 then mlp (T.emb0 ⟨z.toNat, by omega⟩) T.w1_0 T.b1_0 T.w2_0 T.b2_0 d
  else if h1 : 25000 ≤ z ∧ z < 50000 then mlp (T.emb1 ⟨(z - 25000).toNat, by omega⟩) T.w1_1 T.b1_1 T.w2_1 T.b2_1 d
  else if h2 : 50000 ≤ z ∧ z < 75000 then mlp (T.emb2 ⟨(z - 50000).toNat, by omega⟩) T.w1_2 T.b1_2 T.w2_2 T.b2_2 d
  else if h3 : 75000 ≤ z ∧ z < 100000 then mlp (T.emb3 ⟨(z - 75000).toNat, by omega⟩) T.w1_3 T.b1_3 T.w2_3 T.b2_3 d
  else 0

/-- The specification at an id word. -/
def spec (T : Tables) (x : BitVec 32) (d : Fin 256) : EReal := specRow T (remap x).toInt d

/-! ## The fused form's arrays -/

/-- The padded table: row `r` of bucket `r / 25000` at that bucket's lanes, a one at lane 240, zero elsewhere. -/
def combined (T : Tables) (r : Fin 100000) (l : Fin 256) : EReal :=
  if l.val = 240 then 1
  else if h0 : r.val < 25000 then (if hl : l.val < 16 then T.emb0 ⟨r.val, h0⟩ ⟨l.val, hl⟩ else 0)
  else if h1 : r.val < 50000 then
    (if hl : 16 ≤ l.val ∧ l.val < 48 then T.emb1 ⟨r.val - 25000, by omega⟩ ⟨l.val - 16, by omega⟩ else 0)
  else if h2 : r.val < 75000 then
    (if hl : 48 ≤ l.val ∧ l.val < 112 then T.emb2 ⟨r.val - 50000, by omega⟩ ⟨l.val - 48, by omega⟩ else 0)
  else (if hl : 112 ≤ l.val ∧ l.val < 240 then T.emb3 ⟨r.val - 75000, by omega⟩ ⟨l.val - 112, by omega⟩ else 0)

/-- The block-diagonal first-layer matrix: bucket `b`'s matrix at rows `off b …` and columns `64 b …`; row 240 the
    four first-layer biases side by side; zero elsewhere. -/
def w1bd (T : Tables) (l k : Fin 256) : EReal :=
  if l.val = 240 then
    (if hk : k.val < 64 then T.b1_0 ⟨k.val, hk⟩
     else if hk : k.val < 128 then T.b1_1 ⟨k.val - 64, by omega⟩
     else if hk : k.val < 192 then T.b1_2 ⟨k.val - 128, by omega⟩
     else T.b1_3 ⟨k.val - 192, by omega⟩)
  else if h : l.val < 16 ∧ k.val < 64 then T.w1_0 ⟨l.val, h.1⟩ ⟨k.val, h.2⟩
  else if h : (16 ≤ l.val ∧ l.val < 48) ∧ (64 ≤ k.val ∧ k.val < 128) then T.w1_1 ⟨l.val - 16, by omega⟩ ⟨k.val - 64, by omega⟩
  else if h : (48 ≤ l.val ∧ l.val < 112) ∧ (128 ≤ k.val ∧ k.val < 192) then T.w1_2 ⟨l.val - 48, by omega⟩ ⟨k.val - 128, by omega⟩
  else if h : (112 ≤ l.val ∧ l.val < 240) ∧ 192 ≤ k.val then T.w1_3 ⟨l.val - 112, by omega⟩ ⟨k.val - 192, by omega⟩
  else 0

/-- The four second-layer matrices stacked: rows `64 b …` are bucket `b`'s. -/
def w2st (T : Tables) (k d : Fin 256) : EReal :=
  if hk : k.val < 64 then T.w2_0 ⟨k.val, hk⟩ d
  else if hk : k.val < 128 then T.w2_1 ⟨k.val - 64, by omega⟩ d
  else if hk : k.val < 192 then T.w2_2 ⟨k.val - 128, by omega⟩ d
  else T.w2_3 ⟨k.val - 192, by omega⟩ d

/-- The four second-layer biases as rows. -/
def b2st (T : Tables) (b : Fin 4) (d : Fin 256) : EReal :=
  match b with
  | 0 => T.b2_0 d
  | 1 => T.b2_1 d
  | 2 => T.b2_2 d
  | 3 => T.b2_3 d

/-- One row of the fused form, for a token whose bucket word is `bid` and whose gathered padded row is `e`:
    the hidden row `relu (e · W1)` kept on the lanes `k` with `k / 64 = bid` and zeroed elsewhere, times `W2`, plus
    the one-hot choice of a bias row. -/
def rowOut (bid : BitVec 32) (e : Fin 256 → EReal) (W1 W2 : Fin 256 → Fin 256 → EReal) (B2 : Fin 4 → Fin 256 → EReal)
    (d : Fin 256) : EReal :=
  (∑ k : Fin 256, (if BitVec.ofNat 32 (k.val / 64) = bid then max (∑ l : Fin 256, e l * W1 l k) 0 else 0) * W2 k d)
    + ∑ b : Fin 4, (if BitVec.ofNat 32 b.val = bid then (1 : EReal) else 0) * B2 b d

/-! ## The arrays of a program as tables, and the whole result -/

open Idealize.ShloMosaic Idealize.ShloMosaic.ValueIdx

/-- The row the clamped gather reads for the id word `z`: `z` read signed, clamped into `[0, 99999]`. -/
def clampRow (z : BitVec 32) : Fin 100000 := ⟨min z.toInt.toNat 99999, by omega⟩

/-- Twenty float argument arrays read as the four buckets' tables. -/
def tablesOf (emb0 : FVec Ideal ⟨2, ![25000, 16]⟩ .f32) (w1_0 : FVec Ideal ⟨2, ![16, 64]⟩ .f32) (b1_0 : FVec Ideal ⟨1, ![64]⟩ .f32)
    (w2_0 : FVec Ideal ⟨2, ![64, 256]⟩ .f32) (b2_0 : FVec Ideal ⟨1, ![256]⟩ .f32)
    (emb1 : FVec Ideal ⟨2, ![25000, 32]⟩ .f32) (w1_1 : FVec Ideal ⟨2, ![32, 64]⟩ .f32) (b1_1 : FVec Ideal ⟨1, ![64]⟩ .f32)
    (w2_1 : FVec Ideal ⟨2, ![64, 256]⟩ .f32) (b2_1 : FVec Ideal ⟨1, ![256]⟩ .f32)
    (emb2 : FVec Ideal ⟨2, ![25000, 64]⟩ .f32) (w1_2 : FVec Ideal ⟨2, ![64, 64]⟩ .f32) (b1_2 : FVec Ideal ⟨1, ![64]⟩ .f32)
    (w2_2 : FVec Ideal ⟨2, ![64, 256]⟩ .f32) (b2_2 : FVec Ideal ⟨1, ![256]⟩ .f32)
    (emb3 : FVec Ideal ⟨2, ![25000, 128]⟩ .f32) (w1_3 : FVec Ideal ⟨2, ![128, 64]⟩ .f32) (b1_3 : FVec Ideal ⟨1, ![64]⟩ .f32)
    (w2_3 : FVec Ideal ⟨2, ![64, 256]⟩ .f32) (b2_3 : FVec Ideal ⟨1, ![256]⟩ .f32) : Tables where
  emb0 := fun r k => emb0 (ix2 r k)
  w1_0 := fun k j => w1_0 (ix2 k j)
  b1_0 := fun j => b1_0 (ix1 j)
  w2_0 := fun j d => w2_0 (ix2 j d)
  b2_0 := fun d => b2_0 (ix1 d)
  emb1 := fun r k => emb1 (ix2 r k)
  w1_1 := fun k j => w1_1 (ix2 k j)
  b1_1 := fun j => b1_1 (ix1 j)
  w2_1 := fun j d => w2_1 (ix2 j d)
  b2_1 := fun d => b2_1 (ix1 d)
  emb2 := fun r k => emb2 (ix2 r k)
  w1_2 := fun k j => w1_2 (ix2 k j)
  b1_2 := fun j => b1_2 (ix1 j)
  w2_2 := fun j d => w2_2 (ix2 j d)
  b2_2 := fun d => b2_2 (ix1 d)
  emb3 := fun r k => emb3 (ix2 r k)
  w1_3 := fun k j => w1_3 (ix2 k j)
  b1_3 := fun j => b1_3 (ix1 j)
  w2_3 := fun j d => w2_3 (ix2 j d)
  b2_3 := fun d => b2_3 (ix1 d)

/-- The whole result array `[4096, 20, 256]`: entry `(i, s, ·)` is the specification's row at the id `ids (i, s)`. -/
def resultOf (ids : IVec ⟨2, ![4096, 20]⟩ 32) (T : Tables) : FVec Ideal ⟨3, ![4096, 20, 256]⟩ .f32 :=
  fun j => spec T (ids (ix2 (j 0) (j 1))) (j 2)

theorem resultOf_apply (ids : IVec ⟨2, ![4096, 20]⟩ 32) (T : Tables) (i : Fin 4096) (s : Fin 20) (d : Fin 256) :
    resultOf ids T (ix3 i s d) = spec T (ids (ix2 i s)) d := rfl

end Cert.BucketMlp

end
-- ==== Proof.KernelArgs.lean ====
/-
  The program's arguments as the specification reads them: the ids as launched, the twenty float arrays as the
  four buckets' tables, and a token's remapped id (the ids are flattened row-major before anything else).
-/
import proofs.«401935_j50148038148546_3_alg».proof.Proof.KernelIdealFrame
import proofs.«401935_j50148038148546_3_alg».proof.Proof.Spec
import Idealize.ShloMosaic.Lib.ValueIdx

noncomputable section

namespace Cert.KernelIdeal.Hand

open Cert.KernelIdeal Cert.KernelIdeal.Gen Cert.BucketMlp
open Idealize.ShloMosaic Idealize.ShloMosaic.TcCoe Idealize.ShloMosaic.ValueIdx Idealize.SL.Sem

variable (m : (ℓ : Loc nD τ sig) → Buf (Elt Ideal) ℓ)

/-- The ids as launched. -/
abbrev idsArr (c : Dev nD) : IVec S4096x20 32 := m ((c.tc : Thread nD τ).loc main_arg0)

/-- The twenty float arguments as launched, read as the four buckets' tables. -/
def tables (c : Dev nD) : Tables :=
  tablesOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

/-- Token `tok`'s id (the ids flattened row-major), with the sentinel remapped. -/
def tokId (c : Dev nD) (tok : Fin 81920) : BitVec 32 :=
  remap (idsArr m c (ix2 ⟨tok.val / 20, by omega⟩ ⟨tok.val % 20, by omega⟩))

end Cert.KernelIdeal.Hand

end
-- ==== Proof.LibScatter.lean ====
/-
  A general fact on `stablehlo.scatter` whose body returns the update (a scatter that SETS): read at an operand
  index `i`, the result is the update entry that lands on `i` when one does, and the operand's entry otherwise —
  given a partial inverse `inv` of the landing map (so at most one update entry lands on each operand index, and
  the order in which the updates are applied does not matter).
-/
import Idealize.ShloMosaic.PureOps.ShapeOps

noncomputable section

namespace Idealize.ShloMosaic

/-- The fold behind a setting scatter, over ANY list `L` of update positions and from ANY accumulator `acc`:
    read at `i`, it is the update entry `n` that lands on `i` once the position of `n` occurs in `L`, and
    `acc i` otherwise. By induction on `L`: the head's step changes the value at `i` exactly when the head's
    entry lands on `i`, which by `hinv` is when it is the one entry `inv i` names. -/
private theorem Host.scatter_set_foldl {s si u : Shape} {α : Type} {w : Nat} (d : ScatterDims s si u)
    (idx : IVec si w) (upd : u.Idx → α) (inv : s.Idx → Option u.Idx)
    (hinv : ∀ (n : u.Idx) (i : s.Idx), d.resultIdx? n idx = some i ↔ inv i = some n) (i : s.Idx)
    (L : List (Fin u.numel)) (acc : s.Idx → α) :
    (L.foldl (fun r n =>
        match d.resultIdx? (u.rowMajor.symm n) idx with
        | some i => fun i' => if i' = i then (fun _ b => b) (r i) (upd (u.rowMajor.symm n)) else r i'
        | none => r) acc) i
      = (match inv i with | some n => if u.rowMajor n ∈ L then upd n else acc i | none => acc i) := by
  induction L generalizing acc with
  | nil => cases inv i <;> simp
  | cons k L ih =>
    rw [List.foldl_cons, ih]
    dsimp only
    cases hi : inv i with
    | none =>
      dsimp only
      cases hr : d.resultIdx? (u.rowMajor.symm k) idx with
      | none => rfl
      | some i0 =>
        dsimp only
        have hne : i ≠ i0 := by
          rintro rfl
          have h1 := (hinv _ _).1 hr
          rw [hi] at h1; cases h1
        rw [if_neg hne]
    | some n =>
      dsimp only
      by_cases hL : u.rowMajor n ∈ L
      · rw [if_pos hL, if_pos (List.mem_cons_of_mem _ hL)]
      · rw [if_neg hL]
        cases hr : d.resultIdx? (u.rowMajor.symm k) idx with
        | none =>
          dsimp only
          have hne : u.rowMajor n ≠ k := by
            rintro rfl
            rw [Equiv.symm_apply_apply, (hinv n i).2 hi] at hr; cases hr
          rw [if_neg]
          intro hm
          rcases List.mem_cons.1 hm with h | h
          · exact hne h
          · exact hL h
        | some i0 =>
          dsimp only
          by_cases hii : i = i0
          · subst hii
            have h1 := (hinv _ _).1 hr
            rw [hi] at h1
            have hn : n = u.rowMajor.symm k := Option.some.inj h1
            subst hn
            rw [if_pos rfl, if_pos]
            rw [Equiv.apply_symm_apply]; exact List.mem_cons_self
          · have hne : u.rowMajor n ≠ k := by
              rintro rfl
              rw [Equiv.symm_apply_apply, (hinv n i).2 hi] at hr
              exact hii (Option.some.inj hr)
            rw [if_neg hii, if_neg]
            intro hm
            rcases List.mem_cons.1 hm with h | h
            · exact hne h
            · exact hL h

/-- A setting scatter read at an index: `inv i` names the update entry that lands on `i`, if any. -/
theorem Host.scatter_set_apply {s si u : Shape} {α : Type} {w : Nat} (d : ScatterDims s si u) (x : s.Idx → α)
    (idx : IVec si w) (upd : u.Idx → α) (inv : s.Idx → Option u.Idx)
    (hinv : ∀ (n : u.Idx) (i : s.Idx), d.resultIdx? n idx = some i ↔ inv i = some n) (i : s.Idx) :
    Host.scatter d (fun _ b => b) x idx upd i = (match inv i with | some n => upd n | none => x i) := by
  refine (Host.scatter_set_foldl d idx upd inv hinv i (List.finRange u.numel) x).trans ?_
  cases inv i with
  | none => rfl
  | some n => dsimp only; rw [if_pos (List.mem_finRange _)]

end Idealize.ShloMosaic

end
-- ==== Proof.HostRows.lean ====
/-
  The gathered rows the region finds: the host builds ONE padded table of 100000 rows of 256 lanes — each bucket's
  table set into its own lanes of a zero table, the four laid end to end, then a one set into lane 240 of every
  row — and gathers, for each token, the row its id names, the id read signed and clamped into the table.
-/
import proofs.«401935_j50148038148546_3_alg».proof.Proof.KernelArgs
import proofs.«401935_j50148038148546_3_alg».proof.Proof.LibScatter
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen Cert.BucketMlp
open Idealize.ShloMosaic Idealize.ShloMosaic.TcCoe Idealize.ShloMosaic.ValueIdx Idealize.SL.Sem

namespace GatherRows

/-! ## The two float constants of the padded table, as extended reals -/

/-- The bf16 pattern of all zero bits denotes zero. -/
theorem ofBits_bf16_zero : Ideal.ofBits .bf16 0x0000#16 = 0 := by simp [Ideal.ofBits, Ideal.ieee]

/-- The bf16 pattern `0x3F80` denotes one. -/
theorem ofBits_bf16_one : Ideal.ofBits .bf16 0x3F80#16 = 1 := by
  simp [Ideal.ofBits, Ideal.ieee, -EReal.coe_mul]; norm_num

/-! ## A setting scatter of a lane window, and of one column, read at an index -/

section Scatter
variable {α : Type}

/-- The dimension numbers of a scatter that sets an `R × n` update as a window of an `R × 256` operand at one start
    index on the lane axis. -/
abbrev lanesDims (R n : Nat) (wf : ScatterDims.WF ⟨2, ![R, 256]⟩ ⟨1, ![1]⟩ ⟨2, ![R, n]⟩ [0, 1] [] [1] 0) :
    ScatterDims ⟨2, ![R, 256]⟩ ⟨1, ![1]⟩ ⟨2, ![R, n]⟩ where
  updateWindowDims := [0, 1]
  insertedWindowDims := []
  scatterDimsToOperandDims := [1]
  indexVectorDim := 0
  wf := wf

/-- Update entry `(a, b)` lands on operand entry `(a, off + b)`. -/
theorem lanesDims_resultIdx {R n : Nat} (off : Nat) (hoff : off + n ≤ 256)
    (wf : ScatterDims.WF ⟨2, ![R, 256]⟩ ⟨1, ![1]⟩ ⟨2, ![R, n]⟩ [0, 1] [] [1] 0)
    (idx : IVec ⟨1, ![1]⟩ 32) (hidx : (idx (ix1 0)).toInt = (off : Int)) (j : (⟨2, ![R, n]⟩ : Shape).Idx) :
    (lanesDims R n wf).resultIdx? j idx
      = some (ix2 ⟨(j 0).val, idx2_lt0 j⟩ ⟨off + (j 1).val, by have := idx2_lt1 j; omega⟩) := by
  have hs0 : (lanesDims R n wf).start j idx 0 = 0 := by
    unfold ScatterDims.start; rw [dif_neg (by show (0 : Fin 2) ∉ ([1] : List (Fin 2)); decide)]
  have hs1 : (lanesDims R n wf).start j idx 1 = (off : Int) := by
    unfold ScatterDims.start; rw [dif_pos (List.mem_singleton.mpr rfl), ← hidx]
    congr 2
    funext b
    match b with
    | ⟨0, _⟩ => rfl
  have hw0 : (lanesDims R n wf).window j 0 = (j 0).val := rfl
  have hw1 : (lanesDims R n wf).window j 1 = (j 1).val := rfl
  have h0 := idx2_lt0 j
  have h1 := idx2_lt1 j
  unfold ScatterDims.resultIdx?
  rw [dif_pos (fun a => by
    match a with
    | ⟨0, _⟩ => show 0 ≤ (lanesDims R n wf).start j idx 0 + ((lanesDims R n wf).window j 0 : Int) ∧ (lanesDims R n wf).start j idx 0 + ((lanesDims R n wf).window j 0 : Int) < (R : Int); rw [hs0, hw0]; omega
    | ⟨1, _⟩ => show 0 ≤ (lanesDims R n wf).start j idx 1 + ((lanesDims R n wf).window j 1 : Int) ∧ (lanesDims R n wf).start j idx 1 + ((lanesDims R n wf).window j 1 : Int) < (256 : Int); rw [hs1, hw1]; omega)]
  congr 1
  funext a
  match a with
  | ⟨0, _⟩ => exact Fin.ext (by show ((lanesDims R n wf).start j idx 0 + ((lanesDims R n wf).window j 0 : Int)).toNat = (j 0).val; rw [hs0, hw0]; omega)
  | ⟨1, _⟩ => exact Fin.ext (by show ((lanesDims R n wf).start j idx 1 + ((lanesDims R n wf).window j 1 : Int)).toNat = off + (j 1).val; rw [hs1, hw1]; omega)

/-- The update entry that lands on operand entry `i`, if one does: `i`'s row at lane `i 1 - off`, when the lane is in
    the window. -/
def lanesInv (R n off : Nat) (i : (⟨2, ![R, 256]⟩ : Shape).Idx) : Option (⟨2, ![R, n]⟩ : Shape).Idx :=
  if h : off ≤ (i 1).val ∧ (i 1).val < off + n then some (ix2 ⟨(i 0).val, idx2_lt0 i⟩ ⟨(i 1).val - off, by omega⟩) else none

theorem lanesInv_spec {R n : Nat} (off : Nat) (hoff : off + n ≤ 256)
    (wf : ScatterDims.WF ⟨2, ![R, 256]⟩ ⟨1, ![1]⟩ ⟨2, ![R, n]⟩ [0, 1] [] [1] 0)
    (idx : IVec ⟨1, ![1]⟩ 32) (hidx : (idx (ix1 0)).toInt = (off : Int))
    (j : (⟨2, ![R, n]⟩ : Shape).Idx) (i : (⟨2, ![R, 256]⟩ : Shape).Idx) :
    (lanesDims R n wf).resultIdx? j idx = some i ↔ lanesInv R n off i = some j := by
  rw [lanesDims_resultIdx off hoff wf idx hidx j]
  have h1 := idx2_lt1 j
  unfold lanesInv
  constructor
  · intro h
    have h' := Option.some.inj h
    subst h'
    have hc : off ≤ off + (j 1).val ∧ off + (j 1).val < off + n := ⟨by omega, by omega⟩
    refine (dif_pos hc).trans (congrArg some ?_)
    funext a
    match a with
    | ⟨0, _⟩ => rfl
    | ⟨1, _⟩ => exact Fin.ext (by show off + (j 1).val - off = (j 1).val; omega)
  · intro h
    by_cases hc : off ≤ (i 1).val ∧ (i 1).val < off + n
    · have h' := Option.some.inj ((dif_pos hc).symm.trans h)
      subst h'
      refine congrArg some ?_
      funext a
      match a with
      | ⟨0, _⟩ => rfl
      | ⟨1, _⟩ => exact Fin.ext (by show off + ((i 1).val - off) = (i 1).val; omega)
    · exact absurd ((dif_neg hc).symm.trans h) (by simp)

/-- Setting an `R × n` update at lane `off` of every row of an `R × 256` operand: inside the window the update's
    entry, outside it the operand's. -/
theorem scatter_lanes_apply {R n : Nat} (off : Nat) (hoff : off + n ≤ 256)
    (wf : ScatterDims.WF ⟨2, ![R, 256]⟩ ⟨1, ![1]⟩ ⟨2, ![R, n]⟩ [0, 1] [] [1] 0)
    (x : (⟨2, ![R, 256]⟩ : Shape).Idx → α) (idx : IVec ⟨1, ![1]⟩ 32) (hidx : (idx (ix1 0)).toInt = (off : Int))
    (u : (⟨2, ![R, n]⟩ : Shape).Idx → α) (r : Fin R) (l : Fin 256) :
    Host.scatter (lanesDims R n wf) (fun _ b => b) x idx u (ix2 r l)
      = if h : off ≤ l.val ∧ l.val < off + n then u (ix2 r ⟨l.val - off, by omega⟩) else x (ix2 r l) := by
  rw [Host.scatter_set_apply (lanesDims R n wf) x idx u (lanesInv R n off) (lanesInv_spec off hoff wf idx hidx) (ix2 r l)]
  by_cases hc : off ≤ l.val ∧ l.val < off + n
  · have e : lanesInv R n off (ix2 r l) = some (ix2 r ⟨l.val - off, by omega⟩) := by
      unfold lanesInv; exact dif_pos hc
    rw [e, dif_pos hc]
  · have e : lanesInv R n off (ix2 r l) = (none : Option (⟨2, ![R, n]⟩ : Shape).Idx) := by
      unfold lanesInv; exact dif_neg hc
    rw [e, dif_neg hc]

end Scatter

section Column
variable {α : Type}

/-- The dimension numbers of a scatter that sets a length-`R` update into one lane of every row of an `R × 256` operand,
    the lane the one start index names. -/
abbrev columnDims (R : Nat) (wf : ScatterDims.WF ⟨2, ![R, 256]⟩ ⟨1, ![1]⟩ ⟨1, ![R]⟩ [0] [1] [1] 0) :
    ScatterDims ⟨2, ![R, 256]⟩ ⟨1, ![1]⟩ ⟨1, ![R]⟩ where
  updateWindowDims := [0]
  insertedWindowDims := [1]
  scatterDimsToOperandDims := [1]
  indexVectorDim := 0
  wf := wf

/-- Update entry `a` lands on operand entry `(a, col)`. -/
theorem columnDims_resultIdx {R : Nat} (col : Nat) (hcol : col < 256)
    (wf : ScatterDims.WF ⟨2, ![R, 256]⟩ ⟨1, ![1]⟩ ⟨1, ![R]⟩ [0] [1] [1] 0)
    (idx : IVec ⟨1, ![1]⟩ 32) (hidx : (idx (ix1 0)).toInt = (col : Int)) (j : (⟨1, ![R]⟩ : Shape).Idx) :
    (columnDims R wf).resultIdx? j idx = some (ix2 ⟨(j 0).val, (j 0).isLt⟩ ⟨col, hcol⟩) := by
  have hs0 : (columnDims R wf).start j idx 0 = 0 := by
    unfold ScatterDims.start; rw [dif_neg (by show (0 : Fin 2) ∉ ([1] : List (Fin 2)); decide)]
  have hs1 : (columnDims R wf).start j idx 1 = (col : Int) := by
    unfold ScatterDims.start; rw [dif_pos (List.mem_singleton.mpr rfl), ← hidx]
    congr 2
    funext b
    match b with
    | ⟨0, _⟩ => rfl
  have hw0 : (columnDims R wf).window j 0 = (j 0).val := rfl
  have hw1 : (columnDims R wf).window j 1 = 0 := rfl
  have h0 : (j 0).val < R := (j 0).isLt
  unfold ScatterDims.resultIdx?
  rw [dif_pos (fun a => by
    match a with
    | ⟨0, _⟩ => show 0 ≤ (columnDims R wf).start j idx 0 + ((columnDims R wf).window j 0 : Int) ∧ (columnDims R wf).start j idx 0 + ((columnDims R wf).window j 0 : Int) < (R : Int); rw [hs0, hw0]; omega
    | ⟨1, _⟩ => show 0 ≤ (columnDims R wf).start j idx 1 + ((columnDims R wf).window j 1 : Int) ∧ (columnDims R wf).start j idx 1 + ((columnDims R wf).window j 1 : Int) < (256 : Int); rw [hs1, hw1]; omega)]
  congr 1
  funext a
  match a with
  | ⟨0, _⟩ => exact Fin.ext (by show ((columnDims R wf).start j idx 0 + ((columnDims R wf).window j 0 : Int)).toNat = (j 0).val; rw [hs0, hw0]; omega)
  | ⟨1, _⟩ => exact Fin.ext (by show ((columnDims R wf).start j idx 1 + ((columnDims R wf).window j 1 : Int)).toNat = col; rw [hs1, hw1]; omega)

/-- The update entry that lands on operand entry `i`, if one does: `i`'s row, when `i`'s lane is `col`. -/
def columnInv (R col : Nat) (i : (⟨2, ![R, 256]⟩ : Shape).Idx) : Option (⟨1, ![R]⟩ : Shape).Idx :=
  if (i 1).val = col then some (ix1 ⟨(i 0).val, idx2_lt0 i⟩) else none

theorem columnInv_spec {R : Nat} (col : Nat) (hcol : col < 256)
    (wf : ScatterDims.WF ⟨2, ![R, 256]⟩ ⟨1, ![1]⟩ ⟨1, ![R]⟩ [0] [1] [1] 0)
    (idx : IVec ⟨1, ![1]⟩ 32) (hidx : (idx (ix1 0)).toInt = (col : Int))
    (j : (⟨1, ![R]⟩ : Shape).Idx) (i : (⟨2, ![R, 256]⟩ : Shape).Idx) :
    (columnDims R wf).resultIdx? j idx = some i ↔ columnInv R col i = some j := by
  rw [columnDims_resultIdx col hcol wf idx hidx j]
  unfold columnInv
  constructor
  · intro h
    have h' := Option.some.inj h
    subst h'
    refine (if_pos rfl).trans (congrArg some ?_)
    funext a
    match a with
    | ⟨0, _⟩ => rfl
  · intro h
    by_cases hc : (i 1).val = col
    · have h' := Option.some.inj ((if_pos hc).symm.trans h)
      subst h'
      refine congrArg some ?_
      funext a
      match a with
      | ⟨0, _⟩ => rfl
      | ⟨1, _⟩ => exact Fin.ext hc.symm
    · exact absurd ((if_neg hc).symm.trans h) (by simp)

/-- Setting a length-`R` update into lane `col` of every row: at lane `col` the update's entry, elsewhere the
    operand's. -/
theorem scatter_column_apply {R : Nat} (col : Nat) (hcol : col < 256)
    (wf : ScatterDims.WF ⟨2, ![R, 256]⟩ ⟨1, ![1]⟩ ⟨1, ![R]⟩ [0] [1] [1] 0)
    (x : (⟨2, ![R, 256]⟩ : Shape).Idx → α) (idx : IVec ⟨1, ![1]⟩ 32) (hidx : (idx (ix1 0)).toInt = (col : Int))
    (u : (⟨1, ![R]⟩ : Shape).Idx → α) (r : Fin R) (l : Fin 256) :
    Host.scatter (columnDims R wf) (fun _ b => b) x idx u (ix2 r l)
      = if l.val = col then u (ix1 r) else x (ix2 r l) := by
  rw [Host.scatter_set_apply (columnDims R wf) x idx u (columnInv R col) (columnInv_spec col hcol wf idx hidx) (ix2 r l)]
  by_cases hc : l.val = col
  · have e : columnInv R col (ix2 r l) = some (ix1 r) := by
      unfold columnInv; exact if_pos hc
    rw [e, if_pos hc]
  · have e : columnInv R col (ix2 r l) = (none : Option (⟨1, ![R]⟩ : Shape).Idx) := by
      unfold columnInv; exact if_neg hc
    rw [e, if_neg hc]

end Column

/-! ## A clamped gather of whole rows, read at an index -/

section Rows
variable {α : Type}

/-- The dimension numbers of a gather of whole rows of an `N × 256` operand at a `T × 1` array of row numbers. -/
abbrev rowsDims (N T : Nat) (wf : GatherDims.WF ⟨2, ![N, 256]⟩ ⟨2, ![T, 1]⟩ ⟨2, ![T, 256]⟩ [1] [0] [] [0] [] 1 ![1, 256]) :
    GatherDims ⟨2, ![N, 256]⟩ ⟨2, ![T, 1]⟩ ⟨2, ![T, 256]⟩ where
  offsetDims := [1]
  collapsedSliceDims := [0]
  operandBatchingDims := []
  startIndicesBatchingDims := []
  startIndexMap := [0]
  indexVectorDim := 1
  sliceSizes := ![1, 256]
  wf := wf

/-- Result entry `(t, l)` is the operand's entry `(row, l)`, the row the start index `z = idx (t, 0)` read signed and clamped
    into `[0, K]`, `K = N - 1` the last row. -/
theorem gather_rows_apply {N T w : Nat} (K : Nat) (hK : K + 1 = N)
    (wf : GatherDims.WF ⟨2, ![N, 256]⟩ ⟨2, ![T, 1]⟩ ⟨2, ![T, 256]⟩ [1] [0] [] [0] [] 1 ![1, 256])
    (x : (⟨2, ![N, 256]⟩ : Shape).Idx → α) (idx : IVec ⟨2, ![T, 1]⟩ w) (t : Fin T) (l : Fin 256)
    (z : BitVec w) (hz : idx (ix2 t 0) = z) :
    Host.gather (rowsDims N T wf) x idx (ix2 t l)
      = x (ix2 ⟨min z.toInt.toNat K, by omega⟩ l) := by
  subst hz
  unfold Host.gather
  congr 1
  funext a
  refine Fin.ext ?_
  match a with
  | ⟨0, _⟩ =>
    show (rowsDims N T wf).start (ix2 t l) idx 0 + (rowsDims N T wf).batchCoord (ix2 t l) 0 + (rowsDims N T wf).offCoord (ix2 t l) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N T wf).startIndexMap from List.mem_singleton.mpr rfl)]
    have hsi : (rowsDims N T wf).siIdx (ix2 t l) ⟨List.idxOf (0 : Fin 2) (rowsDims N T wf).startIndexMap,
        List.idxOf_lt_length_iff.2 (List.mem_singleton.mpr rfl)⟩ = ix2 t 0 := by
      funext b; refine Fin.ext ?_
      match b with
      | ⟨0, _⟩ => rfl
      | ⟨1, _⟩ => rfl
    rw [hsi]
    show min (idx (ix2 t 0)).toInt.toNat (N - 1) = min (idx (ix2 t 0)).toInt.toNat K
    rw [show N - 1 = K by omega]
  | ⟨1, _⟩ =>
    show (rowsDims N T wf).start (ix2 t l) idx 1 + (rowsDims N T wf).batchCoord (ix2 t l) 1 + (rowsDims N T wf).offCoord (ix2 t l) 1 = l.val
    rw [GatherDims.batchCoord_eq_zero _ _ _ List.not_mem_nil]
    have hst : (rowsDims N T wf).start (ix2 t l) idx 1 = 0 := by
      unfold GatherDims.start
      rw [dif_neg (by show (1 : Fin 2) ∉ ([0] : List (Fin 2)); decide)]
    have hoc : (rowsDims N T wf).offCoord (ix2 t l) 1 = l.val := rfl
    rw [hst, hoc]; omega

/-- A vector broadcast down a unit second axis reads its entry. -/
theorem bcast_col_apply {n : Nat} (hn : n ≠ 1) (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p 0) = v (ix1 p) := by
  unfold broadcastInDim
  congr 1
  funext a
  match a with
  | ⟨0, _⟩ => exact (dif_neg (show ¬ (n = 1) from hn)).trans (Fin.ext rfl)

end Rows

/-! ## The host operations that build the gathered rows, as one term over the argument arrays -/

/-- The flattened ids with the sentinel 100000 replaced by 0. -/
def idsTerm (ids : IVec S4096x20 32) : IVec S81920 32 :=
  select (cmpi .eq (shapeCast S81920 ids shapeCasts_S4096x20_S81920) (broadcastInDim S81920 ![] bcast_S_S81920 (constantI S_ 32 100000#32)))
    (broadcastInDim S81920 ![] bcast_S_S81920 (constantI S_ 32 0#32))
    (shapeCast S81920 ids shapeCasts_S4096x20_S81920)

/-- A zero table of 25000 rows of 256 lanes. -/
def zeroSlab : FVec Ideal S25000x256 .bf16 :=
  broadcastInDim S25000x256 ![] bcast_S_S25000x256 (constant (F := Ideal) S_ .bf16 0x0000#16)

/-- A one-entry index vector holding the word `w`. -/
def startAt (w : BitVec 32) : IVec S1 32 := broadcastInDim S1 ![] bcast_S_S1 (constantI S_ 32 w)

/-- The padded table: the four buckets' tables, each set into its lanes of a zero slab, laid end to end, and a one
    set into lane 240 of every row. -/
def tableTerm (e0 : FVec Ideal S25000x16 .f32) (e1 : FVec Ideal S25000x32 .f32) (e2 : FVec Ideal S25000x64 .f32)
    (e3 : FVec Ideal S25000x128 .f32) : FVec Ideal S100000x256 .bf16 :=
  Host.scatter scatter_S100000x256_S1_S100000_0_1_1_0 (fun _ b => b)
    (concatenate S100000x256 0
      [⟨S25000x256, Host.scatter scatter_S25000x256_S1_S25000x16_01_n_1_0 (fun _ b => b) zeroSlab (startAt 0#32) (truncf .bf16 e0 bitsLt_bf16_f32)⟩,
       ⟨S25000x256, Host.scatter scatter_S25000x256_S1_S25000x32_01_n_1_0 (fun _ b => b) zeroSlab (startAt 16#32) (truncf .bf16 e1 bitsLt_bf16_f32)⟩,
       ⟨S25000x256, Host.scatter scatter_S25000x256_S1_S25000x64_01_n_1_0 (fun _ b => b) zeroSlab (startAt 48#32) (truncf .bf16 e2 bitsLt_bf16_f32)⟩,
       ⟨S25000x256, Host.scatter scatter_S25000x256_S1_S25000x128_01_n_1_0 (fun _ b => b) zeroSlab (startAt 112#32) (truncf .bf16 e3 bitsLt_bf16_f32)⟩]
      concatenates_S25000x256_S25000x256_S25000x256_S25000x256_S100000x256_d0)
    (startAt 240#32)
    (broadcastInDim S100000 ![] bcast_S_S100000 (constant (F := Ideal) S_ .bf16 0x3F80#16))

/-- The gathered rows: row `id` (clamped) of the padded table for every token. -/
def rowsTerm (ids : IVec S4096x20 32) (e0 : FVec Ideal S25000x16 .f32) (e1 : FVec Ideal S25000x32 .f32)
    (e2 : FVec Ideal S25000x64 .f32) (e3 : FVec Ideal S25000x128 .f32) : FVec Ideal S81920x256 .bf16 :=
  Host.gather gather_S100000x256_S81920x1_S81920x256_1_0_n_n_0_1_1256 (tableTerm e0 e1 e2 e3)
    (broadcastInDim S81920x1 ![0] bcast_S81920_S81920x1_0 (idsTerm ids))

/-! ## The terms read at an index -/

/-- A one-entry index vector reads its word. -/
theorem startAt_apply (w : BitVec 32) (i : S1.Idx) : startAt w i = w := rfl

/-- The zero slab reads zero. -/
theorem zeroSlab_apply (i : S25000x256.Idx) : zeroSlab i = 0 := ofBits_bf16_zero

/-- Token `tok`'s flattened id, the sentinel remapped. -/
theorem idsTerm_apply (ids : IVec S4096x20 32) (tok : Fin 81920) :
    idsTerm ids (ix1 tok) = remap (ids (ix2 ⟨tok.val / 20, by omega⟩ ⟨tok.val % 20, by omega⟩)) := by
  have hflat : shapeCast S81920 ids shapeCasts_S4096x20_S81920 (ix1 tok)
      = ids (ix2 ⟨tok.val / 20, by omega⟩ ⟨tok.val % 20, by omega⟩) := by
    refine shapeCast_apply ids shapeCasts_S4096x20_S81920 (ix1 tok) _ ?_
    rw [Shape.rowMajor_val_two, Shape.rowMajor_val_one]
    show tok.val / 20 * 20 + tok.val % 20 = tok.val
    omega
  show Scalar.select (IntOp.cmpi .eq (shapeCast S81920 ids shapeCasts_S4096x20_S81920 (ix1 tok)) 100000#32) 0#32
      (shapeCast S81920 ids shapeCasts_S4096x20_S81920 (ix1 tok)) = _
  rw [hflat]
  generalize ids (ix2 ⟨tok.val / 20, by omega⟩ ⟨tok.val % 20, by omega⟩) = x
  unfold remap Scalar.select IntOp.cmpi
  by_cases hx : x = 100000#32
  · rw [if_pos hx, if_pos (by rw [hx]; rfl)]
  · have hb : (x == 100000#32) = false := beq_eq_false_iff_ne.mpr hx
    rw [if_neg hx, if_neg (by rw [hb]; show ¬ BitVec.ofBool false = 1#1; decide)]

/-- A bucket's table set into lanes `off … off + n` of a zero slab: the table's entry inside the lanes, zero outside. -/
theorem slab_apply {n : Nat} (off : Nat) (hoff : off + n ≤ 256)
    (wf : ScatterDims.WF ⟨2, ![25000, 256]⟩ ⟨1, ![1]⟩ ⟨2, ![25000, n]⟩ [0, 1] [] [1] 0)
    (w : BitVec 32) (hw : w.toInt = (off : Int)) (e : FVec Ideal ⟨2, ![25000, n]⟩ .f32) (r : Fin 25000) (l : Fin 256) :
    Host.scatter (lanesDims 25000 n wf) (fun _ b => b) zeroSlab (startAt w) (truncf .bf16 e bitsLt_bf16_f32) (ix2 r l)
      = if h : off ≤ l.val ∧ l.val < off + n then e (ix2 r ⟨l.val - off, by omega⟩) else 0 := by
  rw [scatter_lanes_apply off hoff wf zeroSlab (startAt w) hw (truncf .bf16 e bitsLt_bf16_f32) r l]
  by_cases hc : off ≤ l.val ∧ l.val < off + n
  · rw [dif_pos hc, dif_pos hc]; rfl
  · rw [dif_neg hc, dif_neg hc]; exact zeroSlab_apply _

/-- Four slabs of 25000 rows laid end to end, read at a row: the slab the row falls in, at the row less the rows before it. -/
theorem slabs_apply {α : Type} (x0 x1 x2 x3 : S25000x256.Idx → α) (r : Fin 100000) (l : Fin 256) :
    concatenate S100000x256 0 [⟨S25000x256, x0⟩, ⟨S25000x256, x1⟩, ⟨S25000x256, x2⟩, ⟨S25000x256, x3⟩]
        concatenates_S25000x256_S25000x256_S25000x256_S25000x256_S100000x256_d0 (ix2 r l)
      = if h0 : r.val < 25000 then x0 (ix2 ⟨r.val, h0⟩ l)
        else if h1 : r.val < 50000 then x1 (ix2 ⟨r.val - 25000, by omega⟩ l)
        else if h2 : r.val < 75000 then x2 (ix2 ⟨r.val - 50000, by omega⟩ l)
        else x3 (ix2 ⟨r.val - 75000, by omega⟩ l) := by
  have hr := r.isLt
  by_cases h0 : r.val < 25000
  · rw [dif_pos h0]
    exact concatenate_apply_piece _ _ _ (ix2 r l) 0 (by show 0 < 4; omega) S25000x256 x0 rfl rfl 0 rfl (ix2 ⟨r.val, h0⟩ l)
      (fun b hb => by match b with | ⟨0, _⟩ => exact absurd rfl hb | ⟨1, _⟩ => rfl) (by show 0 + r.val = r.val; omega)
  rw [dif_neg h0]
  by_cases h1 : r.val < 50000
  · rw [dif_pos h1]
    exact concatenate_apply_piece _ _ _ (ix2 r l) 1 (by show 1 < 4; omega) S25000x256 x1 rfl rfl 25000 rfl (ix2 ⟨r.val - 25000, by omega⟩ l)
      (fun b hb => by match b with | ⟨0, _⟩ => exact absurd rfl hb | ⟨1, _⟩ => rfl) (by show 25000 + (r.val - 25000) = r.val; omega)
  rw [dif_neg h1]
  by_cases h2 : r.val < 75000
  · rw [dif_pos h2]
    exact concatenate_apply_piece _ _ _ (ix2 r l) 2 (by show 2 < 4; omega) S25000x256 x2 rfl rfl 50000 rfl (ix2 ⟨r.val - 50000, by omega⟩ l)
      (fun b hb => by match b with | ⟨0, _⟩ => exact absurd rfl hb | ⟨1, _⟩ => rfl) (by show 50000 + (r.val - 50000) = r.val; omega)
  rw [dif_neg h2]
  exact concatenate_apply_piece _ _ _ (ix2 r l) 3 (by show 3 < 4; omega) S25000x256 x3 rfl rfl (25000 + (25000 + (25000 + 0))) rfl (ix2 ⟨r.val - 75000, by omega⟩ l)
    (fun b hb => by match b with | ⟨0, _⟩ => exact absurd rfl hb | ⟨1, _⟩ => rfl) (by show 25000 + (25000 + (25000 + 0)) + (r.val - 75000) = r.val; omega)

/-- THE PADDED TABLE read at row `r`, lane `l`. -/
theorem tableTerm_apply (T : Tables) (e0 : FVec Ideal S25000x16 .f32) (e1 : FVec Ideal S25000x32 .f32)
    (e2 : FVec Ideal S25000x64 .f32) (e3 : FVec Ideal S25000x128 .f32)
    (hT0 : ∀ r k, T.emb0 r k = e0 (ix2 r k)) (hT1 : ∀ r k, T.emb1 r k = e1 (ix2 r k))
    (hT2 : ∀ r k, T.emb2 r k = e2 (ix2 r k)) (hT3 : ∀ r k, T.emb3 r k = e3 (ix2 r k))
    (r : Fin 100000) (l : Fin 256) :
    tableTerm e0 e1 e2 e3 (ix2 r l) = combined T r l := by
  have d16 : scatter_S25000x256_S1_S25000x16_01_n_1_0 = lanesDims 25000 16 scatter_S25000x256_S1_S25000x16_01_n_1_0_wf := rfl
  have d32 : scatter_S25000x256_S1_S25000x32_01_n_1_0 = lanesDims 25000 32 scatter_S25000x256_S1_S25000x32_01_n_1_0_wf := rfl
  have d64 : scatter_S25000x256_S1_S25000x64_01_n_1_0 = lanesDims 25000 64 scatter_S25000x256_S1_S25000x64_01_n_1_0_wf := rfl
  have d128 : scatter_S25000x256_S1_S25000x128_01_n_1_0 = lanesDims 25000 128 scatter_S25000x256_S1_S25000x128_01_n_1_0_wf := rfl
  have dcol : scatter_S100000x256_S1_S100000_0_1_1_0 = columnDims 100000 scatter_S100000x256_S1_S100000_0_1_1_0_wf := rfl
  unfold tableTerm combined
  rw [dcol, scatter_column_apply 240 (by omega) _ _ (startAt 240#32) (by rw [startAt_apply]; decide) _ r l]
  by_cases hl : l.val = 240
  · rw [if_pos hl, if_pos hl]; exact ofBits_bf16_one
  rw [if_neg hl, if_neg hl, slabs_apply]
  by_cases h0 : r.val < 25000
  · rw [dif_pos h0, dif_pos h0, d16, slab_apply 0 (by omega) _ 0#32 (by decide) e0 ⟨r.val, h0⟩ l]
    by_cases hc : l.val < 16
    · rw [dif_pos hc, dif_pos (show 0 ≤ l.val ∧ l.val < 0 + 16 from ⟨Nat.zero_le _, by omega⟩), hT0]
      exact congrArg (fun k => e0 (ix2 ⟨r.val, h0⟩ k)) (Fin.ext (Nat.sub_zero _))
    · rw [dif_neg hc, dif_neg (show ¬ (0 ≤ l.val ∧ l.val < 0 + 16) from fun h => hc (by omega))]
  rw [dif_neg h0, dif_neg h0]
  by_cases h1 : r.val < 50000
  · rw [dif_pos h1, dif_pos h1, d32, slab_apply 16 (by omega) _ 16#32 (by decide) e1 ⟨r.val - 25000, by omega⟩ l]
    by_cases hc : 16 ≤ l.val ∧ l.val < 48
    · rw [dif_pos hc, dif_pos (show 16 ≤ l.val ∧ l.val < 16 + 32 from ⟨hc.1, by omega⟩), hT1]
    · rw [dif_neg hc, dif_neg (show ¬ (16 ≤ l.val ∧ l.val < 16 + 32) from fun h => hc ⟨h.1, by omega⟩)]
  rw [dif_neg h1, dif_neg h1]
  by_cases h2 : r.val < 75000
  · rw [dif_pos h2, dif_pos h2, d64, slab_apply 48 (by omega) _ 48#32 (by decide) e2 ⟨r.val - 50000, by omega⟩ l]
    by_cases hc : 48 ≤ l.val ∧ l.val < 112
    · rw [dif_pos hc, dif_pos (show 48 ≤ l.val ∧ l.val < 48 + 64 from ⟨hc.1, by omega⟩), hT2]
    · rw [dif_neg hc, dif_neg (show ¬ (48 ≤ l.val ∧ l.val < 48 + 64) from fun h => hc ⟨h.1, by omega⟩)]
  rw [dif_neg h2, dif_neg h2, d128, slab_apply 112 (by omega) _ 112#32 (by decide) e3 ⟨r.val - 75000, by omega⟩ l]
  by_cases hc : 112 ≤ l.val ∧ l.val < 240
  · rw [dif_pos hc, dif_pos (show 112 ≤ l.val ∧ l.val < 112 + 128 from ⟨hc.1, by omega⟩), hT3]
  · rw [dif_neg hc, dif_neg (show ¬ (112 ≤ l.val ∧ l.val < 112 + 128) from fun h => hc ⟨h.1, by omega⟩)]

/-- THE GATHERED ROWS read at token `tok`, lane `l`: row `clamp id` of the padded table. -/
theorem rowsTerm_apply (T : Tables) (ids : IVec S4096x20 32) (e0 : FVec Ideal S25000x16 .f32) (e1 : FVec Ideal S25000x32 .f32)
    (e2 : FVec Ideal S25000x64 .f32) (e3 : FVec Ideal S25000x128 .f32)
    (hT0 : ∀ r k, T.emb0 r k = e0 (ix2 r k)) (hT1 : ∀ r k, T.emb1 r k = e1 (ix2 r k))
    (hT2 : ∀ r k, T.emb2 r k = e2 (ix2 r k)) (hT3 : ∀ r k, T.emb3 r k = e3 (ix2 r k))
    (tok : Fin 81920) (l : Fin 256) :
    rowsTerm ids e0 e1 e2 e3 (ix2 tok l)
      = combined T (clampRow (remap (ids (ix2 ⟨tok.val / 20, by omega⟩ ⟨tok.val % 20, by omega⟩)))) l := by
  have dg : gather_S100000x256_S81920x1_S81920x256_1_0_n_n_0_1_1256
      = rowsDims 100000 81920 gather_S100000x256_S81920x1_S81920x256_1_0_n_n_0_1_1256_wf := rfl
  have hidx : broadcastInDim S81920x1 ![0] bcast_S81920_S81920x1_0 (idsTerm ids) (ix2 tok 0) = idsTerm ids (ix1 tok) :=
    bcast_col_apply (by omega) bcast_S81920_S81920x1_0 (idsTerm ids) tok
  unfold rowsTerm
  rw [dg, gather_rows_apply 99999 (by omega) _ (tableTerm e0 e1 e2 e3) _ tok l _ (hidx.trans (idsTerm_apply ids tok))]
  exact tableTerm_apply T e0 e1 e2 e3 hT0 hT1 hT2 hT3 (clampRow _) l

end GatherRows

variable (m : (ℓ : Loc nD τ sig) → Buf (Elt Ideal) ℓ)

namespace GatherRows

/-! ## What the host operations leave in the gathered-rows buffer

The operations before the region run in seven stretches. The first two flatten and remap the ids, the third builds the
padded table, the fourth gathers; the rest write other buffers. Each stretch is read over ANY contents `W` before it. -/

section Run

/-- The four-slab concatenate's result buffer after it: the concatenation of what the four slabs' buffers held. -/
theorem concat_result (hxs hy) (F : Valuation τ sig (Elt Ideal)) :
    (StableHlo.nary ![main_v7, main_v11, main_v15, main_v19] main_v20 (fun u => concatenate S100000x256 0 [⟨S25000x256, u 0⟩, ⟨S25000x256, u 1⟩, ⟨S25000x256, u 2⟩, ⟨S25000x256, u 3⟩] concatenates_S25000x256_S25000x256_S25000x256_S25000x256_S100000x256_d0) hxs hy).result F
        (Proc.devRef .tc main_v20)
      = concatenate S100000x256 0 [⟨S25000x256, F (Proc.devRef .tc main_v7)⟩, ⟨S25000x256, F (Proc.devRef .tc main_v11)⟩,
          ⟨S25000x256, F (Proc.devRef .tc main_v15)⟩, ⟨S25000x256, F (Proc.devRef .tc main_v19)⟩]
          concatenates_S25000x256_S25000x256_S25000x256_S25000x256_S100000x256_d0 := by
  rw [StableHlo.nary_result]
  rfl

open Idealize.ShloMosaic.StableHlo in
/-- Rewrites what a literal list of host operations leaves at a buffer to the operations' functions applied to the
    contents they read: each operation's result at its own buffer, any other buffer as it was. -/
macro "rows_host_results" : tactic =>
  `(tactic| (simp only [after_cons, after_nil]
             repeat (first
               | rw [nullary_result] | rw [unary_result] | rw [binary_result] | rw [ternary_result]
               | rw [reshape_result] | rw [concat_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

/-- The first two stretches leave the remapped flattened ids in their buffer. -/
theorem stretch_ids (W : Valuation τ sig (Elt Ideal)) :
    (StableHlo.after (hostOps0 ++ hostOps0_1) W (Proc.devRef .tc main_v3) : IVec S81920 32)
      = idsTerm (W (Proc.devRef .tc main_arg0)) := by
  simp only [hostOps0, hostOps0_1, List.cons_append, List.nil_append]
  rows_host_results
  simp only [StableHlo.TRef.ofBuf, StableHlo.TRef.toBuf, cast_eq]
  rfl

/-- and write none of the four embedding tables. -/
theorem stretch_ids_arg1 (W : Valuation τ sig (Elt Ideal)) :
    StableHlo.after (hostOps0 ++ hostOps0_1) W (Proc.devRef .tc main_arg1) = W (Proc.devRef .tc main_arg1) := by
  simp only [hostOps0, hostOps0_1, List.cons_append, List.nil_append]
  rows_host_results
theorem stretch_ids_arg6 (W : Valuation τ sig (Elt Ideal)) :
    StableHlo.after (hostOps0 ++ hostOps0_1) W (Proc.devRef .tc main_arg6) = W (Proc.devRef .tc main_arg6) := by
  simp only [hostOps0, hostOps0_1, List.cons_append, List.nil_append]
  rows_host_results
theorem stretch_ids_arg11 (W : Valuation τ sig (Elt Ideal)) :
    StableHlo.after (hostOps0 ++ hostOps0_1) W (Proc.devRef .tc main_arg11) = W (Proc.devRef .tc main_arg11) := by
  simp only [hostOps0, hostOps0_1, List.cons_append, List.nil_append]
  rows_host_results
theorem stretch_ids_arg16 (W : Valuation τ sig (Elt Ideal)) :
    StableHlo.after (hostOps0 ++ hostOps0_1) W (Proc.devRef .tc main_arg16) = W (Proc.devRef .tc main_arg16) := by
  simp only [hostOps0, hostOps0_1, List.cons_append, List.nil_append]
  rows_host_results

set_option maxHeartbeats 2000000 in
/-- The third stretch leaves the padded table in its buffer, -/
theorem stretch_table (W : Valuation τ sig (Elt Ideal)) :
    (StableHlo.after hostOps0_2 W (Proc.devRef .tc main_v23) : FVec Ideal S100000x256 .bf16)
      = tableTerm (W (Proc.devRef .tc main_arg1)) (W (Proc.devRef .tc main_arg6)) (W (Proc.devRef .tc main_arg11))
          (W (Proc.devRef .tc main_arg16)) := by
  simp only [hostOps0_2]
  rows_host_results
  rfl

set_option maxHeartbeats 2000000 in
/-- and the ids' buffer as it was. -/
theorem stretch_table_ids (W : Valuation τ sig (Elt Ideal)) :
    StableHlo.after hostOps0_2 W (Proc.devRef .tc main_v3) = W (Proc.devRef .tc main_v3) := by
  simp only [hostOps0_2]
  rows_host_results

/-- The fourth stretch gathers: for every token the row its id names. -/
theorem stretch_rows (W : Valuation τ sig (Elt Ideal)) :
    (StableHlo.after hostOps0_3 W (Proc.devRef .tc main_v24) : FVec Ideal S81920x256 .bf16)
      = Host.gather gather_S100000x256_S81920x1_S81920x256_1_0_n_n_0_1_1256 (W (Proc.devRef .tc main_v23) : FVec Ideal S100000x256 .bf16)
          (broadcastInDim S81920x1 ![0] bcast_S81920_S81920x1_0 (W (Proc.devRef .tc main_v3) : IVec S81920 32)) := by
  simp only [hostOps0_3]
  rows_host_results
  simp only [StableHlo.TRef.ofBuf, StableHlo.TRef.toBuf, cast_eq]

set_option maxHeartbeats 4000000 in
/-- The stretches after it write other buffers. -/
theorem stretch_rest (W : Valuation τ sig (Elt Ideal)) :
    StableHlo.after (hostOps0_4 ++ (hostOps0_5 ++ hostOps0_6)) W (Proc.devRef .tc main_v24) = W (Proc.devRef .tc main_v24) := by
  simp only [hostOps0_4, hostOps0_5, hostOps0_6, List.cons_append, List.nil_append]
  rows_host_results

/-- The seven stretches, grouped as above. -/
theorem before_split : List.flatten (before (F := Ideal))
    = (hostOps0 ++ hostOps0_1) ++ (hostOps0_2 ++ (hostOps0_3 ++ (hostOps0_4 ++ (hostOps0_5 ++ hostOps0_6)))) := by
  simp only [before, List.flatten_cons, List.flatten_nil, List.append_nil, List.append_assoc]

/-- What the region finds in the gathered-rows buffer: the host operations' term over the launched arguments. -/
theorem V_rows_eq (c : Dev nD) :
    (V m c main_v24 : FVec Ideal S81920x256 .bf16)
      = rowsTerm (m ((c.tc : Thread nD τ).loc main_arg0)) (m ((c.tc : Thread nD τ).loc main_arg1)) (m ((c.tc : Thread nD τ).loc main_arg6))
          (m ((c.tc : Thread nD τ).loc main_arg11)) (m ((c.tc : Thread nD τ).loc main_arg16)) := by
  show StableHlo.after (List.flatten (before (F := Ideal))) (fun b => m (c, b)) (Proc.devRef .tc main_v24) = _
  rw [before_split, StableHlo.after_append, StableHlo.after_append, StableHlo.after_append, stretch_rest, stretch_rows,
    stretch_table, stretch_table_ids, stretch_ids, stretch_ids_arg1, stretch_ids_arg6, stretch_ids_arg11, stretch_ids_arg16]
  rfl

end Run

end GatherRows

/-- Token `tok`'s gathered row is row `clamp id` of the padded table. -/
theorem V_rows (c : Dev nD) (tok : Fin 81920) (l : Fin 256) :
    (V m c main_v24 : FVec Ideal S81920x256 .bf16) (ix2 tok l) = combined (tables m c) (clampRow (tokId m c tok)) l := by
  rw [GatherRows.V_rows_eq]
  exact GatherRows.rowsTerm_apply (tables m c) _ _ _ _ _ (fun _ _ => rfl) (fun _ _ => rfl) (fun _ _ => rfl) (fun _ _ => rfl) tok l

end Cert.KernelIdeal.Hand

end
-- ==== Proof.HostW1.lean ====
/-
  The first-layer matrix the region finds: the four buckets' matrices set block by block on the diagonal of a zero
  256 × 256 matrix (rows at the bucket's lanes, columns at the bucket's 64 hidden lanes), then row 240 set to the
  four first-layer biases laid side by side.

  The road: a setting scatter with one start index is read at an entry through a partial inverse of its landing map
  (a window: the entry's offset inside the window when it is inside; a row: the column when the entry is in that
  row); the two-entry start vectors and the four biases side by side are concatenations read at an entry; the
  conversions to the narrower format are the identity on the extended reals. The matrix's buffer is written in the
  last stretch of host operations, which reads eight argument arrays no earlier operation writes.
-/
import proofs.«401935_j50148038148546_3_alg».proof.Proof.KernelArgs
import proofs.«401935_j50148038148546_3_alg».proof.Proof.LibScatter
import Idealize.ShloMosaic.Lib.ValueIdx
import Idealize.ShloMosaic.Lib.Pipeline.Value
import Idealize.ShloMosaic.Lib.StableHlo.Run

noncomputable section

namespace Cert.KernelIdeal.Hand

open Cert.KernelIdeal Cert.KernelIdeal.Gen Cert.BucketMlp
open Idealize.ShloMosaic Idealize.ShloMosaic.TcCoe Idealize.ShloMosaic.ValueIdx Idealize.SL.Sem

section Win
variable {n : Nat} (wf : ScatterDims.WF S256x256 S2 ⟨2, ![n, 64]⟩ [0, 1] [] [0, 1] 0)

abbrev winDims : ScatterDims S256x256 S2 ⟨2, ![n, 64]⟩ := ⟨[0, 1], [], [0, 1], 0, wf⟩

theorem win_start0 {w : Nat} (j : (⟨2, ![n, 64]⟩ : Shape).Idx) (idx : IVec S2 w) :
    (winDims wf).start j idx 0 = (idx (ix1 0)).toInt := by
  unfold ScatterDims.start
  have h : (0 : Fin S256x256.rank) ∈ (winDims wf).scatterDimsToOperandDims := by
    show (0 : Fin S256x256.rank) ∈ ([0, 1] : List (Fin S256x256.rank)); decide
  rw [dif_pos h]
  refine congrArg (fun z => (idx z).toInt) ?_
  funext b
  match b with
  | ⟨0, _⟩ => rfl

theorem win_start1 {w : Nat} (j : (⟨2, ![n, 64]⟩ : Shape).Idx) (idx : IVec S2 w) :
    (winDims wf).start j idx 1 = (idx (ix1 1)).toInt := by
  unfold ScatterDims.start
  have h : (1 : Fin S256x256.rank) ∈ (winDims wf).scatterDimsToOperandDims := by
    show (1 : Fin S256x256.rank) ∈ ([0, 1] : List (Fin S256x256.rank)); decide
  rw [dif_pos h]
  refine congrArg (fun z => (idx z).toInt) ?_
  funext b
  match b with
  | ⟨0, _⟩ => rfl

theorem win_window0 (j : (⟨2, ![n, 64]⟩ : Shape).Idx) :
    (winDims wf).window j 0 = (j 0).val := by
  unfold ScatterDims.window
  have h : (0 : Fin S256x256.rank) ∈ (winDims wf).sKept := by
    show (0 : Fin S256x256.rank) ∈ S256x256.kept []; decide
  rw [dif_pos h]
  rfl

theorem win_window1 (j : (⟨2, ![n, 64]⟩ : Shape).Idx) :
    (winDims wf).window j 1 = (j 1).val := by
  unfold ScatterDims.window
  have h : (1 : Fin S256x256.rank) ∈ (winDims wf).sKept := by
    show (1 : Fin S256x256.rank) ∈ S256x256.kept []; decide
  rw [dif_pos h]
  rfl
end Win

section Win2
variable {n : Nat} (wf : ScatterDims.WF S256x256 S2 ⟨2, ![n, 64]⟩ [0, 1] [] [0, 1] 0)

theorem win_resultIdx {w : Nat} (idx : IVec S2 w) (ro co : Nat)
    (h0 : (idx (ix1 0)).toInt = ro) (h1 : (idx (ix1 1)).toInt = co)
    (hro : ro + n ≤ 256) (hco : co + 64 ≤ 256) (p : Fin n) (q : Fin 64) :
    (winDims wf).resultIdx? (ix2 p q) idx = some (ix2 ⟨ro + p.val, by omega⟩ ⟨co + q.val, by omega⟩) := by
  have s0 := win_start0 wf (ix2 p q) idx
  have s1 := win_start1 wf (ix2 p q) idx
  have w0 := win_window0 wf (ix2 p q)
  have w1 := win_window1 wf (ix2 p q)
  rw [h0] at s0; rw [h1] at s1
  have hp : ((ix2 p q : (⟨2, ![n, 64]⟩ : Shape).Idx) 0).val = p.val := rfl
  have hq : ((ix2 p q : (⟨2, ![n, 64]⟩ : Shape).Idx) 1).val = q.val := rfl
  rw [hp] at w0; rw [hq] at w1
  have H : ∀ a, 0 ≤ (winDims wf).start (ix2 p q) idx a + (winDims wf).window (ix2 p q) a ∧
      (winDims wf).start (ix2 p q) idx a + (winDims wf).window (ix2 p q) a < S256x256.size a := by
    refine Fin.forall_fin_two.2 ⟨?_, ?_⟩
    · rw [s0, w0]; show _ ∧ _ < ((256 : Nat) : Int); have := p.isLt; omega
    · rw [s1, w1]; show _ ∧ _ < ((256 : Nat) : Int); have := q.isLt; omega
  unfold ScatterDims.resultIdx?
  rw [dif_pos H]
  refine congrArg some (funext ?_)
  refine Fin.forall_fin_two.2 ⟨?_, ?_⟩
  · refine Fin.ext ?_
    show ((winDims wf).start (ix2 p q) idx 0 + (winDims wf).window (ix2 p q) 0).toNat = ro + p.val
    rw [s0, w0]; omega
  · refine Fin.ext ?_
    show ((winDims wf).start (ix2 p q) idx 1 + (winDims wf).window (ix2 p q) 1).toNat = co + q.val
    rw [s1, w1]; omega
end Win2

theorem ix2_congr {n0 n1 : Nat} {a a' : Fin n0} {b b' : Fin n1} (ha : a.val = a'.val) (hb : b.val = b'.val) :
    (ix2 a b : (⟨2, ![n0, n1]⟩ : Shape).Idx) = ix2 a' b' := by
  rw [Fin.ext ha, Fin.ext hb]

section Win3
variable {n : Nat} (wf : ScatterDims.WF S256x256 S2 ⟨2, ![n, 64]⟩ [0, 1] [] [0, 1] 0)

/-- Where an operand index sits in the window that starts at `(ro, co)`, if it does. -/
def winInv (n ro co : Nat) (i : S256x256.Idx) : Option (⟨2, ![n, 64]⟩ : Shape).Idx :=
  if h : (ro ≤ (i 0).val ∧ (i 0).val < ro + n) ∧ (co ≤ (i 1).val ∧ (i 1).val < co + 64) then
    some (ix2 ⟨(i 0).val - ro, by omega⟩ ⟨(i 1).val - co, by omega⟩)
  else none

theorem win_hinv {w : Nat} (idx : IVec S2 w) (ro co : Nat)
    (h0 : (idx (ix1 0)).toInt = ro) (h1 : (idx (ix1 1)).toInt = co)
    (hro : ro + n ≤ 256) (hco : co + 64 ≤ 256) (u : (⟨2, ![n, 64]⟩ : Shape).Idx) (i : S256x256.Idx) :
    (winDims wf).resultIdx? u idx = some i ↔ winInv n ro co i = some u := by
  obtain ⟨p, q, rfl⟩ : ∃ (p : Fin n) (q : Fin 64), u = ix2 p q := ⟨u 0, u 1, eq_ix2 u⟩
  rw [win_resultIdx wf idx ro co h0 h1 hro hco p q]
  have hi0 : (i 0).val < 256 := idx2_lt0 i
  have hi1 : (i 1).val < 256 := idx2_lt1 i
  constructor
  · intro e
    have e' := Option.some.inj e
    subst e'
    unfold winInv
    have hc : (ro ≤ ro + p.val ∧ ro + p.val < ro + n) ∧ (co ≤ co + q.val ∧ co + q.val < co + 64) := by
      have := p.isLt; have := q.isLt; omega
    rw [dif_pos hc]
    exact congrArg some (ix2_congr (by show ro + p.val - ro = p.val; omega) (by show co + q.val - co = q.val; omega))
  · intro e
    unfold winInv at e
    by_cases hc : (ro ≤ (i 0).val ∧ (i 0).val < ro + n) ∧ (co ≤ (i 1).val ∧ (i 1).val < co + 64)
    · rw [dif_pos hc] at e
      have e' := Option.some.inj e
      have ep : (i 0).val - ro = p.val := congrArg (fun f : (⟨2, ![n, 64]⟩ : Shape).Idx => (f 0).val) e'
      have eq : (i 1).val - co = q.val := congrArg (fun f : (⟨2, ![n, 64]⟩ : Shape).Idx => (f 1).val) e'
      rw [eq_ix2 i]
      exact congrArg some (ix2_congr (by show ro + p.val = (i 0).val; omega) (by show co + q.val = (i 1).val; omega))
    · rw [dif_neg hc] at e; exact absurd e (by simp)

/-- A window set into a matrix, read at an entry: the window's entry inside the window, the matrix's outside. -/
theorem win_scatter_apply {α : Type} {w : Nat} (x : S256x256.Idx → α) (idx : IVec S2 w)
    (upd : (⟨2, ![n, 64]⟩ : Shape).Idx → α) (ro co : Nat)
    (h0 : (idx (ix1 0)).toInt = ro) (h1 : (idx (ix1 1)).toInt = co)
    (hro : ro + n ≤ 256) (hco : co + 64 ≤ 256) (l k : Fin 256) :
    Host.scatter (winDims wf) (fun _ b => b) x idx upd (ix2 l k)
      = if h : (ro ≤ l.val ∧ l.val < ro + n) ∧ (co ≤ k.val ∧ k.val < co + 64) then
          upd (ix2 ⟨l.val - ro, by omega⟩ ⟨k.val - co, by omega⟩)
        else x (ix2 l k) := by
  rw [Host.scatter_set_apply (winDims wf) x idx upd (winInv n ro co) (win_hinv wf idx ro co h0 h1 hro hco) (ix2 l k)]
  unfold winInv
  by_cases hc : (ro ≤ l.val ∧ l.val < ro + n) ∧ (co ≤ k.val ∧ k.val < co + 64)
  · rw [dif_pos hc, dif_pos (show (ro ≤ ((ix2 l k : S256x256.Idx) 0).val ∧ ((ix2 l k : S256x256.Idx) 0).val < ro + n) ∧ (co ≤ ((ix2 l k : S256x256.Idx) 1).val ∧ ((ix2 l k : S256x256.Idx) 1).val < co + 64) from hc)]
  · rw [dif_neg hc, dif_neg (show ¬ ((ro ≤ ((ix2 l k : S256x256.Idx) 0).val ∧ ((ix2 l k : S256x256.Idx) 0).val < ro + n) ∧ (co ≤ ((ix2 l k : S256x256.Idx) 1).val ∧ ((ix2 l k : S256x256.Idx) 1).val < co + 64)) from hc)]
end Win3

section Row
variable (wf : ScatterDims.WF S256x256 S1 S256 [0] [0] [0] 0)

abbrev rowDims : ScatterDims S256x256 S1 S256 := ⟨[0], [0], [0], 0, wf⟩

theorem row_start0 {w : Nat} (j : S256.Idx) (idx : IVec S1 w) :
    (rowDims wf).start j idx 0 = (idx (ix1 0)).toInt := by
  unfold ScatterDims.start
  have h : (0 : Fin S256x256.rank) ∈ (rowDims wf).scatterDimsToOperandDims := by
    show (0 : Fin S256x256.rank) ∈ ([0] : List (Fin S256x256.rank)); decide
  rw [dif_pos h]
  refine congrArg (fun z => (idx z).toInt) ?_
  funext b
  match b with
  | ⟨0, _⟩ => rfl

theorem row_start1 {w : Nat} (j : S256.Idx) (idx : IVec S1 w) :
    (rowDims wf).start j idx 1 = 0 := by
  unfold ScatterDims.start
  have h : ¬ (1 : Fin S256x256.rank) ∈ (rowDims wf).scatterDimsToOperandDims := by
    show ¬ (1 : Fin S256x256.rank) ∈ ([0] : List (Fin S256x256.rank)); decide
  rw [dif_neg h]

theorem row_window0 (j : S256.Idx) : (rowDims wf).window j 0 = 0 := by
  unfold ScatterDims.window
  have h : ¬ (0 : Fin S256x256.rank) ∈ (rowDims wf).sKept := by
    show ¬ (0 : Fin S256x256.rank) ∈ S256x256.kept [0]; decide
  rw [dif_neg h]

theorem row_window1 (j : S256.Idx) : (rowDims wf).window j 1 = (j 0).val := by
  unfold ScatterDims.window
  have h : (1 : Fin S256x256.rank) ∈ (rowDims wf).sKept := by
    show (1 : Fin S256x256.rank) ∈ S256x256.kept [0]; decide
  rw [dif_pos h]
  rfl

theorem row_resultIdx {w : Nat} (idx : IVec S1 w) (r : Nat) (h0 : (idx (ix1 0)).toInt = r) (hr : r < 256) (q : Fin 256) :
    (rowDims wf).resultIdx? (ix1 q) idx = some (ix2 ⟨r, hr⟩ q) := by
  have s0 := row_start0 wf (ix1 q) idx
  have s1 := row_start1 wf (ix1 q) idx
  have w0 := row_window0 wf (ix1 q)
  have w1 := row_window1 wf (ix1 q)
  rw [h0] at s0
  have hq : ((ix1 q : S256.Idx) 0).val = q.val := rfl
  rw [hq] at w1
  have H : ∀ a, 0 ≤ (rowDims wf).start (ix1 q) idx a + (rowDims wf).window (ix1 q) a ∧
      (rowDims wf).start (ix1 q) idx a + (rowDims wf).window (ix1 q) a < S256x256.size a := by
    refine Fin.forall_fin_two.2 ⟨?_, ?_⟩
    · rw [s0, w0]; show _ ∧ _ < ((256 : Nat) : Int); omega
    · rw [s1, w1]; show _ ∧ _ < ((256 : Nat) : Int); have := q.isLt; omega
  unfold ScatterDims.resultIdx?
  rw [dif_pos H]
  refine congrArg some (funext ?_)
  refine Fin.forall_fin_two.2 ⟨?_, ?_⟩
  · refine Fin.ext ?_
    show ((rowDims wf).start (ix1 q) idx 0 + (rowDims wf).window (ix1 q) 0).toNat = r
    rw [s0, w0]; omega
  · refine Fin.ext ?_
    show ((rowDims wf).start (ix1 q) idx 1 + (rowDims wf).window (ix1 q) 1).toNat = q.val
    rw [s1, w1]; omega

/-- The entry of the row that lands on an operand index of row `r`, if the index is in that row. -/
def rowInv (r : Nat) (i : S256x256.Idx) : Option S256.Idx :=
  if (i 0).val = r then some (ix1 (i 1)) else none

theorem row_hinv {w : Nat} (idx : IVec S1 w) (r : Nat) (h0 : (idx (ix1 0)).toInt = r) (hr : r < 256)
    (u : S256.Idx) (i : S256x256.Idx) :
    (rowDims wf).resultIdx? u idx = some i ↔ rowInv r i = some u := by
  obtain ⟨q, rfl⟩ : ∃ q : Fin 256, u = ix1 q := ⟨u 0, eq_ix1 u⟩
  rw [row_resultIdx wf idx r h0 hr q]
  constructor
  · intro e
    have e' := Option.some.inj e
    subst e'
    unfold rowInv
    rw [if_pos (show ((ix2 (⟨r, hr⟩ : Fin 256) q : S256x256.Idx) 0).val = r from rfl)]
  · intro e
    unfold rowInv at e
    by_cases hc : (i 0).val = r
    · rw [if_pos hc] at e
      have e' := Option.some.inj e
      have eq : (i 1).val = q.val := congrArg (fun f : S256.Idx => (f 0).val) e'
      rw [eq_ix2 i]
      exact congrArg some (ix2_congr (by show r = (i 0).val; omega) (by show q.val = (i 1).val; omega))
    · rw [if_neg hc] at e; exact absurd e (by simp)

/-- A row set into a matrix, read at an entry: the row's entry in that row, the matrix's elsewhere. -/
theorem row_scatter_apply {α : Type} {w : Nat} (x : S256x256.Idx → α) (idx : IVec S1 w) (upd : S256.Idx → α) (r : Nat)
    (h0 : (idx (ix1 0)).toInt = r) (hr : r < 256) (l k : Fin 256) :
    Host.scatter (rowDims wf) (fun _ b => b) x idx upd (ix2 l k) = if l.val = r then upd (ix1 k) else x (ix2 l k) := by
  rw [Host.scatter_set_apply (rowDims wf) x idx upd (rowInv r) (row_hinv wf idx r h0 hr) (ix2 l k)]
  unfold rowInv
  by_cases hc : l.val = r
  · rw [if_pos hc, if_pos (show ((ix2 l k : S256x256.Idx) 0).val = r from hc)]
  · rw [if_neg hc, if_neg (show ¬ ((ix2 l k : S256x256.Idx) 0).val = r from hc)]
end Row

section Small
variable {α : Type}

/-- A two-entry vector made of two one-entry vectors, at its first entry. -/
theorem cat2_apply0 (a b : S1.Idx → α) (h : Shape.Concatenates [S1, S1] S2 0) :
    concatenate S2 0 [⟨S1, a⟩, ⟨S1, b⟩] h (ix1 (0 : Fin 2)) = a (ix1 (0 : Fin 1)) :=
  concatenate_pair_apply_left 0 a b h (ix1 (0 : Fin 2)) rfl (ix1 (0 : Fin 1))
    (fun d => by match d with | ⟨0, _⟩ => rfl)

/-- … and at its second entry. -/
theorem cat2_apply1 (a b : S1.Idx → α) (h : Shape.Concatenates [S1, S1] S2 0) :
    concatenate S2 0 [⟨S1, a⟩, ⟨S1, b⟩] h (ix1 (1 : Fin 2)) = b (ix1 (0 : Fin 1)) :=
  concatenate_pair_apply_right 0 a b h (ix1 (1 : Fin 2)) rfl rfl (ix1 (0 : Fin 1))
    (fun d hd => by match d with | ⟨0, _⟩ => exact absurd rfl hd) rfl

/-- Four 64-entry vectors side by side, read at an entry. -/
theorem cat4_apply (u0 u1 u2 u3 : S64.Idx → α) (h : Shape.Concatenates [S64, S64, S64, S64] S256 0) (k : Fin 256) :
    concatenate S256 0 [⟨S64, u0⟩, ⟨S64, u1⟩, ⟨S64, u2⟩, ⟨S64, u3⟩] h (ix1 k)
      = if hk : k.val < 64 then u0 (ix1 ⟨k.val, hk⟩)
        else if hk : k.val < 128 then u1 (ix1 ⟨k.val - 64, by omega⟩)
        else if hk : k.val < 192 then u2 (ix1 ⟨k.val - 128, by omega⟩)
        else u3 (ix1 ⟨k.val - 192, by omega⟩) := by
  have hk := k.isLt
  by_cases h1 : k.val < 64
  · rw [dif_pos h1]
    exact concatenate_apply_piece (t := S256) 0 [⟨S64, u0⟩, ⟨S64, u1⟩, ⟨S64, u2⟩, ⟨S64, u3⟩] h (ix1 k) 0 (by simp) S64 u0 rfl rfl 0 rfl (ix1 ⟨k.val, h1⟩)
      (fun d hd => by match d with | ⟨0, _⟩ => exact absurd rfl hd) (by show 0 + k.val = k.val; omega)
  rw [dif_neg h1]
  by_cases h2 : k.val < 128
  · rw [dif_pos h2]
    exact concatenate_apply_piece (t := S256) 0 [⟨S64, u0⟩, ⟨S64, u1⟩, ⟨S64, u2⟩, ⟨S64, u3⟩] h (ix1 k) 1 (by simp) S64 u1 rfl rfl 64 rfl (ix1 ⟨k.val - 64, by omega⟩)
      (fun d hd => by match d with | ⟨0, _⟩ => exact absurd rfl hd) (by show 64 + (k.val - 64) = k.val; omega)
  rw [dif_neg h2]
  by_cases h3 : k.val < 192
  · rw [dif_pos h3]
    exact concatenate_apply_piece (t := S256) 0 [⟨S64, u0⟩, ⟨S64, u1⟩, ⟨S64, u2⟩, ⟨S64, u3⟩] h (ix1 k) 2 (by simp) S64 u2 rfl rfl 128 rfl (ix1 ⟨k.val - 128, by omega⟩)
      (fun d hd => by match d with | ⟨0, _⟩ => exact absurd rfl hd) (by show 128 + (k.val - 128) = k.val; omega)
  rw [dif_neg h3]
  exact concatenate_apply_piece (t := S256) 0 [⟨S64, u0⟩, ⟨S64, u1⟩, ⟨S64, u2⟩, ⟨S64, u3⟩] h (ix1 k) 3 (by simp) S64 u3 rfl rfl 192 rfl (ix1 ⟨k.val - 192, by omega⟩)
    (fun d hd => by match d with | ⟨0, _⟩ => exact absurd rfl hd) (by show 192 + (k.val - 192) = k.val; omega)
end Small

/-- The bfloat16 pattern of all zero bits is zero. -/
theorem ofBits_bf16_zero : Ideal.ofBits .bf16 0x0000#16 = 0 := by simp [Ideal.ofBits, Ideal.ieee]

section Term

/-- A setting scatter of one row, at the program's own dimension record. -/
theorem scat_row {α : Type} {w : Nat} (x : S256x256.Idx → α) (idx : IVec S1 w) (upd : S256.Idx → α) (r : Nat)
    (h0 : (idx (ix1 0)).toInt = r) (hr : r < 256) (l k : Fin 256) :
    Host.scatter scatter_S256x256_S1_S256_0_0_0_0 (fun _ b => b) x idx upd (ix2 l k)
      = if l.val = r then upd (ix1 k) else x (ix2 l k) :=
  row_scatter_apply Facts₀.scatter_S256x256_S1_S256_0_0_0_0_wf x idx upd r h0 hr l k

/-- A setting scatter of a window, at each of the program's four dimension records. -/
theorem scat_w0 {α : Type} {w : Nat} (x : S256x256.Idx → α) (idx : IVec S2 w) (upd : S16x64.Idx → α) (ro co : Nat)
    (h0 : (idx (ix1 0)).toInt = ro) (h1 : (idx (ix1 1)).toInt = co) (hro : ro + 16 ≤ 256) (hco : co + 64 ≤ 256) (l k : Fin 256) :
    Host.scatter scatter_S256x256_S2_S16x64_01_n_01_0 (fun _ b => b) x idx upd (ix2 l k)
      = if h : (ro ≤ l.val ∧ l.val < ro + 16) ∧ (co ≤ k.val ∧ k.val < co + 64) then
          upd (ix2 ⟨l.val - ro, by omega⟩ ⟨k.val - co, by omega⟩)
        else x (ix2 l k) :=
  win_scatter_apply (n := 16) Facts₀.scatter_S256x256_S2_S16x64_01_n_01_0_wf x idx upd ro co h0 h1 hro hco l k

theorem scat_w1 {α : Type} {w : Nat} (x : S256x256.Idx → α) (idx : IVec S2 w) (upd : S32x64.Idx → α) (ro co : Nat)
    (h0 : (idx (ix1 0)).toInt = ro) (h1 : (idx (ix1 1)).toInt = co) (hro : ro + 32 ≤ 256) (hco : co + 64 ≤ 256) (l k : Fin 256) :
    Host.scatter scatter_S256x256_S2_S32x64_01_n_01_0 (fun _ b => b) x idx upd (ix2 l k)
      = if h : (ro ≤ l.val ∧ l.val < ro + 32) ∧ (co ≤ k.val ∧ k.val < co + 64) then
          upd (ix2 ⟨l.val - ro, by omega⟩ ⟨k.val - co, by omega⟩)
        else x (ix2 l k) :=
  win_scatter_apply (n := 32) Facts₀.scatter_S256x256_S2_S32x64_01_n_01_0_wf x idx upd ro co h0 h1 hro hco l k

theorem scat_w2 {α : Type} {w : Nat} (x : S256x256.Idx → α) (idx : IVec S2 w) (upd : S64x64.Idx → α) (ro co : Nat)
    (h0 : (idx (ix1 0)).toInt = ro) (h1 : (idx (ix1 1)).toInt = co) (hro : ro + 64 ≤ 256) (hco : co + 64 ≤ 256) (l k : Fin 256) :
    Host.scatter scatter_S256x256_S2_S64x64_01_n_01_0 (fun _ b => b) x idx upd (ix2 l k)
      = if h : (ro ≤ l.val ∧ l.val < ro + 64) ∧ (co ≤ k.val ∧ k.val < co + 64) then
          upd (ix2 ⟨l.val - ro, by omega⟩ ⟨k.val - co, by omega⟩)
        else x (ix2 l k) :=
  win_scatter_apply (n := 64) Facts₀.scatter_S256x256_S2_S64x64_01_n_01_0_wf x idx upd ro co h0 h1 hro hco l k

theorem scat_w3 {α : Type} {w : Nat} (x : S256x256.Idx → α) (idx : IVec S2 w) (upd : S128x64.Idx → α) (ro co : Nat)
    (h0 : (idx (ix1 0)).toInt = ro) (h1 : (idx (ix1 1)).toInt = co) (hro : ro + 128 ≤ 256) (hco : co + 64 ≤ 256) (l k : Fin 256) :
    Host.scatter scatter_S256x256_S2_S128x64_01_n_01_0 (fun _ b => b) x idx upd (ix2 l k)
      = if h : (ro ≤ l.val ∧ l.val < ro + 128) ∧ (co ≤ k.val ∧ k.val < co + 64) then
          upd (ix2 ⟨l.val - ro, by omega⟩ ⟨k.val - co, by omega⟩)
        else x (ix2 l k) :=
  win_scatter_apply (n := 128) Facts₀.scatter_S256x256_S2_S128x64_01_n_01_0_wf x idx upd ro co h0 h1 hro hco l k

/-- The two-entry start vector of a window: two constants, each broadcast to one entry, side by side. -/
abbrev startVec (a b : BitVec 32) : IVec S2 32 :=
  concatenate S2 0 [⟨S1, broadcastInDim S1 ![] Facts₀.bcast_S_S1 (constantI S_ 32 a)⟩,
    ⟨S1, broadcastInDim S1 ![] Facts₀.bcast_S_S1 (constantI S_ 32 b)⟩] Facts₀.concatenates_S1_S1_S2_d0

theorem startVec_0 (a b : BitVec 32) : startVec a b (ix1 (0 : Fin 2)) = a := (cat2_apply0 _ _ _).trans rfl
theorem startVec_1 (a b : BitVec 32) : startVec a b (ix1 (1 : Fin 2)) = b := (cat2_apply1 _ _ _).trans rfl

/-- The operations that build the first-layer matrix, over the eight argument arrays they read. -/
def w1term (w0 : FVec Ideal S16x64 .f32) (w1 : FVec Ideal S32x64 .f32) (w2 : FVec Ideal S64x64 .f32)
    (w3 : FVec Ideal S128x64 .f32) (b0 b1 b2 b3 : FVec Ideal S64 .f32) : FVec Ideal S256x256 .bf16 :=
  Host.scatter scatter_S256x256_S1_S256_0_0_0_0 (fun _ b => b)
    (Host.scatter scatter_S256x256_S2_S128x64_01_n_01_0 (fun _ b => b)
      (Host.scatter scatter_S256x256_S2_S64x64_01_n_01_0 (fun _ b => b)
        (Host.scatter scatter_S256x256_S2_S32x64_01_n_01_0 (fun _ b => b)
          (Host.scatter scatter_S256x256_S2_S16x64_01_n_01_0 (fun _ b => b)
            (broadcastInDim S256x256 ![] Facts₀.bcast_S_S256x256 (constant (F := Ideal) S_ .bf16 0x0000#16))
            (startVec 0#32 0#32)
            (truncf .bf16 w0 Facts₀.bitsLt_bf16_f32))
          (startVec 16#32 64#32)
          (truncf .bf16 w1 Facts₀.bitsLt_bf16_f32))
        (startVec 48#32 128#32)
        (truncf .bf16 w2 Facts₀.bitsLt_bf16_f32))
      (startVec 112#32 192#32)
      (truncf .bf16 w3 Facts₀.bitsLt_bf16_f32))
    (broadcastInDim S1 ![] Facts₀.bcast_S_S1 (constantI S_ 32 240#32))
    (concatenate S256 0 [⟨S64, truncf .bf16 b0 Facts₀.bitsLt_bf16_f32⟩, ⟨S64, truncf .bf16 b1 Facts₀.bitsLt_bf16_f32⟩,
      ⟨S64, truncf .bf16 b2 Facts₀.bitsLt_bf16_f32⟩, ⟨S64, truncf .bf16 b3 Facts₀.bitsLt_bf16_f32⟩]
      Facts₀.concatenates_S64_S64_S64_S64_S256_d0)

/-- The matrix read at an entry: the bias row, else the block that holds the entry, else zero. -/
theorem w1term_apply (w0 : FVec Ideal S16x64 .f32) (w1 : FVec Ideal S32x64 .f32) (w2 : FVec Ideal S64x64 .f32)
    (w3 : FVec Ideal S128x64 .f32) (b0 b1 b2 b3 : FVec Ideal S64 .f32) (l k : Fin 256) :
    w1term w0 w1 w2 w3 b0 b1 b2 b3 (ix2 l k) =
      if l.val = 240 then
        (if hk : k.val < 64 then b0 (ix1 ⟨k.val, hk⟩)
         else if hk : k.val < 128 then b1 (ix1 ⟨k.val - 64, by omega⟩)
         else if hk : k.val < 192 then b2 (ix1 ⟨k.val - 128, by omega⟩)
         else b3 (ix1 ⟨k.val - 192, by omega⟩))
      else if h : (112 ≤ l.val ∧ l.val < 112 + 128) ∧ (192 ≤ k.val ∧ k.val < 192 + 64) then
        w3 (ix2 ⟨l.val - 112, by omega⟩ ⟨k.val - 192, by omega⟩)
      else if h : (48 ≤ l.val ∧ l.val < 48 + 64) ∧ (128 ≤ k.val ∧ k.val < 128 + 64) then
        w2 (ix2 ⟨l.val - 48, by omega⟩ ⟨k.val - 128, by omega⟩)
      else if h : (16 ≤ l.val ∧ l.val < 16 + 32) ∧ (64 ≤ k.val ∧ k.val < 64 + 64) then
        w1 (ix2 ⟨l.val - 16, by omega⟩ ⟨k.val - 64, by omega⟩)
      else if h : (0 ≤ l.val ∧ l.val < 0 + 16) ∧ (0 ≤ k.val ∧ k.val < 0 + 64) then
        w0 (ix2 ⟨l.val - 0, by omega⟩ ⟨k.val - 0, by omega⟩)
      else 0 := by
  have hz : ∀ j, broadcastInDim S256x256 ![] Facts₀.bcast_S_S256x256 (constant (F := Ideal) S_ .bf16 0x0000#16) j = 0 :=
    fun j => ofBits_bf16_zero
  unfold w1term
  rw [scat_row _ _ _ 240 (by decide) (by omega),
    scat_w3 _ _ _ 112 192 (by rw [startVec_0]; decide) (by rw [startVec_1]; decide) (by omega) (by omega),
    scat_w2 _ _ _ 48 128 (by rw [startVec_0]; decide) (by rw [startVec_1]; decide) (by omega) (by omega),
    scat_w1 _ _ _ 16 64 (by rw [startVec_0]; decide) (by rw [startVec_1]; decide) (by omega) (by omega),
    scat_w0 _ _ _ 0 0 (by rw [startVec_0]; decide) (by rw [startVec_1]; decide) (by omega) (by omega),
    hz, cat4_apply]
  rfl
end Term

section Tree
/-- The matrix the operations build is the block-diagonal matrix of any tables that read the eight arrays. -/
theorem w1term_eq_w1bd (T : Tables) (w0 : FVec Ideal S16x64 .f32) (w1 : FVec Ideal S32x64 .f32) (w2 : FVec Ideal S64x64 .f32)
    (w3 : FVec Ideal S128x64 .f32) (b0 b1 b2 b3 : FVec Ideal S64 .f32)
    (hw0 : ∀ p q, T.w1_0 p q = w0 (ix2 p q)) (hw1 : ∀ p q, T.w1_1 p q = w1 (ix2 p q))
    (hw2 : ∀ p q, T.w1_2 p q = w2 (ix2 p q)) (hw3 : ∀ p q, T.w1_3 p q = w3 (ix2 p q))
    (hb0 : ∀ j, T.b1_0 j = b0 (ix1 j)) (hb1 : ∀ j, T.b1_1 j = b1 (ix1 j))
    (hb2 : ∀ j, T.b1_2 j = b2 (ix1 j)) (hb3 : ∀ j, T.b1_3 j = b3 (ix1 j)) (l k : Fin 256) :
    w1term w0 w1 w2 w3 b0 b1 b2 b3 (ix2 l k) = w1bd T l k := by
  rw [w1term_apply]
  unfold w1bd
  simp only [hw0, hw1, hw2, hw3, hb0, hb1, hb2, hb3]
  have hl := l.isLt
  have hk := k.isLt
  split_ifs <;>
    first
    | rfl
    | (exfalso; omega)
    | exact congrArg w0 (ix2_congr (Nat.sub_zero _) (Nat.sub_zero _))
end Tree

section Run
variable (m : (ℓ : Loc nD τ sig) → Buf (Elt Ideal) ℓ)

set_option maxHeartbeats 4000000 in
/-- What the last stretch of host operations leaves in the matrix's buffer, over any contents before it. -/
theorem stretch_v54 (W : Valuation τ sig (Elt Ideal)) :
    (StableHlo.after hostOps0_6 W (Proc.devRef .tc main_v54) : FVec Ideal S256x256 .bf16)
      = w1term (W (Proc.devRef .tc main_arg2)) (W (Proc.devRef .tc main_arg7)) (W (Proc.devRef .tc main_arg12))
          (W (Proc.devRef .tc main_arg17)) (W (Proc.devRef .tc main_arg3)) (W (Proc.devRef .tc main_arg8))
          (W (Proc.devRef .tc main_arg13)) (W (Proc.devRef .tc main_arg18)) := by
  simp only [hostOps0_6]
  after_results
  simp only [Matrix.cons_val, Matrix.cons_val_zero, Matrix.cons_val_one]
  repeat (first
    | rw [StableHlo.unary_result]
    | (rw [StableHlo.unary_result_ne]; rotate_left; decide)
    | (rw [StableHlo.reshape_result_ne]; rotate_left; decide))
  rfl

theorem flatten7 {α : Type} (a b c d e f g : List α) :
    List.flatten [a, b, c, d, e, f, g] = List.flatten [a, b, c, d, e, f] ++ g := by
  simp only [List.flatten_cons, List.flatten_nil, List.append_nil, List.append_assoc]

/-- The host operations before the last stretch. -/
abbrev pre6 : List (HloOp τ sig (Elt Ideal)) :=
  List.flatten [hostOps0, hostOps0_1, hostOps0_2, hostOps0_3, hostOps0_4, hostOps0_5]

theorem before_split : List.flatten (before (F := Ideal)) = pre6 ++ hostOps0_6 := flatten7 _ _ _ _ _ _ _

/-- The contents at the region's entry: the last stretch run over what the stretches before it leave. -/
theorem V_split (c : Dev nD) (b : Ref sig .tc) :
    V m c b = StableHlo.after hostOps0_6 (StableHlo.after pre6 (fun b => m (c, b))) (Proc.devRef .tc b) := by
  show StableHlo.after (List.flatten (before (F := Ideal))) (fun b => m (c, b)) (Proc.devRef .tc b) = _
  rw [before_split, StableHlo.after_append]

/-- The earlier stretches leave every argument array as launched. -/
theorem pre6_arg (c : Dev nD) (b : Ref sig .tc) (hb : b ∈ argRefs) :
    StableHlo.after pre6 (fun b => m (c, b)) (Proc.devRef .tc b) = m ((c : Thread nD τ).loc b) :=
  StableHlo.after_of_forall_not_mem (b := Proc.devRef .tc b) _ _ fun op hop =>
    List.forall_iff_forall_mem.mp (before_keeps_args b hb) op (by rw [before_split]; exact List.mem_append_left _ hop)

/-- The block-diagonal first-layer matrix with the bias row. -/
theorem V_w1 (c : Dev nD) (l k : Fin 256) :
    (V m c main_v54 : FVec Ideal S256x256 .bf16) (ix2 l k) = w1bd (tables m c) l k := by
  have e : (V m c main_v54 : FVec Ideal S256x256 .bf16)
      = w1term (m ((c : Thread nD τ).loc main_arg2)) (m ((c : Thread nD τ).loc main_arg7))
          (m ((c : Thread nD τ).loc main_arg12)) (m ((c : Thread nD τ).loc main_arg17))
          (m ((c : Thread nD τ).loc main_arg3)) (m ((c : Thread nD τ).loc main_arg8))
          (m ((c : Thread nD τ).loc main_arg13)) (m ((c : Thread nD τ).loc main_arg18)) := by
    rw [V_split m c main_v54, stretch_v54, pre6_arg m c main_arg2 (by decide), pre6_arg m c main_arg7 (by decide),
      pre6_arg m c main_arg12 (by decide), pre6_arg m c main_arg17 (by decide), pre6_arg m c main_arg3 (by decide),
      pre6_arg m c main_arg8 (by decide), pre6_arg m c main_arg13 (by decide), pre6_arg m c main_arg18 (by decide)]
  rw [e]
  exact w1term_eq_w1bd (tables m c) _ _ _ _ _ _ _ _ (fun _ _ => rfl) (fun _ _ => rfl) (fun _ _ => rfl) (fun _ _ => rfl)
    (fun _ => rfl) (fun _ => rfl) (fun _ => rfl) (fun _ => rfl) l k
end Run

end Cert.KernelIdeal.Hand

end
-- ==== Proof.HostSmall.lean ====
/-
  The bucket words, the stacked second-layer matrix and the bias rows the region finds. The bucket word of a
  token is the floor quotient of its remapped id by 25000, computed as the truncated quotient corrected by one
  where the signs differ and the remainder is not zero: for an id in `[0, 100000)` it is the bucket's number, and
  for any other id it is negative or at least 4, so no bucket's number.
-/
import proofs.«401935_j50148038148546_3_alg».proof.Proof.KernelArgs
import proofs.«401935_j50148038148546_3_alg».proof.Proof.LibScatter
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.Hand

open Cert.KernelIdeal Cert.KernelIdeal.Gen Cert.BucketMlp
open Idealize.ShloMosaic Idealize.ShloMosaic.TcCoe Idealize.ShloMosaic.ValueIdx Idealize.SL.Sem

variable (m : (ℓ : Loc nD τ sig) → Buf (Elt Ideal) ℓ)

namespace HostSmall

/-! ## The floor quotient of a word by 25000 -/

/-- The floor quotient of a word by 25000 as the host computes it: the truncated quotient, less one where the word's
    sign is not the divisor's and the remainder is not zero. -/
def fdivW (x : BitVec 32) : BitVec 32 :=
  Scalar.select
    (IntOp.andi
      (IntOp.cmpi .ne (if x = 0 then (0 : BitVec 32) else if x.msb then -1 else 1)
        (if (25000#32 : BitVec 32) = 0 then (0 : BitVec 32) else if (25000#32 : BitVec 32).msb then -1 else 1))
      (IntOp.cmpi .ne (IntOp.remsi .host x 25000#32) 0#32))
    (IntOp.subi (IntOp.divsi .host x 25000#32) 1#32)
    (IntOp.divsi .host x 25000#32)

/-- Read as a signed integer it is the floor quotient: no word is the division's corner, the truncated quotient and
    remainder are the integers', and the correction by one happens exactly at a negative word 25000 does not divide. -/
theorem fdivW_toInt (x : BitVec 32) : (fdivW x).toInt = x.toInt / 25000 := by
  have hc : ¬ IntOp.SDivCorner x 25000#32 := by
    rintro (h | ⟨-, h⟩) <;> exact absurd h (by decide)
  have h25 : (25000#32 : BitVec 32).toInt = 25000 := by decide
  have hq : (IntOp.divsi .host x 25000#32).toInt = x.toInt.tdiv 25000 := by
    rw [IntOp.divsi, if_neg hc, BitVec.toInt_sdiv_of_ne_or_ne x _ (Or.inr (by decide)), h25]
  have hr : (IntOp.remsi .host x 25000#32).toInt = x.toInt.tmod 25000 := by
    rw [IntOp.remsi, if_neg hc, BitVec.toInt_srem, h25]
  have hdm := Int.tdiv_mul_add_tmod x.toInt 25000
  have hlt := Int.tmod_lt_of_pos x.toInt (b := 25000) (by omega)
  have hgt := Int.lt_tmod_of_pos x.toInt (b := 25000) (by omega)
  have hlo := BitVec.le_toInt x
  have hhi := BitVec.toInt_lt (x := x)
  have hsc : (if (25000#32 : BitVec 32) = 0 then (0 : BitVec 32) else if (25000#32 : BitVec 32).msb then -1 else 1) = 1#32 := by decide
  unfold fdivW
  rw [hsc]
  by_cases hx0 : x = 0
  · subst hx0; decide
  rw [if_neg hx0]
  by_cases hm : x.msb = true
  · -- a negative word
    have hneg : x.toInt < 0 := BitVec.toInt_neg_of_msb_true hm
    have hnp : x.toInt.tmod 25000 ≤ 0 := by
      have h1 := Int.neg_tmod x.toInt 25000
      have h2 := Int.tmod_nonneg (a := -x.toInt) 25000 (by omega)
      omega
    rw [if_pos hm, show IntOp.cmpi .ne (-1 : BitVec 32) 1#32 = 1#1 from by decide]
    by_cases hr0 : IntOp.remsi .host x 25000#32 = 0#32
    · have hs : x.toInt.tmod 25000 = 0 := by rw [← hr, hr0]; rfl
      rw [hr0, show IntOp.andi 1#1 (IntOp.cmpi .ne (0#32 : BitVec 32) 0#32) = 0#1 from by decide, select_zero, hq]
      omega
    · have hs : x.toInt.tmod 25000 ≠ 0 := by
        intro h0; apply hr0; apply BitVec.eq_of_toInt_eq; rw [hr, h0]; rfl
      have hne : IntOp.cmpi .ne (IntOp.remsi .host x 25000#32) 0#32 = 1#1 := by
        unfold IntOp.cmpi
        rw [show (IntOp.remsi .host x 25000#32 != 0#32) = true from bne_iff_ne.mpr hr0]; rfl
      rw [hne, show IntOp.andi 1#1 1#1 = 1#1 from by decide, select_one, IntOp.subi,
        BitVec.toInt_sub_of_not_ssubOverflow, hq, show (1#32 : BitVec 32).toInt = 1 from by decide]
      · omega
      · simp only [BitVec.ssubOverflow, hq, show (1#32 : BitVec 32).toInt = 1 from by decide, ge_iff_le, Bool.or_eq_true,
          decide_eq_true_eq, not_or, Int.not_le, Int.not_lt]
        omega
  · -- a positive word
    have hm' : x.msb = false := by simpa using hm
    have hnn : 0 ≤ x.toInt := by rw [BitVec.toInt_eq_toNat_of_msb hm']; omega
    have hnp := Int.tmod_nonneg (a := x.toInt) 25000 hnn
    rw [if_neg hm, show IntOp.cmpi .ne (1 : BitVec 32) 1#32 = 0#1 from by decide]
    have ha : ∀ b : BitVec 1, IntOp.andi 0#1 b = 0#1 := by decide
    rw [ha, select_zero, hq]
    omega

/-- For a word in `[0, 100000)` it is the bucket's number. -/
theorem fdivW_in (x : BitVec 32) (h : 0 ≤ x.toInt ∧ x.toInt < 100000) :
    fdivW x = BitVec.ofNat 32 (x.toInt.toNat / 25000) := by
  apply BitVec.eq_of_toInt_eq
  rw [fdivW_toInt, StableHlo.Predicate.toInt_ofNat_small _ (by omega)]
  omega

/-- For any other word it is negative or at least 4: no bucket's number. -/
theorem fdivW_out (x : BitVec 32) (h : x.toInt < 0 ∨ 100000 ≤ x.toInt) (b : Fin 4) :
    BitVec.ofNat 32 b.val ≠ fdivW x := by
  intro he
  have h1 := congrArg BitVec.toInt he
  rw [fdivW_toInt, StableHlo.Predicate.toInt_ofNat_small _ (by omega)] at h1
  omega

/-! ## The bucket words, stretch by stretch -/

/-- The ids flattened, with the sentinel remapped. -/
def remapVec (x : IVec S4096x20 32) : IVec S81920 32 :=
  select (cmpi .eq (shapeCast S81920 x shapeCasts_S4096x20_S81920) (broadcastInDim S81920 ![] bcast_S_S81920 (constantI S_ 32 100000#32)))
    (broadcastInDim S81920 ![] bcast_S_S81920 (constantI S_ 32 0#32)) (shapeCast S81920 x shapeCasts_S4096x20_S81920)

/-- The floor quotient, word by word. -/
def fdivVec (x : IVec S81920 32) : IVec S81920 32 := fun j => fdivW (x j)

/-- Token `tok`'s remapped id: the flattening is row-major, 20 ids to a row. -/
theorem remapVec_apply (x : IVec S4096x20 32) (tok : Fin 81920) :
    remapVec x (ix1 tok) = remap (x (ix2 ⟨tok.val / 20, by omega⟩ ⟨tok.val % 20, by omega⟩)) := by
  have hs : shapeCast S81920 x shapeCasts_S4096x20_S81920 (ix1 tok) = x (ix2 ⟨tok.val / 20, by omega⟩ ⟨tok.val % 20, by omega⟩) :=
    shapeCast_apply x _ _ _ (by
      rw [Shape.rowMajor_val_two, Shape.rowMajor_val_one]
      show tok.val / 20 * 20 + tok.val % 20 = tok.val
      omega)
  show Scalar.select (IntOp.cmpi .eq (shapeCast S81920 x shapeCasts_S4096x20_S81920 (ix1 tok)) 100000#32) 0#32
      (shapeCast S81920 x shapeCasts_S4096x20_S81920 (ix1 tok)) = _
  rw [hs]
  unfold remap Scalar.select
  by_cases h : x (ix2 ⟨tok.val / 20, by omega⟩ ⟨tok.val % 20, by omega⟩) = 100000#32
  · rw [if_pos h]; exact if_pos (StableHlo.Predicate.cmpi_eq_iff.mpr h)
  · rw [if_neg h]; exact if_neg (fun hc => h (StableHlo.Predicate.cmpi_eq_iff.mp hc))

section Stages
open Idealize.ShloMosaic.StableHlo

/-- After the first two stretches, from any contents: the remapped ids. -/
theorem stage_v3 (W : Valuation τ sig (Elt Ideal)) :
    (after hostOps0_1 (after hostOps0 W) (Proc.devRef .tc main_v3) : IVec S81920 32)
      = remapVec (W (Proc.devRef .tc main_arg0)) := by
  after_results
  rfl

/-- The next two stretches (the padded table and the gather) leave the remapped ids alone. -/
theorem stage_keep_v3 (W : Valuation τ sig (Elt Ideal)) :
    after hostOps0_3 (after hostOps0_2 W) (Proc.devRef .tc main_v3) = W (Proc.devRef .tc main_v3) := by
  after_results

set_option maxHeartbeats 1000000 in
/-- The quotient's stretches, from any contents: the floor quotient of the remapped ids. -/
theorem stage_v25 (W : Valuation τ sig (Elt Ideal)) :
    (after hostOps0_5 (after hostOps0_4 W) (Proc.devRef .tc main_v25) : IVec S81920 32)
      = fdivVec (W (Proc.devRef .tc main_v3)) := by
  after_results
  show select
      (andi
        (cmpi .ne (signi (W (Proc.devRef .tc main_v3) : IVec S81920 32))
          (broadcastInDim S81920 ![] bcast_S_S81920 (signi (constantI S_ 32 25000#32))))
        (cmpi .ne
          (Host.remsi (W (Proc.devRef .tc main_v3) : IVec S81920 32)
            (broadcastInDim S81920 ![] bcast_S_S81920 (constantI S_ 32 25000#32)))
          (broadcastInDim S81920 ![] bcast_S_S81920 (constantI S_ 32 0#32))))
      (subi
        (Host.divsi (W (Proc.devRef .tc main_v3) : IVec S81920 32)
          (broadcastInDim S81920 ![] bcast_S_S81920 (constantI S_ 32 25000#32)))
        (broadcastInDim S81920 ![] bcast_S_S81920 (constantI S_ 32 1#32)))
      (Host.divsi (W (Proc.devRef .tc main_v3) : IVec S81920 32)
        (broadcastInDim S81920 ![] bcast_S_S81920 (constantI S_ 32 25000#32))) = _
  funext j
  rfl

/-- The last stretch, from any contents: the quotients as a column. -/
theorem stage_v26 (W : Valuation τ sig (Elt Ideal)) :
    (after hostOps0_6 W (Proc.devRef .tc main_v26) : IVec S81920x1 32)
      = shapeCast S81920x1 (W (Proc.devRef .tc main_v25) : IVec S81920 32) shapeCasts_S81920_S81920x1 := by
  after_results
  rfl

/-- The bucket words as the region finds them. -/
theorem V_bid_eq (c : Dev nD) :
    (V m c main_v26 : IVec S81920x1 32)
      = shapeCast S81920x1 (fdivVec (remapVec (idsArr m c))) shapeCasts_S81920_S81920x1 := by
  dsimp only [V, V0, before]
  simp only [List.flatten_cons, List.flatten_nil, List.append_nil, after_append]
  rw [stage_v26, stage_v25, stage_keep_v3, stage_v3]

end Stages

/-- Token `tok`'s bucket word is the floor quotient of its remapped id. -/
theorem V_bid (c : Dev nD) (tok : Fin 81920) :
    (V m c main_v26 : IVec S81920x1 32) (ix2 tok 0) = fdivW (tokId m c tok) := by
  rw [V_bid_eq, shapeCast_apply _ _ (ix2 tok 0) (ix1 tok) (by
    rw [Shape.rowMajor_val_two, Shape.rowMajor_val_one]
    show tok.val = tok.val * 1 + 0
    omega)]
  show fdivW (remapVec (idsArr m c) (ix1 tok)) = _
  rw [remapVec_apply]
  rfl

/-! ## The stacked second-layer matrix -/

/-- Four row blocks of 64 rows stacked: row `k` is row `k % 64` of block `k / 64`. -/
theorem stack4_apply {α : Type} (x0 x1 x2 x3 : S64x256.Idx → α) (k d : Fin 256) :
    concatenate S256x256 0 [⟨S64x256, x0⟩, ⟨S64x256, x1⟩, ⟨S64x256, x2⟩, ⟨S64x256, x3⟩]
        concatenates_S64x256_S64x256_S64x256_S64x256_S256x256_d0 (ix2 k d)
      = if hk : k.val < 64 then x0 (ix2 ⟨k.val, hk⟩ d)
        else if hk : k.val < 128 then x1 (ix2 ⟨k.val - 64, by omega⟩ d)
        else if hk : k.val < 192 then x2 (ix2 ⟨k.val - 128, by omega⟩ d)
        else x3 (ix2 ⟨k.val - 192, by omega⟩ d) := by
  have hi : ∀ (r : Fin 64) (b : Fin S64x256.rank), b.cast (rfl : S64x256.rank = S256x256.rank) ≠ (0 : Fin S256x256.rank) →
      ((ix2 r d : S64x256.Idx) b).val = ((ix2 k d : S256x256.Idx) (b.cast rfl)).val := by
    intro r b hb
    match b with
    | ⟨0, _⟩ => exact absurd rfl hb
    | ⟨1, _⟩ => rfl
  split
  · next hk =>
    exact concatenate_apply_piece (t := S256x256) 0 _ _ _ 0 (by simp) S64x256 x0 rfl rfl 0 rfl (ix2 ⟨k.val, hk⟩ d) (hi _)
      (by show 0 + k.val = k.val; omega)
  split
  · next hk0 hk =>
    exact concatenate_apply_piece (t := S256x256) 0 _ _ _ 1 (by simp) S64x256 x1 rfl rfl 64 rfl (ix2 ⟨k.val - 64, by omega⟩ d) (hi _)
      (by show 64 + (k.val - 64) = k.val; omega)
  split
  · next hk0 hk1 hk =>
    exact concatenate_apply_piece (t := S256x256) 0 _ _ _ 2 (by simp) S64x256 x2 rfl rfl 128 rfl (ix2 ⟨k.val - 128, by omega⟩ d) (hi _)
      (by show 128 + (k.val - 128) = k.val; omega)
  · next hk0 hk1 hk =>
    exact concatenate_apply_piece (t := S256x256) 0 _ _ _ 3 (by simp) S64x256 x3 rfl rfl 192 rfl (ix2 ⟨k.val - 192, by omega⟩ d) (hi _)
      (by show 192 + (k.val - 192) = k.val; omega)

open Idealize.ShloMosaic.StableHlo in
/-- The stacked matrix as the region finds it: the four second-layer matrices, converted, stacked. -/
theorem V_w2_eq (c : Dev nD) :
    (V m c main_v59 : FVec Ideal S256x256 .bf16)
      = concatenate S256x256 0
          [⟨S64x256, truncf (F := Ideal) .bf16 (m ((c.tc : Thread nD τ).loc main_arg4)) bitsLt_bf16_f32⟩,
           ⟨S64x256, truncf (F := Ideal) .bf16 (m ((c.tc : Thread nD τ).loc main_arg9)) bitsLt_bf16_f32⟩,
           ⟨S64x256, truncf (F := Ideal) .bf16 (m ((c.tc : Thread nD τ).loc main_arg14)) bitsLt_bf16_f32⟩,
           ⟨S64x256, truncf (F := Ideal) .bf16 (m ((c.tc : Thread nD τ).loc main_arg19)) bitsLt_bf16_f32⟩]
          concatenates_S64x256_S64x256_S64x256_S64x256_S256x256_d0 := by
  dsimp only [V, V0]
  simp only [before, hostOps0, hostOps0_1, hostOps0_2, hostOps0_3, hostOps0_4, hostOps0_5, hostOps0_6, List.flatten_cons, List.flatten_nil, List.append_nil, List.cons_append, List.nil_append]
  after_results
  rfl

/-! ## The bias rows -/

/-- Four single rows stacked: row `b` is piece `b`'s one row. -/
theorem rows4_apply {α : Type} (x0 x1 x2 x3 : S1x256.Idx → α) (b : Fin 4) (d : Fin 256) :
    concatenate S4x256 0 [⟨S1x256, x0⟩, ⟨S1x256, x1⟩, ⟨S1x256, x2⟩, ⟨S1x256, x3⟩]
        concatenates_S1x256_S1x256_S1x256_S1x256_S4x256_d0 (ix2 b d)
      = (match b with | 0 => x0 | 1 => x1 | 2 => x2 | 3 => x3) (ix2 0 d) := by
  have hi : ∀ (r : Fin 4) (a : Fin S1x256.rank), a.cast (rfl : S1x256.rank = S4x256.rank) ≠ (0 : Fin S4x256.rank) →
      ((ix2 (0 : Fin 1) d : S1x256.Idx) a).val = ((ix2 r d : S4x256.Idx) (a.cast rfl)).val := by
    intro r a ha
    match a with
    | ⟨0, _⟩ => exact absurd rfl ha
    | ⟨1, _⟩ => rfl
  match b with
  | 0 => exact concatenate_apply_piece (t := S4x256) 0 _ _ _ 0 (by simp) S1x256 x0 rfl rfl 0 rfl (ix2 0 d) (hi 0) rfl
  | 1 => exact concatenate_apply_piece (t := S4x256) 0 _ _ _ 1 (by simp) S1x256 x1 rfl rfl 1 rfl (ix2 0 d) (hi 1) rfl
  | 2 => exact concatenate_apply_piece (t := S4x256) 0 _ _ _ 2 (by simp) S1x256 x2 rfl rfl 2 rfl (ix2 0 d) (hi 2) rfl
  | 3 => exact concatenate_apply_piece (t := S4x256) 0 _ _ _ 3 (by simp) S1x256 x3 rfl rfl 3 rfl (ix2 0 d) (hi 3) rfl

/-- A vector broadcast to one row, read at that row. -/
theorem bcast_row_apply {α : Type} (x : S256.Idx → α) (d : Fin 256) :
    broadcastInDim S1x256 ![1] bcast_S256_S1x256_1 x (ix2 0 d) = x (ix1 d) :=
  broadcastInDim_apply _ _ x _ _ (fun a => match a with | ⟨0, _⟩ => rfl)

open Idealize.ShloMosaic.StableHlo in
/-- The bias rows as the region finds them: the four second-layer biases, converted, each as a row, stacked. -/
theorem V_b2_eq (c : Dev nD) :
    (V m c main_v68 : FVec Ideal S4x256 .bf16)
      = concatenate S4x256 0
          [⟨S1x256, broadcastInDim S1x256 ![1] bcast_S256_S1x256_1
              (truncf (F := Ideal) .bf16 (m ((c.tc : Thread nD τ).loc main_arg5)) bitsLt_bf16_f32)⟩,
           ⟨S1x256, broadcastInDim S1x256 ![1] bcast_S256_S1x256_1
              (truncf (F := Ideal) .bf16 (m ((c.tc : Thread nD τ).loc main_arg10)) bitsLt_bf16_f32)⟩,
           ⟨S1x256, broadcastInDim S1x256 ![1] bcast_S256_S1x256_1
              (truncf (F := Ideal) .bf16 (m ((c.tc : Thread nD τ).loc main_arg15)) bitsLt_bf16_f32)⟩,
           ⟨S1x256, broadcastInDim S1x256 ![1] bcast_S256_S1x256_1
              (truncf (F := Ideal) .bf16 (m ((c.tc : Thread nD τ).loc main_arg20)) bitsLt_bf16_f32)⟩]
          concatenates_S1x256_S1x256_S1x256_S1x256_S4x256_d0 := by
  dsimp only [V, V0]
  simp only [before, hostOps0, hostOps0_1, hostOps0_2, hostOps0_3, hostOps0_4, hostOps0_5, hostOps0_6, List.flatten_cons, List.flatten_nil, List.append_nil, List.cons_append, List.nil_append]
  after_results
  rfl

end HostSmall

/-- The bucket word of a token whose id is in range: its bucket's number. -/
theorem V_bid_in (c : Dev nD) (tok : Fin 81920) (h : 0 ≤ (tokId m c tok).toInt ∧ (tokId m c tok).toInt < 100000) :
    (V m c main_v26 : IVec S81920x1 32) (ix2 tok 0) = BitVec.ofNat 32 ((tokId m c tok).toInt.toNat / 25000) := by
  rw [HostSmall.V_bid, HostSmall.fdivW_in _ h]

/-- The bucket word of a token whose id is out of range is no bucket's number. -/
theorem V_bid_out (c : Dev nD) (tok : Fin 81920) (h : (tokId m c tok).toInt < 0 ∨ 100000 ≤ (tokId m c tok).toInt) (b : Fin 4) :
    BitVec.ofNat 32 b.val ≠ (V m c main_v26 : IVec S81920x1 32) (ix2 tok 0) := by
  rw [HostSmall.V_bid]
  exact HostSmall.fdivW_out _ h b

/-- The stacked second-layer matrix. -/
theorem V_w2 (c : Dev nD) (k d : Fin 256) :
    (V m c main_v59 : FVec Ideal S256x256 .bf16) (ix2 k d) = w2st (tables m c) k d := by
  rw [HostSmall.V_w2_eq, HostSmall.stack4_apply]
  unfold w2st
  split
  · rfl
  split
  · rfl
  split
  · rfl
  · rfl

/-- The bias rows. -/
theorem V_b2 (c : Dev nD) (b : Fin 4) (d : Fin 256) :
    (V m c main_v68 : FVec Ideal S4x256 .bf16) (ix2 b d) = b2st (tables m c) b d := by
  rw [HostSmall.V_b2_eq, HostSmall.rows4_apply]
  match b with
  | 0 => exact HostSmall.bcast_row_apply _ d
  | 1 => exact HostSmall.bcast_row_apply _ d
  | 2 => exact HostSmall.bcast_row_apply _ d
  | 3 => exact HostSmall.bcast_row_apply _ d

end Cert.KernelIdeal.Hand

end
-- ==== Proof.KernelPayload.lean ====
/-
  The body's output block, entry by entry: entry `(p, q)` is the fused row of token `p` of the block — its
  bucket word, its gathered row, the two matrices and the bias rows — at output lane `q`. The hidden lane's bucket
  `k / 64` is what the body's floor quotient of the lane number computes; a matrix product into a zero accumulator
  is the plain sum over the contracted lane; the one-hot factor is the conversion of the compare's bit.
-/
import proofs.«401935_j50148038148546_3_alg».proof.Proof.KernelIdealFrame
import proofs.«401935_j50148038148546_3_alg».proof.Proof.Spec
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen Cert.BucketMlp
open Idealize.ShloMosaic Idealize.ShloMosaic.TcCoe Idealize.ShloMosaic.ValueIdx

namespace Payload

/-! ## The two matrix products at an index -/

theorem lhsA_0 (i : S4096x256.Idx) (c : dot_S4096x256_S256x256_S4096x256_1_0_0_1_n_n.contr.Idx) :
    (dot_S4096x256_S256x256_S4096x256_1_0_0_1_n_n.lhsIdx i c 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhsA_1 (i : S4096x256.Idx) (c : dot_S4096x256_S256x256_S4096x256_1_0_0_1_n_n.contr.Idx) :
    (dot_S4096x256_S256x256_S4096x256_1_0_0_1_n_n.lhsIdx i c 1).val = (c ⟨0, by decide⟩).val :=
  dot_S4096x256_S256x256_S4096x256_1_0_0_1_n_n.lhsIdx_val_of_single rfl i c
theorem rhsA_0 (i : S4096x256.Idx) (c : dot_S4096x256_S256x256_S4096x256_1_0_0_1_n_n.contr.Idx) :
    (dot_S4096x256_S256x256_S4096x256_1_0_0_1_n_n.rhsIdx i c 0).val = (c ⟨0, by decide⟩).val :=
  dot_S4096x256_S256x256_S4096x256_1_0_0_1_n_n.rhsIdx_val_of_single rfl i c
theorem rhsA_1 (i : S4096x256.Idx) (c : dot_S4096x256_S256x256_S4096x256_1_0_0_1_n_n.contr.Idx) :
    (dot_S4096x256_S256x256_S4096x256_1_0_0_1_n_n.rhsIdx i c 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-- A [4096, 256] × [256, 256] product into a zero accumulator, at (p, q): the sum over the contracted lane. -/
theorem matmulA_apply {φ₁ φ₂ : FTy} (lhs : FVec Ideal S4096x256 φ₁) (rhs : FVec Ideal S256x256 φ₂) (p : Fin 4096) (q : Fin 256) :
    matmul dot_S4096x256_S256x256_S4096x256_1_0_0_1_n_n none lhs rhs (constant S4096x256 .f32 0x00000000#32) (ix2 p q)
      = ∑ k : Fin 256, lhs (ix2 p k) * rhs (ix2 k q) := by
  simp only [matmul]
  rw [Ideal.matmul_constant_zero_apply,
    ← Equiv.sum_comp (contrEquiv1 dot_S4096x256_S256x256_S4096x256_1_0_0_1_n_n 256 rfl rfl).symm]
  refine Finset.sum_congr rfl fun k _ => ?_
  have hk := contrEquiv1_symm_val dot_S4096x256_S256x256_S4096x256_1_0_0_1_n_n 256 rfl rfl k
  have el : dot_S4096x256_S256x256_S4096x256_1_0_0_1_n_n.lhsIdx (ix2 p q)
      ((contrEquiv1 dot_S4096x256_S256x256_S4096x256_1_0_0_1_n_n 256 rfl rfl).symm k) = ix2 p k :=
    funext fun a => Fin.ext (by
      match a with
      | ⟨0, _⟩ => exact lhsA_0 _ _
      | ⟨1, _⟩ => exact (lhsA_1 _ _).trans hk)
  have er : dot_S4096x256_S256x256_S4096x256_1_0_0_1_n_n.rhsIdx (ix2 p q)
      ((contrEquiv1 dot_S4096x256_S256x256_S4096x256_1_0_0_1_n_n 256 rfl rfl).symm k) = ix2 k q :=
    funext fun a => Fin.ext (by
      match a with
      | ⟨0, _⟩ => exact (rhsA_0 _ _).trans hk
      | ⟨1, _⟩ => exact rhsA_1 _ _)
  rw [el, er]

theorem lhsB_0 (i : S4096x256.Idx) (c : dot_S4096x4_S4x256_S4096x256_1_0_0_1_n_n.contr.Idx) :
    (dot_S4096x4_S4x256_S4096x256_1_0_0_1_n_n.lhsIdx i c 0).val = (i 0).val := by
  unfold DotDims.lhsIdx
  rw [dif_neg (show ¬(0 : Fin S4096x4.rank) ∈ dot_S4096x4_S4x256_S4096x256_1_0_0_1_n_n.lhsBatch by decide),
    dif_pos (show (0 : Fin S4096x4.rank) ∈ dot_S4096x4_S4x256_S4096x256_1_0_0_1_n_n.lhsNonContracting by decide)]
  rfl
theorem lhsB_1 (i : S4096x256.Idx) (c : dot_S4096x4_S4x256_S4096x256_1_0_0_1_n_n.contr.Idx) :
    (dot_S4096x4_S4x256_S4096x256_1_0_0_1_n_n.lhsIdx i c 1).val = (c ⟨0, by decide⟩).val :=
  dot_S4096x4_S4x256_S4096x256_1_0_0_1_n_n.lhsIdx_val_of_single rfl i c
theorem rhsB_0 (i : S4096x256.Idx) (c : dot_S4096x4_S4x256_S4096x256_1_0_0_1_n_n.contr.Idx) :
    (dot_S4096x4_S4x256_S4096x256_1_0_0_1_n_n.rhsIdx i c 0).val = (c ⟨0, by decide⟩).val :=
  dot_S4096x4_S4x256_S4096x256_1_0_0_1_n_n.rhsIdx_val_of_single rfl i c
theorem rhsB_1 (i : S4096x256.Idx) (c : dot_S4096x4_S4x256_S4096x256_1_0_0_1_n_n.contr.Idx) :
    (dot_S4096x4_S4x256_S4096x256_1_0_0_1_n_n.rhsIdx i c 1).val = (i 1).val := by
  unfold DotDims.rhsIdx
  rw [dif_neg (show ¬(1 : Fin S4x256.rank) ∈ dot_S4096x4_S4x256_S4096x256_1_0_0_1_n_n.rhsBatch by decide),
    dif_pos (show (1 : Fin S4x256.rank) ∈ dot_S4096x4_S4x256_S4096x256_1_0_0_1_n_n.rhsNonContracting by decide)]
  rfl

/-- A [4096, 4] × [4, 256] product into a zero accumulator, at (p, q): the sum over the four rows. -/
theorem matmulB_apply {φ₁ φ₂ : FTy} (lhs : FVec Ideal S4096x4 φ₁) (rhs : FVec Ideal S4x256 φ₂) (p : Fin 4096) (q : Fin 256) :
    matmul dot_S4096x4_S4x256_S4096x256_1_0_0_1_n_n none lhs rhs (constant S4096x256 .f32 0x00000000#32) (ix2 p q)
      = ∑ b : Fin 4, lhs (ix2 p b) * rhs (ix2 b q) := by
  simp only [matmul]
  rw [Ideal.matmul_constant_zero_apply,
    ← Equiv.sum_comp (contrEquiv1 dot_S4096x4_S4x256_S4096x256_1_0_0_1_n_n 4 rfl rfl).symm]
  refine Finset.sum_congr rfl fun b _ => ?_
  have hb := contrEquiv1_symm_val dot_S4096x4_S4x256_S4096x256_1_0_0_1_n_n 4 rfl rfl b
  have el : dot_S4096x4_S4x256_S4096x256_1_0_0_1_n_n.lhsIdx (ix2 p q)
      ((contrEquiv1 dot_S4096x4_S4x256_S4096x256_1_0_0_1_n_n 4 rfl rfl).symm b) = ix2 p b :=
    funext fun a => Fin.ext (by
      match a with
      | ⟨0, _⟩ => exact lhsB_0 _ _
      | ⟨1, _⟩ => exact (lhsB_1 _ _).trans hb)
  have er : dot_S4096x4_S4x256_S4096x256_1_0_0_1_n_n.rhsIdx (ix2 p q)
      ((contrEquiv1 dot_S4096x4_S4x256_S4096x256_1_0_0_1_n_n 4 rfl rfl).symm b) = ix2 b q :=
    funext fun a => Fin.ext (by
      match a with
      | ⟨0, _⟩ => exact (rhsB_0 _ _).trans hb
      | ⟨1, _⟩ => exact rhsB_1 _ _)
  rw [el, er]

/-! ## Words -/

/-- The floor quotient of a lane number `w` by 64 as the body computes it: the quotient rounded toward zero, less one
    when the signs of `w` and 64 differ and the remainder is not zero. -/
def laneQuot (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 64#32 0#32)) (Scalar.extui (Scalar.cmpi .slt 64#32 0#32))))
      (IntOp.cmpi .ne (IntOp.remsi .vector w 64#32) 0#32))
    (IntOp.subi (IntOp.divsi .vector w 64#32) 1#32)
    (IntOp.divsi .vector w 64#32)

/-- On the 256 lanes it is the natural quotient. -/
theorem laneQuot_lane : ∀ k : Fin 256, laneQuot (BitVec.ofNat 32 k.val) = BitVec.ofNat 32 (k.val / 64) := by
  decide +kernel

/-- The bit of a word equality is set exactly when the words are equal. -/
theorem cmpi_eq_one_iff (x y : BitVec 32) : IntOp.cmpi .eq x y = 1#1 ↔ x = y := by
  unfold IntOp.cmpi
  by_cases h : x = y
  · subst h; simp
  · have hb : (x == y) = false := beq_false_of_ne h
    simp [hb, h]

/-- A select on the bit of a word equality is the `if` on the equality. -/
theorem select_cmpi_eq {α : Type} (x y : BitVec 32) (a b : α) :
    Scalar.select (IntOp.cmpi .eq x y) a b = if x = y then a else b := by
  unfold Scalar.select
  exact if_congr (cmpi_eq_one_iff x y) rfl rfl

/-- The one-hot factor: the conversion of the widened bit of a word equality is 1 or 0. -/
theorem oneHot_eq (x y : BitVec 32) :
    FloatOps.sitofp (F := Ideal) .f32 ((IntOp.cmpi .eq x y).setWidth 32) = if x = y then (1 : EReal) else 0 := by
  show (((((IntOp.cmpi .eq x y).setWidth 32).toInt : ℤ) : ℝ) : EReal) = _
  by_cases h : x = y
  · rw [if_pos h, (cmpi_eq_one_iff x y).mpr h]
    have e : ((1#1 : BitVec 1).setWidth 32).toInt = 1 := by decide
    rw [e]; simp
  · rw [if_neg h, eq_zero_of_ne_one (fun h1 => h ((cmpi_eq_one_iff x y).mp h1))]
    have e : ((0#1 : BitVec 1).setWidth 32).toInt = 0 := by decide
    rw [e]; simp

/-! ## The masked hidden row at an index -/

/-- The lane number at `(p, k)` is `k`. -/
theorem lane_iota (p : Fin 4096) (k : Fin 256) :
    iota .tc S4096x256 32 [1] iota_S4096x256_d1_w32 (ix2 p k) = BitVec.ofNat 32 k.val :=
  iota_single_apply _ _ _ _ _ _

/-- The token's word broadcast along the 256 lanes reads the word of row `p`. -/
theorem bid_lanes (x0 : IVec S4096x1 32) (p : Fin 4096) (k : Fin 256) :
    broadcastTo S4096x256 x0 broadcasts_S4096x1_S4096x256 (ix2 p k) = x0 (ix2 p 0) :=
  broadcastTo_apply x0 broadcasts_S4096x1_S4096x256 (ix2 p k) (ix2 p 0) (fun a => by
    match a with
    | ⟨0, _⟩ => show p.val = if (4096 : Nat) = 1 then 0 else p.val; rw [if_neg (by decide)]
    | ⟨1, _⟩ => show (0 : Nat) = if (1 : Nat) = 1 then 0 else k.val; rw [if_pos rfl])

/-- The second product's left operand at `(p, k)`: the hidden row `relu (e · W1)` at lane `k` when lane `k`'s bucket
    `k / 64` is the token's bucket word, and zero otherwise. -/
theorem pay3_apply (x0 : Vec Ideal S4096x1 .i32) (x1 : Vec Ideal S4096x256 .bf16) (x2 : Vec Ideal S256x256 .bf16)
    (p : Fin 4096) (k : Fin 256) :
    k0_pay3 (F := Ideal) x0 x1 x2 (ix2 p k)
      = if BitVec.ofNat 32 (k.val / 64) = x0 (ix2 p 0) then max (∑ l : Fin 256, x1 (ix2 p l) * x2 (ix2 l k)) 0 else 0 := by
  unfold k0_pay3 k0_pay2
  simp only [shapeCast_self]
  show Scalar.select
      (IntOp.cmpi .eq (laneQuot (iota .tc S4096x256 32 [1] iota_S4096x256_d1_w32 (ix2 p k)))
        (broadcastTo S4096x256 x0 broadcasts_S4096x1_S4096x256 (ix2 p k)))
      (max (matmul dot_S4096x256_S256x256_S4096x256_1_0_0_1_n_n none x1 x2 (constant S4096x256 .f32 0x00000000#32) (ix2 p k))
        (Ideal.ofBits .f32 0x00000000#32))
      (Ideal.ofBits .f32 0x00000000#32) = _
  rw [select_cmpi_eq, lane_iota, laneQuot_lane k, bid_lanes, matmulA_apply, Ideal.ofBits_zero_f32]

/-! ## The output payload at an index -/

/-- The bucket number at `(p, b)` of the four-column block is `b`. -/
theorem row_iota (p : Fin 4096) (b : Fin 4) :
    iota .tc S4096x4 32 [1] iota_S4096x4_d1_w32 (ix2 p b) = BitVec.ofNat 32 b.val :=
  iota_single_apply _ _ _ _ _ _

/-- The token's word broadcast along the four columns reads the word of row `p`. -/
theorem bid_cols (x0 : IVec S4096x1 32) (p : Fin 4096) (b : Fin 4) :
    broadcastTo S4096x4 x0 broadcasts_S4096x1_S4096x4 (ix2 p b) = x0 (ix2 p 0) :=
  broadcastTo_apply x0 broadcasts_S4096x1_S4096x4 (ix2 p b) (ix2 p 0) (fun a => by
    match a with
    | ⟨0, _⟩ => show p.val = if (4096 : Nat) = 1 then 0 else p.val; rw [if_neg (by decide)]
    | ⟨1, _⟩ => show (0 : Nat) = if (1 : Nat) = 1 then 0 else b.val; rw [if_pos rfl])

/-- The stored value at `(p, q)`: the second product's sum over the hidden lanes plus the one-hot product with the
    bias rows. -/
theorem pay1_apply (v1 : IVec S4096x1 32) (v38 : FVec Ideal S4096x256 .bf16) (v40 : FVec Ideal S256x256 .bf16)
    (v48 : Vec Ideal S4x256 .bf16) (p : Fin 4096) (q : Fin 256) :
    k0_pay1 (F := Ideal) v1 v38 v40 v48 (ix2 p q)
      = (∑ k : Fin 256, v38 (ix2 p k) * v40 (ix2 k q))
        + ∑ b : Fin 4, (if BitVec.ofNat 32 b.val = v1 (ix2 p 0) then (1 : EReal) else 0) * v48 (ix2 b q) := by
  unfold k0_pay1
  simp only [shapeCast_self]
  rw [addf_apply, matmulA_apply, matmulB_apply]
  refine congrArg _ (Finset.sum_congr rfl fun b _ => ?_)
  show FloatOps.sitofp (F := Ideal) .f32
      ((IntOp.cmpi .eq (iota .tc S4096x4 32 [1] iota_S4096x4_d1_w32 (ix2 p b))
        (broadcastTo S4096x4 v1 broadcasts_S4096x1_S4096x4 (ix2 p b))).setWidth 32) * v48 (ix2 b q) = _
  rw [oneHot_eq, row_iota, bid_cols]

/-! ## The output block -/

/-- The two zero offsets, as the constant function. -/
theorem zeros2 : (![0, 0] : Fin 2 → Nat) = fun _ => 0 := funext fun a => by fin_cases a <;> rfl

/-- The one whole-block store of the payload of the whole-block loads: the output block is the payload of the inputs. -/
theorem outBlock_eq (x0 : Vec Ideal S4096x1 .i32) (x1 : Vec Ideal S4096x256 .bf16) (x2 : Vec Ideal S256x256 .bf16)
    (x3 : Vec Ideal S256x256 .bf16) (x4 : Vec Ideal S4x256 .bf16) :
    outBlock (F := Ideal) x0 x1 x2 x3 x4 = k0_pay1 (k0_pay2 x0) (k0_pay3 x0 x1 x2) (k0_pay4 x3) x4 := by
  unfold outBlock
  rw [View.canon_unit_zero zeros2]
  simp only [View.ld_unit_zero (S := S4096x1) zeros2, View.ld_unit_zero (S := S4096x256) zeros2, View.ld_unit_zero (S := S256x256) zeros2, View.ld_unit_zero (S := S4x256) zeros2]

end Payload

/-- The output block at `(p, q)` is the fused row of the block's token `p` at lane `q`. -/
theorem outBlock_apply (x0 : Vec Ideal S4096x1 .i32) (x1 : Vec Ideal S4096x256 .bf16) (x2 : Vec Ideal S256x256 .bf16)
    (x3 : Vec Ideal S256x256 .bf16) (x4 : Vec Ideal S4x256 .bf16) (p : Fin 4096) (q : Fin 256) :
    outBlock (F := Ideal) x0 x1 x2 x3 x4 (ix2 p q)
      = rowOut (x0 (ix2 p 0)) (fun l => x1 (ix2 p l)) (fun l k => x2 (ix2 l k)) (fun k d => x3 (ix2 k d))
          (fun b d => x4 (ix2 b d)) q := by
  rw [Payload.outBlock_eq, Payload.pay1_apply]
  have e2 : k0_pay2 (F := Ideal) x0 = x0 := shapeCast_self _ _
  have e4 : k0_pay4 (F := Ideal) x3 = x3 := shapeCast_self _ _
  rw [e2, e4]
  unfold rowOut
  refine congrArg₂ (· + ·) (Finset.sum_congr rfl fun k _ => ?_) rfl
  rw [Payload.pay3_apply]

end Cert.KernelIdeal.Hand

end
-- ==== Proof.Algebra.lean ====
/-
  The fused row against the specification, as pure algebra over the extended reals.

  * A bucket word that names none of the four buckets keeps no hidden lane and picks no bias row: the fused
    row is zero.
  * For row `r` of the padded table and the bucket word of `r / 25000`: a hidden lane `k` of that bucket is
    `relu` of the padded row against column `k` of the block-diagonal matrix, where every product outside the
    bucket's own lanes and lane 240 has a zero factor, so the sum is the bucket's own first-layer sum plus its
    bias; the masked hidden row against the stacked second-layer matrix is the sum over that bucket's 64 hidden
    lanes; the one-hot product picks the bucket's bias row.
-/
import proofs.«401935_j50148038148546_3_alg».proof.Proof.Spec
import Mathlib.Data.Fintype.BigOperators
import Mathlib.Algebra.BigOperators.Group.Finset.Basic

noncomputable section

namespace Cert.BucketMlp

open scoped BigOperators

/-- Two numbers below 4 have the same 32-bit word only when they are equal. -/
theorem ofNat32_eq_iff {a b : Nat} (ha : a < 4) (hb : b < 4) :
    BitVec.ofNat 32 a = BitVec.ofNat 32 b ↔ a = b := by
  constructor
  · intro h
    have h' := congrArg BitVec.toNat h
    rw [BitVec.toNat_ofNat, BitVec.toNat_ofNat, Nat.mod_eq_of_lt (by omega), Nat.mod_eq_of_lt (by omega)] at h'
    exact h'
  · intro h
    rw [h]

/-- A bucket word that is none of 0, 1, 2, 3: the zero row. -/
theorem rowOut_of_no_bucket (bid : BitVec 32) (hb : ∀ b : Fin 4, BitVec.ofNat 32 b.val ≠ bid) (e : Fin 256 → EReal)
    (W1 W2 : Fin 256 → Fin 256 → EReal) (B2 : Fin 4 → Fin 256 → EReal) (d : Fin 256) :
    rowOut bid e W1 W2 B2 d = 0 := by
  -- Every hidden lane's bucket number k / 64 is one of 0, 1, 2, 3, so no lane is kept and no bias row is picked:
  -- every summand is 0 * x = 0.
  have h1 : ∀ k : Fin 256, ¬ BitVec.ofNat 32 (k.val / 64) = bid := fun k => hb ⟨k.val / 64, by omega⟩
  have h2 : ∀ b : Fin 4, ¬ BitVec.ofNat 32 b.val = bid := hb
  unfold rowOut
  simp only [h1, h2, if_false, zero_mul, Finset.sum_const_zero, add_zero]

/-- The first-layer sum of one hidden lane. The padded row `e` carries the bucket's `n` entries at the lanes
    `off + i`, a one at lane 240 and zero elsewhere; the matrix column `W` carries the bucket's column at the lanes
    `off + i` and the bias at lane 240. Every other product has the factor `e l = 0`, so the sum over the 256 lanes
    is the bucket's own sum plus `1 * bias`. -/
theorem sum_lanes {n : Nat} (off : Nat) (hoff : off + n ≤ 240) (e W : Fin 256 → EReal)
    (ev wv : Fin n → EReal) (bias : EReal)
    (he240 : e ⟨240, by omega⟩ = 1) (hW240 : W ⟨240, by omega⟩ = bias)
    (hein : ∀ i : Fin n, e ⟨off + i.val, by omega⟩ = ev i)
    (hWin : ∀ i : Fin n, W ⟨off + i.val, by omega⟩ = wv i)
    (heout : ∀ l : Fin 256, l.val ≠ 240 → ¬ (off ≤ l.val ∧ l.val < off + n) → e l = 0) :
    ∑ l : Fin 256, e l * W l = (∑ i : Fin n, ev i * wv i) + bias := by
  -- The lanes `off + i` and lane 240 are `n + 1` distinct lanes.
  let ι : Option (Fin n) → Fin 256 := fun o =>
    match o with
    | none => ⟨240, by omega⟩
    | some i => ⟨off + i.val, by omega⟩
  have hι : Function.Injective ι := by
    intro a c hac
    have hv := congrArg Fin.val hac
    cases a with
    | none =>
      cases c with
      | none => rfl
      | some j => exfalso; have : 240 = off + j.val := hv; omega
    | some i =>
      cases c with
      | none => exfalso; have : off + i.val = 240 := hv; omega
      | some j =>
        have : off + i.val = off + j.val := hv
        exact congrArg some (Fin.ext (by omega))
  let f : Option (Fin n) → EReal := fun o =>
    match o with
    | none => bias
    | some i => ev i * wv i
  have hsum : ∑ o, f o = ∑ l : Fin 256, e l * W l := by
    refine Fintype.sum_of_injective ι hι f (fun l => e l * W l) ?_ ?_
    · intro l hl
      have h240 : l.val ≠ 240 := fun h => hl ⟨none, Fin.ext h.symm⟩
      have hrange : ¬ (off ≤ l.val ∧ l.val < off + n) := fun h =>
        hl ⟨some ⟨l.val - off, by omega⟩, Fin.ext (by show off + (l.val - off) = l.val; omega)⟩
      show e l * W l = 0
      rw [heout l h240 hrange, zero_mul]
    · intro o
      cases o with
      | none =>
        show bias = e ⟨240, _⟩ * W ⟨240, _⟩
        rw [he240, hW240, one_mul]
      | some i =>
        show ev i * wv i = e ⟨off + i.val, _⟩ * W ⟨off + i.val, _⟩
        rw [hein i, hWin i]
  rw [← hsum, Fintype.sum_option, add_comm]

/-- The masked hidden row against one column of the second layer: only the 64 lanes `64 b + j` of bucket `b`
    are kept, every other summand is `0 * x = 0`. -/
theorem sum_hidden (b : Nat) (hb : b < 4) (S W : Fin 256 → EReal) :
    ∑ k : Fin 256, (if BitVec.ofNat 32 (k.val / 64) = BitVec.ofNat 32 b then S k else 0) * W k
      = ∑ j : Fin 64, S ⟨64 * b + j.val, by omega⟩ * W ⟨64 * b + j.val, by omega⟩ := by
  refine (Fintype.sum_of_injective (fun j : Fin 64 => (⟨64 * b + j.val, by omega⟩ : Fin 256)) ?_ _ _ ?_ ?_).symm
  · intro i j hij
    have hv : 64 * b + i.val = 64 * b + j.val := congrArg Fin.val hij
    exact Fin.ext (by omega)
  · intro k hk
    have hne : ¬ BitVec.ofNat 32 (k.val / 64) = BitVec.ofNat 32 b := by
      rw [ofNat32_eq_iff (by omega) hb]
      intro h
      exact hk ⟨⟨k.val - 64 * b, by omega⟩, Fin.ext (by show 64 * b + (k.val - 64 * b) = k.val; omega)⟩
    rw [if_neg hne, zero_mul]
  · intro j
    have hq : (64 * b + j.val) / 64 = b := by omega
    show _ = (if BitVec.ofNat 32 ((64 * b + j.val) / 64) = BitVec.ofNat 32 b then _ else 0) * _
    rw [hq, if_pos rfl]

/-- The one-hot product picks row `b`. -/
theorem sum_onehot (b : Nat) (hb : b < 4) (B : Fin 4 → EReal) :
    ∑ c : Fin 4, (if BitVec.ofNat 32 c.val = BitVec.ofNat 32 b then (1 : EReal) else 0) * B c = B ⟨b, hb⟩ := by
  rw [Finset.sum_eq_single (⟨b, hb⟩ : Fin 4)]
  · rw [if_pos rfl, one_mul]
  · intro c _ hc
    have hne : ¬ BitVec.ofNat 32 c.val = BitVec.ofNat 32 b := by
      rw [ofNat32_eq_iff c.isLt hb]
      intro h
      exact hc (Fin.ext h)
    rw [if_neg hne, zero_mul]
  · intro h
    exact absurd (Finset.mem_univ _) h

/-- ONE BUCKET, generically. A bucket of `n` entries at the lanes `off + i` (`off + n ≤ 240`) whose hidden lanes
    are `64 b + j`: if the padded row, the first-layer matrix, the second-layer matrix and the bias rows read as
    that bucket's own data on those lanes (and the padded row vanishes off the bucket's lanes and lane 240), the
    fused row under the bucket word `b` is that bucket's perceptron. -/
theorem rowOut_bucket {n : Nat} (off b : Nat) (hoff : off + n ≤ 240) (hb : b < 4)
    (e : Fin 256 → EReal) (W1 W2 : Fin 256 → Fin 256 → EReal) (B2 : Fin 4 → Fin 256 → EReal)
    (ev : Fin n → EReal) (w1 : Fin n → Fin 64 → EReal) (b1 : Fin 64 → EReal)
    (w2 : Fin 64 → Fin 256 → EReal) (b2 : Fin 256 → EReal) (d : Fin 256)
    (he240 : e ⟨240, by omega⟩ = 1)
    (hein : ∀ i : Fin n, e ⟨off + i.val, by omega⟩ = ev i)
    (heout : ∀ l : Fin 256, l.val ≠ 240 → ¬ (off ≤ l.val ∧ l.val < off + n) → e l = 0)
    (hW240 : ∀ j : Fin 64, W1 ⟨240, by omega⟩ ⟨64 * b + j.val, by omega⟩ = b1 j)
    (hWin : ∀ (i : Fin n) (j : Fin 64), W1 ⟨off + i.val, by omega⟩ ⟨64 * b + j.val, by omega⟩ = w1 i j)
    (hW2 : ∀ j : Fin 64, W2 ⟨64 * b + j.val, by omega⟩ d = w2 j d)
    (hB2 : B2 ⟨b, hb⟩ d = b2 d) :
    rowOut (BitVec.ofNat 32 b) e W1 W2 B2 d = mlp ev w1 b1 w2 b2 d := by
  unfold rowOut mlp
  refine congrArg₂ (· + ·) ?_ ?_
  · -- the hidden lanes of bucket b, each with its own first-layer sum
    refine (sum_hidden b hb (fun k => max (∑ l : Fin 256, e l * W1 l k) 0) (fun k => W2 k d)).trans ?_
    refine Finset.sum_congr rfl fun j _ => ?_
    show max (∑ l : Fin 256, e l * W1 l ⟨64 * b + j.val, _⟩) 0 * W2 ⟨64 * b + j.val, _⟩ d
      = max ((∑ k : Fin n, ev k * w1 k j) + b1 j) 0 * w2 j d
    rw [hW2 j, sum_lanes off hoff e (fun l => W1 l ⟨64 * b + j.val, by omega⟩) ev (fun i => w1 i j) (b1 j)
      he240 (hW240 j) hein (fun i => hWin i j) heout]
  · exact (sum_onehot b hb (fun c => B2 c d)).trans hB2

/-- Bucket 0: rows below 25000, 16 entries at the lanes 0 … 15, hidden lanes 0 … 63. -/
theorem rowOut_combined_0 (T : Tables) (r : Fin 100000) (d : Fin 256) (h0 : r.val < 25000) :
    rowOut (BitVec.ofNat 32 0) (combined T r) (w1bd T) (w2st T) (b2st T) d
      = mlp (T.emb0 ⟨r.val, h0⟩) T.w1_0 T.b1_0 T.w2_0 T.b2_0 d := by
  refine rowOut_bucket 0 0 (by omega) (by omega) (combined T r) (w1bd T) (w2st T) (b2st T)
    (T.emb0 ⟨r.val, h0⟩) T.w1_0 T.b1_0 T.w2_0 T.b2_0 d ?_ ?_ ?_ ?_ ?_ ?_ ?_
  · unfold combined
    rw [if_pos rfl]
  · intro i
    have hi := i.isLt
    unfold combined
    dsimp only
    rw [if_neg (show ¬ (0 + i.val = 240) by omega), dif_pos h0, dif_pos (show 0 + i.val < 16 by omega)]
    exact congrArg (T.emb0 _) (Fin.ext (Nat.zero_add _))
  · intro l hl hout
    unfold combined
    rw [if_neg hl, dif_pos h0, dif_neg (show ¬ l.val < 16 by omega)]
  · intro j
    have hj := j.isLt
    unfold w1bd
    dsimp only
    rw [if_pos rfl, dif_pos (show 64 * 0 + j.val < 64 by omega)]
    exact congrArg T.b1_0 (Fin.ext (by show 64 * 0 + j.val = j.val; omega))
  · intro i j
    have hi := i.isLt
    have hj := j.isLt
    unfold w1bd
    dsimp only
    rw [if_neg (show ¬ (0 + i.val = 240) by omega),
      dif_pos (show 0 + i.val < 16 ∧ 64 * 0 + j.val < 64 by omega)]
    exact congrArg₂ T.w1_0 (Fin.ext (Nat.zero_add _)) (Fin.ext (by show 64 * 0 + j.val = j.val; omega))
  · intro j
    have hj := j.isLt
    unfold w2st
    dsimp only
    rw [dif_pos (show 64 * 0 + j.val < 64 by omega)]
    exact congrArg (fun x => T.w2_0 x d) (Fin.ext (by show 64 * 0 + j.val = j.val; omega))
  · rfl

/-- Bucket 1: rows 25000 … 49999, 32 entries at the lanes 16 … 47, hidden lanes 64 … 127. -/
theorem rowOut_combined_1 (T : Tables) (r : Fin 100000) (d : Fin 256) (h0 : ¬ r.val < 25000) (h1 : r.val < 50000) :
    rowOut (BitVec.ofNat 32 1) (combined T r) (w1bd T) (w2st T) (b2st T) d
      = mlp (T.emb1 ⟨r.val - 25000, by omega⟩) T.w1_1 T.b1_1 T.w2_1 T.b2_1 d := by
  refine rowOut_bucket 16 1 (by omega) (by omega) (combined T r) (w1bd T) (w2st T) (b2st T)
    (T.emb1 ⟨r.val - 25000, by omega⟩) T.w1_1 T.b1_1 T.w2_1 T.b2_1 d ?_ ?_ ?_ ?_ ?_ ?_ ?_
  · unfold combined
    rw [if_pos rfl]
  · intro i
    have hi := i.isLt
    unfold combined
    dsimp only
    rw [if_neg (show ¬ (16 + i.val = 240) by omega), dif_neg h0, dif_pos h1,
      dif_pos (show 16 ≤ 16 + i.val ∧ 16 + i.val < 48 by omega)]
    exact congrArg (T.emb1 _) (Fin.ext (Nat.add_sub_cancel_left ..))
  · intro l hl hout
    unfold combined
    rw [if_neg hl, dif_neg h0, dif_pos h1, dif_neg (show ¬ (16 ≤ l.val ∧ l.val < 48) by omega)]
  · intro j
    have hj := j.isLt
    unfold w1bd
    dsimp only
    rw [if_pos rfl, dif_neg (show ¬ 64 * 1 + j.val < 64 by omega), dif_pos (show 64 * 1 + j.val < 128 by omega)]
    exact congrArg T.b1_1 (Fin.ext (by show 64 * 1 + j.val - 64 = j.val; omega))
  · intro i j
    have hi := i.isLt
    have hj := j.isLt
    unfold w1bd
    dsimp only
    rw [if_neg (show ¬ (16 + i.val = 240) by omega),
      dif_neg (show ¬ (16 + i.val < 16 ∧ 64 * 1 + j.val < 64) by omega),
      dif_pos (show (16 ≤ 16 + i.val ∧ 16 + i.val < 48) ∧ (64 ≤ 64 * 1 + j.val ∧ 64 * 1 + j.val < 128) by omega)]
    exact congrArg₂ T.w1_1 (Fin.ext (Nat.add_sub_cancel_left ..))
      (Fin.ext (by show 64 * 1 + j.val - 64 = j.val; omega))
  · intro j
    have hj := j.isLt
    unfold w2st
    dsimp only
    rw [dif_neg (show ¬ 64 * 1 + j.val < 64 by omega), dif_pos (show 64 * 1 + j.val < 128 by omega)]
    exact congrArg (fun x => T.w2_1 x d) (Fin.ext (by show 64 * 1 + j.val - 64 = j.val; omega))
  · rfl

/-- Bucket 2: rows 50000 … 74999, 64 entries at the lanes 48 … 111, hidden lanes 128 … 191. -/
theorem rowOut_combined_2 (T : Tables) (r : Fin 100000) (d : Fin 256) (h0 : ¬ r.val < 25000) (h1 : ¬ r.val < 50000)
    (h2 : r.val < 75000) :
    rowOut (BitVec.ofNat 32 2) (combined T r) (w1bd T) (w2st T) (b2st T) d
      = mlp (T.emb2 ⟨r.val - 50000, by omega⟩) T.w1_2 T.b1_2 T.w2_2 T.b2_2 d := by
  refine rowOut_bucket 48 2 (by omega) (by omega) (combined T r) (w1bd T) (w2st T) (b2st T)
    (T.emb2 ⟨r.val - 50000, by omega⟩) T.w1_2 T.b1_2 T.w2_2 T.b2_2 d ?_ ?_ ?_ ?_ ?_ ?_ ?_
  · unfold combined
    rw [if_pos rfl]
  · intro i
    have hi := i.isLt
    unfold combined
    dsimp only
    rw [if_neg (show ¬ (48 + i.val = 240) by omega), dif_neg h0, dif_neg h1, dif_pos h2,
      dif_pos (show 48 ≤ 48 + i.val ∧ 48 + i.val < 112 by omega)]
    exact congrArg (T.emb2 _) (Fin.ext (Nat.add_sub_cancel_left ..))
  · intro l hl hout
    unfold combined
    rw [if_neg hl, dif_neg h0, dif_neg h1, dif_pos h2, dif_neg (show ¬ (48 ≤ l.val ∧ l.val < 112) by omega)]
  · intro j
    have hj := j.isLt
    unfold w1bd
    dsimp only
    rw [if_pos rfl, dif_neg (show ¬ 64 * 2 + j.val < 64 by omega), dif_neg (show ¬ 64 * 2 + j.val < 128 by omega),
      dif_pos (show 64 * 2 + j.val < 192 by omega)]
    exact congrArg T.b1_2 (Fin.ext (by show 64 * 2 + j.val - 128 = j.val; omega))
  · intro i j
    have hi := i.isLt
    have hj := j.isLt
    unfold w1bd
    dsimp only
    rw [if_neg (show ¬ (48 + i.val = 240) by omega),
      dif_neg (show ¬ (48 + i.val < 16 ∧ 64 * 2 + j.val < 64) by omega),
      dif_neg (show ¬ ((16 ≤ 48 + i.val ∧ 48 + i.val < 48) ∧ (64 ≤ 64 * 2 + j.val ∧ 64 * 2 + j.val < 128)) by omega),
      dif_pos (show (48 ≤ 48 + i.val ∧ 48 + i.val < 112) ∧ (128 ≤ 64 * 2 + j.val ∧ 64 * 2 + j.val < 192) by omega)]
    exact congrArg₂ T.w1_2 (Fin.ext (Nat.add_sub_cancel_left ..))
      (Fin.ext (by show 64 * 2 + j.val - 128 = j.val; omega))
  · intro j
    have hj := j.isLt
    unfold w2st
    dsimp only
    rw [dif_neg (show ¬ 64 * 2 + j.val < 64 by omega), dif_neg (show ¬ 64 * 2 + j.val < 128 by omega),
      dif_pos (show 64 * 2 + j.val < 192 by omega)]
    exact congrArg (fun x => T.w2_2 x d) (Fin.ext (by show 64 * 2 + j.val - 128 = j.val; omega))
  · rfl

/-- Bucket 3: rows 75000 … 99999, 128 entries at the lanes 112 … 239, hidden lanes 192 … 255. -/
theorem rowOut_combined_3 (T : Tables) (r : Fin 100000) (d : Fin 256) (h0 : ¬ r.val < 25000) (h1 : ¬ r.val < 50000)
    (h2 : ¬ r.val < 75000) :
    rowOut (BitVec.ofNat 32 3) (combined T r) (w1bd T) (w2st T) (b2st T) d
      = mlp (T.emb3 ⟨r.val - 75000, by omega⟩) T.w1_3 T.b1_3 T.w2_3 T.b2_3 d := by
  refine rowOut_bucket 112 3 (by omega) (by omega) (combined T r) (w1bd T) (w2st T) (b2st T)
    (T.emb3 ⟨r.val - 75000, by omega⟩) T.w1_3 T.b1_3 T.w2_3 T.b2_3 d ?_ ?_ ?_ ?_ ?_ ?_ ?_
  · unfold combined
    rw [if_pos rfl]
  · intro i
    have hi := i.isLt
    unfold combined
    dsimp only
    rw [if_neg (show ¬ (112 + i.val = 240) by omega), dif_neg h0, dif_neg h1, dif_neg h2,
      dif_pos (show 112 ≤ 112 + i.val ∧ 112 + i.val < 240 by omega)]
    exact congrArg (T.emb3 _) (Fin.ext (Nat.add_sub_cancel_left ..))
  · intro l hl hout
    unfold combined
    rw [if_neg hl, dif_neg h0, dif_neg h1, dif_neg h2, dif_neg (show ¬ (112 ≤ l.val ∧ l.val < 240) by omega)]
  · intro j
    have hj := j.isLt
    unfold w1bd
    dsimp only
    rw [if_pos rfl, dif_neg (show ¬ 64 * 3 + j.val < 64 by omega), dif_neg (show ¬ 64 * 3 + j.val < 128 by omega),
      dif_neg (show ¬ 64 * 3 + j.val < 192 by omega)]
    exact congrArg T.b1_3 (Fin.ext (by show 64 * 3 + j.val - 192 = j.val; omega))
  · intro i j
    have hi := i.isLt
    have hj := j.isLt
    unfold w1bd
    dsimp only
    rw [if_neg (show ¬ (112 + i.val = 240) by omega),
      dif_neg (show ¬ (112 + i.val < 16 ∧ 64 * 3 + j.val < 64) by omega),
      dif_neg (show ¬ ((16 ≤ 112 + i.val ∧ 112 + i.val < 48) ∧ (64 ≤ 64 * 3 + j.val ∧ 64 * 3 + j.val < 128)) by omega),
      dif_neg (show ¬ ((48 ≤ 112 + i.val ∧ 112 + i.val < 112) ∧ (128 ≤ 64 * 3 + j.val ∧ 64 * 3 + j.val < 192)) by omega),
      dif_pos (show (112 ≤ 112 + i.val ∧ 112 + i.val < 240) ∧ 192 ≤ 64 * 3 + j.val by omega)]
    exact congrArg₂ T.w1_3 (Fin.ext (Nat.add_sub_cancel_left ..))
      (Fin.ext (by show 64 * 3 + j.val - 192 = j.val; omega))
  · intro j
    have hj := j.isLt
    unfold w2st
    dsimp only
    rw [dif_neg (show ¬ 64 * 3 + j.val < 64 by omega), dif_neg (show ¬ 64 * 3 + j.val < 128 by omega),
      dif_neg (show ¬ 64 * 3 + j.val < 192 by omega)]
    exact congrArg (fun x => T.w2_3 x d) (Fin.ext (by show 64 * 3 + j.val - 192 = j.val; omega))
  · rfl

/-- Row `r` of the padded table under its own bucket word: the specification's row at the id `r`. -/
theorem rowOut_combined (T : Tables) (r : Fin 100000) (d : Fin 256) :
    rowOut (BitVec.ofNat 32 (r.val / 25000)) (combined T r) (w1bd T) (w2st T) (b2st T) d = specRow T (r.val : Int) d := by
  have hr := r.isLt
  unfold specRow
  by_cases h0 : r.val < 25000
  · have hq : r.val / 25000 = 0 := by omega
    rw [hq, dif_pos (show 0 ≤ (r.val : Int) ∧ (r.val : Int) < 25000 by omega), rowOut_combined_0 T r d h0]
    exact congrArg (fun x => mlp (T.emb0 x) T.w1_0 T.b1_0 T.w2_0 T.b2_0 d) (Fin.ext (by show r.val = (r.val : Int).toNat; omega))
  · by_cases h1 : r.val < 50000
    · have hq : r.val / 25000 = 1 := by omega
      rw [hq, dif_neg (show ¬ (0 ≤ (r.val : Int) ∧ (r.val : Int) < 25000) by omega),
        dif_pos (show 25000 ≤ (r.val : Int) ∧ (r.val : Int) < 50000 by omega), rowOut_combined_1 T r d h0 h1]
      exact congrArg (fun x => mlp (T.emb1 x) T.w1_1 T.b1_1 T.w2_1 T.b2_1 d)
        (Fin.ext (by show r.val - 25000 = ((r.val : Int) - 25000).toNat; omega))
    · by_cases h2 : r.val < 75000
      · have hq : r.val / 25000 = 2 := by omega
        rw [hq, dif_neg (show ¬ (0 ≤ (r.val : Int) ∧ (r.val : Int) < 25000) by omega),
          dif_neg (show ¬ (25000 ≤ (r.val : Int) ∧ (r.val : Int) < 50000) by omega),
          dif_pos (show 50000 ≤ (r.val : Int) ∧ (r.val : Int) < 75000 by omega), rowOut_combined_2 T r d h0 h1 h2]
        exact congrArg (fun x => mlp (T.emb2 x) T.w1_2 T.b1_2 T.w2_2 T.b2_2 d)
          (Fin.ext (by show r.val - 50000 = ((r.val : Int) - 50000).toNat; omega))
      · have hq : r.val / 25000 = 3 := by omega
        rw [hq, dif_neg (show ¬ (0 ≤ (r.val : Int) ∧ (r.val : Int) < 25000) by omega),
          dif_neg (show ¬ (25000 ≤ (r.val : Int) ∧ (r.val : Int) < 50000) by omega),
          dif_neg (show ¬ (50000 ≤ (r.val : Int) ∧ (r.val : Int) < 75000) by omega),
          dif_pos (show 75000 ≤ (r.val : Int) ∧ (r.val : Int) < 100000 by omega), rowOut_combined_3 T r d h0 h1 h2]
        exact congrArg (fun x => mlp (T.emb3 x) T.w1_3 T.b1_3 T.w2_3 T.b2_3 d)
          (Fin.ext (by show r.val - 75000 = ((r.val : Int) - 75000).toNat; omega))

end Cert.BucketMlp

end
-- ==== Proof.KernelValue.lean ====
/-
  The idealized kernel program's result is the specification's result array.

  The region writes the array `[81920, 256]` block by block: at grid point `t` the body leaves in the output
  block, entry `(p, q)`, the fused row of token `4096 t + p` at lane `q` — its bucket word, its gathered padded
  row, the block-diagonal matrix, the stacked matrix, the bias rows — which is the specification's row of that
  token's id (in range: the padded row under its own bucket word; out of range: the zero row). The twenty blocks
  tile the array, and the reshape after the region re-indexes token `20 i + s` as `(i, s)`.
-/
import proofs.«401935_j50148038148546_3_alg».proof.Proof.KernelIdealFrame
import proofs.«401935_j50148038148546_3_alg».proof.Proof.KernelArgs
import proofs.«401935_j50148038148546_3_alg».proof.Proof.HostRows
import proofs.«401935_j50148038148546_3_alg».proof.Proof.HostW1
import proofs.«401935_j50148038148546_3_alg».proof.Proof.HostSmall
import proofs.«401935_j50148038148546_3_alg».proof.Proof.KernelPayload
import proofs.«401935_j50148038148546_3_alg».proof.Proof.Algebra
import Idealize.ShloMosaic.Lib.Pipeline.Value
import Idealize.ShloMosaic.Lib.ValueIdx
import Idealize.ShloMosaic.Lib.StableHlo.Run

set_option maxRecDepth 16384

noncomputable section

namespace Cert.KernelIdeal.Hand

open Cert.KernelIdeal Cert.KernelIdeal.Gen Cert.BucketMlp
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## One token's row -/

/-- The fused row of token `tok`, over the arrays the region finds, is the specification's row of its id. -/
theorem row_eq (c : Dev nD) (tok : Fin 81920) (d : Fin 256) :
    rowOut ((V m c main_v26 : IVec S81920x1 32) (ix2 tok 0))
        (fun l => (V m c main_v24 : FVec Ideal S81920x256 .bf16) (ix2 tok l))
        (fun l k => (V m c main_v54 : FVec Ideal S256x256 .bf16) (ix2 l k))
        (fun k d => (V m c main_v59 : FVec Ideal S256x256 .bf16) (ix2 k d))
        (fun b d => (V m c main_v68 : FVec Ideal S4x256 .bf16) (ix2 b d)) d
      = specRow (tables m c) (tokId m c tok).toInt d := by
  have e1 : (fun l => (V m c main_v24 : FVec Ideal S81920x256 .bf16) (ix2 tok l))
      = combined (tables m c) (clampRow (tokId m c tok)) := funext fun l => V_rows m c tok l
  have e2 : (fun l k => (V m c main_v54 : FVec Ideal S256x256 .bf16) (ix2 l k)) = w1bd (tables m c) :=
    funext fun l => funext fun k => V_w1 m c l k
  have e3 : (fun k d => (V m c main_v59 : FVec Ideal S256x256 .bf16) (ix2 k d)) = w2st (tables m c) :=
    funext fun k => funext fun d => V_w2 m c k d
  have e4 : (fun b d => (V m c main_v68 : FVec Ideal S4x256 .bf16) (ix2 b d)) = b2st (tables m c) :=
    funext fun b => funext fun d => V_b2 m c b d
  rw [e1, e2, e3, e4]
  by_cases h : 0 ≤ (tokId m c tok).toInt ∧ (tokId m c tok).toInt < 100000
  · -- an id of the table: the row is the id itself and the bucket word its bucket's number
    rw [V_bid_in m c tok h]
    have hr : clampRow (tokId m c tok) = ⟨(tokId m c tok).toInt.toNat, by omega⟩ :=
      Fin.ext (by show min (tokId m c tok).toInt.toNat 99999 = (tokId m c tok).toInt.toNat; omega)
    rw [hr]
    have key := rowOut_combined (tables m c) ⟨(tokId m c tok).toInt.toNat, by omega⟩ d
    have hz : (((tokId m c tok).toInt.toNat : ℕ) : Int) = (tokId m c tok).toInt := Int.toNat_of_nonneg h.1
    rw [show ((⟨(tokId m c tok).toInt.toNat, by omega⟩ : Fin 100000).val : Int) = (tokId m c tok).toInt from hz] at key
    exact key
  · -- any other id: no bucket's word, the zero row on both sides
    have hout : (tokId m c tok).toInt < 0 ∨ 100000 ≤ (tokId m c tok).toInt := by omega
    rw [rowOut_of_no_bucket _ (fun b => V_bid_out m c tok hout b)]
    unfold specRow
    rw [dif_neg (by omega), dif_neg (by omega), dif_neg (by omega), dif_neg (by omega)]

/-! ## The array the region writes -/

/-- The region's result array: row `tok` is the specification's row of token `tok`'s id. -/
def G (c : Dev nD) : FVec Ideal S81920x256 .f32 :=
  fun j => specRow (tables m c) (tokId m c ⟨(j 0).val, idx2_lt0 j⟩).toInt ⟨(j 1).val, idx2_lt1 j⟩

theorem G_apply (c : Dev nD) (tok : Fin 81920) (d : Fin 256) :
    G m c (ix2 tok d) = specRow (tables m c) (tokId m c tok).toInt d := rfl

theorem hz : (![0, 0] : Fin 2 → Nat) = fun _ => 0 := funext fun a => by fin_cases a <;> rfl

/-- The printed index maps over the grid: the token windows and the output move with the point, the three
    resident windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 20 := lt_of_lt_of_eq t.isLt N_0

/-- Token `p` of block `t` is token `4096 t + p` of the array. -/
abbrev tokOf (t : Fin cfg0.N) (p : Fin 4096) : Fin 81920 := ⟨t.val * 4096 + p.val, by have := t_lt t; omega⟩

/-- The bucket-word block at `(p, 0)`. -/
theorem iblk0_apply (c : Dev nD) (t : Fin cfg0.N) (p : Fin 4096) :
    iblk m c 0 t (ix2 p 0) = (V m c main_v26 : IVec S81920x1 32) (ix2 (tokOf t p) 0) := by
  obtain ⟨e0, e1, -⟩ := idx_facts t
  show (V m c main_v26 : IVec S81920x1 32) (((cfg0.win 0).blk t).view.emb (ix2 p 0)) = _
  refine congrArg _ ?_
  funext a; apply Fin.ext
  match a with
  | ⟨0, _⟩ => show win0_0.index t (0 : Fin 2) * 4096 + 1 * p.val = t.val * 4096 + p.val; omega
  | ⟨1, _⟩ => show win0_0.index t (1 : Fin 2) * 1 + 1 * 0 = 0; omega

/-- The gathered-rows block at `(p, l)`. -/
theorem iblk1_apply (c : Dev nD) (t : Fin cfg0.N) (p : Fin 4096) (l : Fin 256) :
    iblk m c 1 t (ix2 p l) = (V m c main_v24 : FVec Ideal S81920x256 .bf16) (ix2 (tokOf t p) l) := by
  obtain ⟨-, -, e0, e1, -⟩ := idx_facts t
  show (V m c main_v24 : FVec Ideal S81920x256 .bf16) (((cfg0.win 1).blk t).view.emb (ix2 p l)) = _
  refine congrArg _ ?_
  funext a; apply Fin.ext
  match a with
  | ⟨0, _⟩ => show win0_1.index t (0 : Fin 2) * 4096 + 1 * p.val = t.val * 4096 + p.val; omega
  | ⟨1, _⟩ => show win0_1.index t (1 : Fin 2) * 256 + 1 * l.val = l.val; omega

/-- The resident blocks are the whole arrays. -/
theorem iblk2_apply (c : Dev nD) (t : Fin cfg0.N) (l k : Fin 256) :
    iblk m c 2 t (ix2 l k) = (V m c main_v54 : FVec Ideal S256x256 .bf16) (ix2 l k) := by
  obtain ⟨-, -, -, -, e0, e1, -⟩ := idx_facts t
  show (V m c main_v54 : FVec Ideal S256x256 .bf16) (((cfg0.win 2).blk t).view.emb (ix2 l k)) = _
  refine congrArg _ ?_
  funext a; apply Fin.ext
  match a with
  | ⟨0, _⟩ => show win0_2.index t (0 : Fin 2) * 256 + 1 * l.val = l.val; omega
  | ⟨1, _⟩ => show win0_2.index t (1 : Fin 2) * 256 + 1 * k.val = k.val; omega

theorem iblk3_apply (c : Dev nD) (t : Fin cfg0.N) (k d : Fin 256) :
    iblk m c 3 t (ix2 k d) = (V m c main_v59 : FVec Ideal S256x256 .bf16) (ix2 k d) := by
  obtain ⟨-, -, -, -, -, -, e0, e1, -⟩ := idx_facts t
  show (V m c main_v59 : FVec Ideal S256x256 .bf16) (((cfg0.win 3).blk t).view.emb (ix2 k d)) = _
  refine congrArg _ ?_
  funext a; apply Fin.ext
  match a with
  | ⟨0, _⟩ => show win0_3.index t (0 : Fin 2) * 256 + 1 * k.val = k.val; omega
  | ⟨1, _⟩ => show win0_3.index t (1 : Fin 2) * 256 + 1 * d.val = d.val; omega

theorem iblk4_apply (c : Dev nD) (t : Fin cfg0.N) (b : Fin 4) (d : Fin 256) :
    iblk m c 4 t (ix2 b d) = (V m c main_v68 : FVec Ideal S4x256 .bf16) (ix2 b d) := by
  obtain ⟨-, -, -, -, -, -, -, -, e0, e1, -⟩ := idx_facts t
  show (V m c main_v68 : FVec Ideal S4x256 .bf16) (((cfg0.win 4).blk t).view.emb (ix2 b d)) = _
  refine congrArg _ ?_
  funext a; apply Fin.ext
  match a with
  | ⟨0, _⟩ => show win0_4.index t (0 : Fin 2) * 4 + 1 * b.val = b.val; omega
  | ⟨1, _⟩ => show win0_4.index t (1 : Fin 2) * 256 + 1 * d.val = d.val; omega

/-- What point `t` writes back is block `t` of `G`. -/
theorem flushed_eq (c : Dev nD) (t : Fin cfg0.N) :
    (dats m 0 c).flushed 5 t = ((cfg0.win 5).blk t).view.read (Elt Ideal) (G m c) := by
  show (cfg0.win 5).cut (grid0.coords t) ((dats m 0 c).after 5 t) = _
  rw [after0_5]
  funext y
  obtain ⟨p, q, rfl⟩ : ∃ (p : Fin 4096) (q : Fin 256), y = ix2 p q := ⟨y 0, y 1, eq_ix2 y⟩
  show outBlock (iblk m c 0 t) (iblk m c 1 t) (iblk m c 2 t) (iblk m c 3 t) (iblk m c 4 t) (ix2 p q)
    = G m c (((cfg0.win 5).blk t).view.emb (ix2 p q))
  rw [outBlock_apply, iblk0_apply]
  have e1 : (fun l => iblk m c 1 t (ix2 p l)) = fun l => (V m c main_v24 : FVec Ideal S81920x256 .bf16) (ix2 (tokOf t p) l) :=
    funext fun l => iblk1_apply m c t p l
  have e2 : (fun l k => iblk m c 2 t (ix2 l k)) = fun l k => (V m c main_v54 : FVec Ideal S256x256 .bf16) (ix2 l k) :=
    funext fun l => funext fun k => iblk2_apply m c t l k
  have e3 : (fun k d => iblk m c 3 t (ix2 k d)) = fun k d => (V m c main_v59 : FVec Ideal S256x256 .bf16) (ix2 k d) :=
    funext fun k => funext fun d => iblk3_apply m c t k d
  have e4 : (fun b d => iblk m c 4 t (ix2 b d)) = fun b d => (V m c main_v68 : FVec Ideal S4x256 .bf16) (ix2 b d) :=
    funext fun b => funext fun d => iblk4_apply m c t b d
  rw [e1, e2, e3, e4, row_eq]
  have he : ((cfg0.win 5).blk t).view.emb (ix2 p q) = ix2 (tokOf t p) q := by
    obtain ⟨-, -, -, -, -, -, -, -, -, -, e0, e1⟩ := idx_facts t
    funext a; apply Fin.ext
    match a with
    | ⟨0, _⟩ => show win0_5.index t (0 : Fin 2) * 4096 + 1 * p.val = t.val * 4096 + p.val; omega
    | ⟨1, _⟩ => show win0_5.index t (1 : Fin 2) * 256 + 1 * q.val = q.val; omega
  rw [he, G_apply]

/-- An index of the array is in point `t`'s block iff each coordinate is in the block's range. -/
theorem mem_blk (t : Fin cfg0.N) (i : S81920x256.Idx) :
    i ∈ ((cfg0.win 5).blk t).view.set ↔ ∀ a : Fin 2, win0_5.index t a * S4096x256.size a ≤ (i a).val
      ∧ (i a).val < win0_5.index t a * S4096x256.size a + S4096x256.size a := by
  show i ∈ ((View.whole main_v69).slice (win0_5.rect t)).set ↔ _
  rw [View.set_slice_whole, Rect.mem_set_unit]
  exact Iff.rfl

/-- The twenty blocks tile the array: row `r` is in block `r / 4096`. -/
theorem cover (i : S81920x256.Idx) :
    ∃ t : Fin cfg0.N, (cfg0.win 5).flush t = true ∧ i ∈ ((cfg0.win 5).blk t).view.set := by
  have hi0 : (i 0).val < 81920 := (i 0).isLt
  have hi1 : (i 1).val < 256 := (i 1).isLt
  have hN : (i 0).val / 4096 < cfg0.N := by rw [show cfg0.N = 20 from N_0]; omega
  refine ⟨⟨(i 0).val / 4096, hN⟩, flush0_5 _, ?_⟩
  rw [mem_blk]
  obtain ⟨-, -, -, -, -, -, -, -, -, -, e0, e1⟩ := idx_facts ⟨(i 0).val / 4096, hN⟩
  intro a
  match a with
  | ⟨0, _⟩ =>
    show win0_5.index ⟨(i 0).val / 4096, hN⟩ (0 : Fin 2) * 4096 ≤ (i 0).val
      ∧ (i 0).val < win0_5.index ⟨(i 0).val / 4096, hN⟩ (0 : Fin 2) * 4096 + 4096
    rw [e0]; show (i 0).val / 4096 * 4096 ≤ (i 0).val ∧ (i 0).val < (i 0).val / 4096 * 4096 + 4096; omega
  | ⟨1, _⟩ =>
    show win0_5.index ⟨(i 0).val / 4096, hN⟩ (1 : Fin 2) * 256 ≤ (i 1).val
      ∧ (i 1).val < win0_5.index ⟨(i 0).val / 4096, hN⟩ (1 : Fin 2) * 256 + 256
    rw [e1]; omega

/-- The array the region leaves. -/
theorem final (c : Dev nD) : (dats m 0 c).arrAt 5 cfg0.N = G m c :=
  (dats m 0 c).arrAt_eq_of_cover 5 (G m c) (fun t _ => flushed_eq m c t) cover

/-! ## The reshape after the region -/

/-- The program's result: the region's array with token `20 i + s` re-indexed as `(i, s)`. -/
theorem tail_eq (c : Dev nD) :
    Pipeline.afterTail₀ cfgs (dats m) 0 (V0 m) [hostOps1] c main_v70 = resultOf (idsArr m c) (tables m c) := by
  unfold Pipeline.afterTail₀
  show StableHlo.after hostOps1 _ (Proc.devRef .tc main_v70) = _
  after_results
  funext j
  obtain ⟨i, s, d, rfl⟩ : ∃ (i : Fin 4096) (s : Fin 20) (d : Fin 256), j = ix3 i s d := ⟨j 0, j 1, j 2, eq_ix3 j⟩
  rw [resultOf_apply]
  have hw : Pipeline.withArrays spec0 c (V0 m c) (fun w => (dats m 0 c).arrAt w cfg0.N) (Proc.devRef .tc (Pipeline.arrRef spec0 5))
      = G m c := (Pipeline.withArrays_arr spec0 launch0.win.arr_inj c (V0 m c) (fun w => (dats m 0 c).arrAt w cfg0.N) 5).trans (final m c)
  show shapeCast S4096x20x256 (Pipeline.withArrays spec0 c (V0 m c) (fun w => (dats m 0 c).arrAt w cfg0.N)
      (Proc.devRef .tc (Pipeline.arrRef spec0 5))) shapeCasts_S81920x256_S4096x20x256 (ix3 i s d) = _
  rw [hw]
  have hk : ((S81920x256).rowMajor (ix2 (⟨i.val * 20 + s.val, by omega⟩ : Fin 81920) d)).val
      = ((S4096x20x256).rowMajor (ix3 i s d)).val := by
    rw [Shape.rowMajor_val_two, Shape.rowMajor_val_three]; rfl
  rw [shapeCast_apply (G m c) shapeCasts_S81920x256_S4096x20x256 (ix3 i s d) (ix2 (⟨i.val * 20 + s.val, by omega⟩ : Fin 81920) d) hk,
    G_apply]
  have hidx : (ix2 (⟨(i.val * 20 + s.val) / 20, by omega⟩ : Fin 4096) (⟨(i.val * 20 + s.val) % 20, by omega⟩ : Fin 20) : S4096x20.Idx)
      = ix2 i s := by
    funext a; apply Fin.ext
    match a with
    | ⟨0, _⟩ => show (i.val * 20 + s.val) / 20 = i.val; omega
    | ⟨1, _⟩ => show (i.val * 20 + s.val) % 20 = s.val; omega
  show specRow (tables m c) (remap (idsArr m c (ix2 (⟨(i.val * 20 + s.val) / 20, by omega⟩ : Fin 4096)
      (⟨(i.val * 20 + s.val) % 20, by omega⟩ : Fin 20)))).toInt d = specRow (tables m c) (remap (idsArr m c (ix2 i s))).toInt d
  rw [hidx]

/-! ## The run, with the result named -/

/-- Every weakly fair execution of the idealized kernel program terminates with the specification's result array in its
    result buffer and every argument array as launched. -/
theorem run_value : θ_run defs (onTc (τ := τ) (main (F := Ideal))) ⟨m, fun _ => 0, ρ⟩ (fun r => ∀ c : Dev nD,
      r.2.mem ((c.tc : Thread nD τ).loc main_v70) = resultOf (idsArr m c) (tables m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  (θ_run defs _ _).mono (fun r h c =>
    have K : ∀ b ∈ argRefs, b.isScoped = false → (∀ w, ((spec0 w).arr.view.ref) ≠ b) →
        r.2.mem ((c.tc : Thread nD τ).loc b) = m ((c.tc : Thread nD τ).loc b) := fun b hb hs ha =>
      ((h c).2 b (Pipeline.mem_restRefs_of b hs ha)).trans (W_arg m (dats m) c b hb)
    ⟨((h c).2 main_v70 (Pipeline.mem_restRefs_of main_v70 (by decide) (by decide))).trans (tail_eq m c),
     K main_arg0 (by decide) (by decide) (by decide),
     K main_arg1 (by decide) (by decide) (by decide),
     K main_arg2 (by decide) (by decide) (by decide),
     K main_arg3 (by decide) (by decide) (by decide),
     K main_arg4 (by decide) (by decide) (by decide),
     K main_arg5 (by decide) (by decide) (by decide),
     K main_arg6 (by decide) (by decide) (by decide),
     K main_arg7 (by decide) (by decide) (by decide),
     K main_arg8 (by decide) (by decide) (by decide),
     K main_arg9 (by decide) (by decide) (by decide),
     K main_arg10 (by decide) (by decide) (by decide),
     K main_arg11 (by decide) (by decide) (by decide),
     K main_arg12 (by decide) (by decide) (by decide),
     K main_arg13 (by decide) (by decide) (by decide),
     K main_arg14 (by decide) (by decide) (by decide),
     K main_arg15 (by decide) (by decide) (by decide),
     K main_arg16 (by decide) (by decide) (by decide),
     K main_arg17 (by decide) (by decide) (by decide),
     K main_arg18 (by decide) (by decide) (by decide),
     K main_arg19 (by decide) (by decide) (by decide),
     K main_arg20 (by decide) (by decide) (by decide)⟩) (run_main m ρ)

end Cert.KernelIdeal.Hand

end
-- ==== Proof.RefValue.lean ====
/-
  The reference's result, entry by entry, is the specification: per bucket the reference masks the ids of that
  bucket's range, clips the local row into the table, gathers it, applies the two layers, and selects the
  result under the mask over what the earlier buckets left (zeros at first); the four ranges are disjoint, so the
  chain of selects is the four-way case split of the specification.
-/
import proofs.«401935_j50148038148546_3_alg».proof.Proof.Gen.ReferenceIdeal.Run
import proofs.«401935_j50148038148546_3_alg».proof.Proof.Gen.ReferenceIdeal.Read
import proofs.«401935_j50148038148546_3_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.BucketMlp
open Idealize.ShloMosaic Idealize.ShloMosaic.TcCoe Idealize.ShloMosaic.ValueIdx Idealize.SL.Sem

/-! ## Words -/

theorem sge_bit (a b : BitVec 32) : IntOp.cmpi .sge a b = if b.toInt ≤ a.toInt then 1#1 else 0#1 := by
  unfold IntOp.cmpi
  simp only [BitVec.sle]
  by_cases h : b.toInt ≤ a.toInt
  · rw [if_pos h, decide_eq_true h]; rfl
  · rw [if_neg h, decide_eq_false h]; rfl

theorem slt_bit (a b : BitVec 32) : IntOp.cmpi .slt a b = if a.toInt < b.toInt then 1#1 else 0#1 := by
  unfold IntOp.cmpi
  simp only [BitVec.slt]
  by_cases h : a.toInt < b.toInt
  · rw [if_pos h, decide_eq_true h]; rfl
  · rw [if_neg h, decide_eq_false h]; rfl

/-- The mask bit of a bucket: the id is at least the start and below the end. -/
def maskw (z s e : BitVec 32) : BitVec 1 := IntOp.andi (IntOp.cmpi .sge z s) (IntOp.cmpi .slt z e)

theorem maskw_eq (z s e : BitVec 32) :
    maskw z s e = if s.toInt ≤ z.toInt ∧ z.toInt < e.toInt then 1#1 else 0#1 := by
  unfold maskw
  rw [sge_bit, slt_bit]
  by_cases h1 : s.toInt ≤ z.toInt <;> by_cases h2 : z.toInt < e.toInt <;> simp [h1, h2, IntOp.andi]

/-- The local row word: the id minus the start, clipped into the table. -/
def locw (z s : BitVec 32) : BitVec 32 := IntOp.minsi 24999#32 (IntOp.maxsi 0#32 (IntOp.subi z s))
/-- The start index word the gather is given: the local row, with a negative one moved up by the table's height. -/
def idxw (z s : BitVec 32) : BitVec 32 :=
  Scalar.select (IntOp.cmpi .slt (locw z s) 0#32) (IntOp.addi (locw z s) 25000#32) (locw z s)

theorem locw_toInt (z s : BitVec 32) (h1 : s.toInt ≤ z.toInt) (h2 : z.toInt < s.toInt + 25000) :
    (locw z s).toInt = z.toInt - s.toInt := by
  have hsub : (IntOp.subi z s).toInt = z.toInt - s.toInt := by
    show (z - s).toInt = _
    rw [BitVec.toInt_sub]
    have : (0:Int) ≤ z.toInt - s.toInt := by omega
    have : z.toInt - s.toInt < 25000 := by omega
    rw [Int.bmod_eq_of_le] <;> omega
  have h0 : (0#32 : BitVec 32).toInt = 0 := by decide
  have hc : (24999#32 : BitVec 32).toInt = 24999 := by decide
  have hmax : IntOp.maxsi 0#32 (IntOp.subi z s) = IntOp.subi z s := by
    unfold IntOp.maxsi
    rw [if_neg]
    simp only [BitVec.slt, hsub, h0, decide_eq_true_eq]; omega
  have hmin : IntOp.minsi 24999#32 (IntOp.subi z s) = IntOp.subi z s := by
    unfold IntOp.minsi
    rw [if_neg]
    simp only [BitVec.slt, hsub, hc, decide_eq_true_eq]; omega
  unfold locw
  rw [hmax, hmin, hsub]

theorem idxw_toInt (z s : BitVec 32) (h1 : s.toInt ≤ z.toInt) (h2 : z.toInt < s.toInt + 25000) :
    (idxw z s).toInt = z.toInt - s.toInt := by
  have hl := locw_toInt z s h1 h2
  have h0 : (0#32 : BitVec 32).toInt = 0 := by decide
  unfold idxw
  rw [slt_bit, if_neg (by rw [hl, h0]; omega), select_zero, hl]

/-! ## A row gather -/
section Row
variable {α : Type}

/-- The dimension numbers of `table[idx]` for a table `[N, n]` and start indices `[R, C, 1]`: the row axis collapsed and
    start-indexed, the column axis an offset axis of full width. -/
abbrev rowDims (N n R C : Nat)
    (wf : GatherDims.WF ⟨2, ![N, n]⟩ ⟨3, ![R, C, 1]⟩ ⟨3, ![R, C, n]⟩ [2] [0] [] [0] [] 2 ![1, n]) :
    GatherDims ⟨2, ![N, n]⟩ ⟨3, ![R, C, 1]⟩ ⟨3, ![R, C, n]⟩ where
  offsetDims := [2]
  collapsedSliceDims := [0]
  operandBatchingDims := []
  startIndicesBatchingDims := []
  startIndexMap := [0]
  indexVectorDim := 2
  sliceSizes := ![1, n]
  wf := wf

/-- The gather at `(r, c, k)` reads row `idx[r, c, 0]` (signed, clamped into the table) at column `k`. -/
theorem gather_row {N n R C w : Nat} (hN : 0 < N)
    (wf : GatherDims.WF ⟨2, ![N, n]⟩ ⟨3, ![R, C, 1]⟩ ⟨3, ![R, C, n]⟩ [2] [0] [] [0] [] 2 ![1, n])
    (x : (⟨2, ![N, n]⟩ : Shape).Idx → α) (idx : IVec ⟨3, ![R, C, 1]⟩ w) (r : Fin R) (c : Fin C) (k : Fin n) :
    Host.gather (rowDims N n R C wf) x idx (ix3 r c k)
      = x (ix2 ⟨min (idx (ix3 r c (0 : Fin 1))).toInt.toNat (N - 1), by omega⟩ k) := by
  unfold Host.gather
  refine congrArg x ?_
  funext a
  refine Fin.ext ?_
  match a with
  | ⟨0, _⟩ =>
    show (rowDims N n R C wf).start (ix3 r c k) idx 0 + (rowDims N n R C wf).batchCoord (ix3 r c k) 0
      + (rowDims N n R C wf).offCoord (ix3 r c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N n R C wf).startIndexMap from List.mem_singleton.mpr rfl)]
    have hsi : (rowDims N n R C wf).siIdx (ix3 r c k) ⟨List.idxOf (0 : Fin 2) (rowDims N n R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowDims N n R C wf).start (ix3 r c k) idx 1 + (rowDims N n R C wf).batchCoord (ix3 r c k) 1
      + (rowDims N n R C wf).offCoord (ix3 r c k) 1 = _
    rw [GatherDims.batchCoord_eq_zero _ _ _ List.not_mem_nil]
    have hst : (rowDims N n R C wf).start (ix3 r c k) idx 1 = 0 := by
      unfold GatherDims.start
      rw [dif_neg (show (1 : Fin 2) ∉ (rowDims N n R C wf).startIndexMap from fun h => Nat.one_ne_zero (congrArg Fin.val (List.mem_singleton.mp h)))]
    rw [hst]
    simp only [Nat.add_zero, Nat.zero_add]
    unfold GatherDims.offCoord
    rw [dif_pos (show (1 : Fin 2) ∈ (rowDims N n R C wf).sKept from (GatherDims.mem_sKept _ _).mpr ⟨fun h => Nat.one_ne_zero (congrArg Fin.val (List.mem_singleton.mp h)), List.not_mem_nil⟩)]
    rfl

end Row

/-! ## Indices are equal when their coordinates are -/

theorem idx1_ext {n0 : Nat} (f g : (⟨1, ![n0]⟩ : Shape).Idx) (h0 : f 0 = g 0) : f = g := by
  funext a; match a with | ⟨0, _⟩ => exact h0
theorem idx2_ext {n0 n1 : Nat} (f g : (⟨2, ![n0, n1]⟩ : Shape).Idx) (h0 : f 0 = g 0) (h1 : f 1 = g 1) : f = g := by
  funext a; match a with | ⟨0, _⟩ => exact h0 | ⟨1, _⟩ => exact h1
theorem idx3_ext {n0 n1 n2 : Nat} (f g : (⟨3, ![n0, n1, n2]⟩ : Shape).Idx) (h0 : f 0 = g 0) (h1 : f 1 = g 1)
    (h2 : f 2 = g 2) : f = g := by
  funext a; match a with | ⟨0, _⟩ => exact h0 | ⟨1, _⟩ => exact h1 | ⟨2, _⟩ => exact h2

/-- The table row the gather reads for the id word `z` in the bucket that starts at `s`. -/
def rowOf (z s : BitVec 32) : Fin 25000 := ⟨min (idxw z s).toInt.toNat 24999, by omega⟩

/-! ## The remapped id -/

theorem id_apply (x0 : IVec S4096x20 32) (r : Fin 4096) (c : Fin 20) :
    val_main_v2 (F := Ideal) x0 (ix2 r c) = remap (x0 (ix2 r c)) := by
  rw [val_main_v2_apply, val_main_v1_apply, val_main_v0_apply, val_main_c_apply, val_main_call0_v1_apply,
    val_main_call0_v0_apply, val_main_c_0_apply]
  unfold remap
  by_cases h : x0 (ix2 r c) = 100000#32
  · rw [if_pos h, h]; rfl
  · rw [if_neg h]
    have hb : IntOp.cmpi .eq (x0 (ix2 r c)) 100000#32 = 0#1 := by
      unfold IntOp.cmpi
      rw [show (x0 (ix2 r c) == 100000#32) = false from beq_eq_false_iff_ne.mpr h]
      rfl
    rw [hb, select_zero]

/-! ## Bucket 0 -/

theorem mask0 (x0 : IVec S4096x20 32) (r : Fin 4096) (c : Fin 20) :
    val_main_v8 (F := Ideal) x0 (ix2 r c) = maskw (remap (x0 (ix2 r c))) 0#32 25000#32 := by
  rw [val_main_v8_apply, val_main_v5_apply, val_main_v7_apply, val_main_v4_apply, val_main_v6_apply,
    val_main_c_1_apply, val_main_c_2_apply, id_apply]
  rfl

theorem idx0 (x0 : IVec S4096x20 32) (r : Fin 4096) (c : Fin 20) :
    val_main_v16 (F := Ideal) x0 (ix2 r c) = idxw (remap (x0 (ix2 r c))) 0#32 := by
  rw [val_main_v16_apply, val_main_v13_apply, val_main_v15_apply, val_main_v11_apply, val_main_call1_v4_apply,
    val_main_call1_v3_apply, val_main_c_5_apply, val_main_call1_v2_apply, val_main_call1_v1_apply,
    val_main_call1_v0_apply, val_main_c_4_apply, val_main_v10_apply, val_main_v9_apply, val_main_c_3_apply,
    val_main_v12_apply, val_main_c_6_apply, val_main_v14_apply, val_main_c_7_apply, id_apply]
  rfl

theorem gath0 (x0 : IVec S4096x20 32) (x1 : FVec Ideal S25000x16 .f32) (r : Fin 4096) (c : Fin 20) (k : Fin 16) :
    val_main_v18 (F := Ideal) x0 x1 (ix3 r c k) = x1 (ix2 (rowOf (remap (x0 (ix2 r c))) 0#32) k) := by
  unfold val_main_v18
  refine (gather_row (N := 25000) (n := 16) (R := 4096) (C := 20) (by decide)
    Gen.gather_S25000x16_S4096x20x1_S4096x20x16_2_0_n_n_0_2_116_wf x1 (val_main_v17 (F := Ideal) x0) r c k).trans ?_
  refine congrArg x1 (idx2_ext _ _ (Fin.ext ?_) rfl)
  show min (val_main_v17 (F := Ideal) x0 (ix3 r c (0 : Fin 1))).toInt.toNat (25000 - 1) = min _ 24999
  rw [val_main_v17_apply, show idx_main_v17 (ix3 r c (0 : Fin 1)) = ix2 r c from idx2_ext _ _ rfl rfl, idx0]

theorem hid0 (x0 : IVec S4096x20 32) (x1 : FVec Ideal S25000x16 .f32) (x2 : FVec Ideal S16x64 .f32) (x3 : FVec Ideal S64 .f32)
    (r : Fin 4096) (c : Fin 20) (j : Fin 64) :
    val_main_v23 (F := Ideal) x0 x1 x2 x3 (ix3 r c j)
      = max ((∑ k : Fin 16, x1 (ix2 (rowOf (remap (x0 (ix2 r c))) 0#32) k) * x2 (ix2 k j)) + x3 (ix1 j)) 0 := by
  rw [val_main_v23_apply, val_main_v22_apply, val_main_v19_apply, val_main_v21_apply, val_main_v20_apply,
    val_main_call2_v0_apply, val_main_call2_cst_apply]
  show max ((∑ k : Fin 16, _) + x3 _) (Ideal.ofBits .f32 0x00000000#32) = _
  rw [Ideal.ofBits_zero_f32]
  refine congrArg₂ (fun a b => max (a + b) 0) (Finset.sum_congr rfl fun k _ => ?_) (congrArg x3 (idx1_ext _ _ rfl))
  rw [show lidx_main_v19 (ix3 r c j) k = ix3 r c k from idx3_ext _ _ rfl rfl rfl,
    show ridx_main_v19 (ix3 r c j) k = ix2 k j from idx2_ext _ _ rfl rfl, gath0]

theorem out0 (x0 : IVec S4096x20 32) (x1 : FVec Ideal S25000x16 .f32) (x2 : FVec Ideal S16x64 .f32) (x3 : FVec Ideal S64 .f32)
    (x4 : FVec Ideal S64x256 .f32) (x5 : FVec Ideal S256 .f32) (r : Fin 4096) (c : Fin 20) (d : Fin 256) :
    val_main_v27 (F := Ideal) x0 x1 x2 x3 x4 x5 (ix3 r c d)
      = mlp (fun k => x1 (ix2 (rowOf (remap (x0 (ix2 r c))) 0#32) k)) (fun k j => x2 (ix2 k j)) (fun j => x3 (ix1 j))
          (fun j d => x4 (ix2 j d)) (fun d => x5 (ix1 d)) d := by
  rw [val_main_v27_apply, val_main_v24_apply, val_main_v26_apply, val_main_v25_apply]
  unfold mlp
  refine congrArg₂ (fun a b : EReal => a + b) (Finset.sum_congr rfl fun j _ => ?_) (congrArg x5 (idx1_ext _ _ rfl))
  rw [show lidx_main_v24 (ix3 r c d) j = ix3 r c j from idx3_ext _ _ rfl rfl rfl,
    show ridx_main_v24 (ix3 r c d) j = ix2 j d from idx2_ext _ _ rfl rfl, hid0]

theorem stage0 (x0 : IVec S4096x20 32) (x1 : FVec Ideal S25000x16 .f32) (x2 : FVec Ideal S16x64 .f32) (x3 : FVec Ideal S64 .f32)
    (x4 : FVec Ideal S64x256 .f32) (x5 : FVec Ideal S256 .f32) (r : Fin 4096) (c : Fin 20) (d : Fin 256) :
    val_main_v29 (F := Ideal) x0 x1 x2 x3 x4 x5 (ix3 r c d)
      = Scalar.select (maskw (remap (x0 (ix2 r c))) 0#32 25000#32)
          (mlp (fun k => x1 (ix2 (rowOf (remap (x0 (ix2 r c))) 0#32) k)) (fun k j => x2 (ix2 k j)) (fun j => x3 (ix1 j))
            (fun j d => x4 (ix2 j d)) (fun d => x5 (ix1 d)) d) 0 := by
  rw [val_main_v29_apply, val_main_call3_v0_apply, val_main_v28_apply,
    show idx_main_v28 (idx_main_call3_v0 (ix3 r c d)) = ix2 r c from idx2_ext _ _ rfl rfl, mask0, out0,
    val_main_v3_apply, val_main_cst_apply]
  exact congrArg _ Ideal.ofBits_zero_f32

/-! ## Bucket 1 -/

theorem mask1 (x0 : IVec S4096x20 32) (r : Fin 4096) (c : Fin 20) :
    val_main_v34 (F := Ideal) x0 (ix2 r c) = maskw (remap (x0 (ix2 r c))) 25000#32 50000#32 := by
  rw [val_main_v34_apply, val_main_v31_apply, val_main_v33_apply, val_main_v30_apply, val_main_v32_apply,
    val_main_c_8_apply, val_main_c_9_apply, id_apply]
  rfl

theorem idx1 (x0 : IVec S4096x20 32) (r : Fin 4096) (c : Fin 20) :
    val_main_v42 (F := Ideal) x0 (ix2 r c) = idxw (remap (x0 (ix2 r c))) 25000#32 := by
  rw [val_main_v42_apply, val_main_v39_apply, val_main_v41_apply, val_main_v37_apply, val_main_call4_v4_apply,
    val_main_call4_v3_apply, val_main_c_12_apply, val_main_call4_v2_apply, val_main_call4_v1_apply,
    val_main_call4_v0_apply, val_main_c_11_apply, val_main_v36_apply, val_main_v35_apply, val_main_c_10_apply,
    val_main_v38_apply, val_main_c_13_apply, val_main_v40_apply, val_main_c_14_apply, id_apply]
  rfl

theorem gath1 (x0 : IVec S4096x20 32) (x6 : FVec Ideal S25000x32 .f32) (r : Fin 4096) (c : Fin 20) (k : Fin 32) :
    val_main_v44 (F := Ideal) x0 x6 (ix3 r c k) = x6 (ix2 (rowOf (remap (x0 (ix2 r c))) 25000#32) k) := by
  unfold val_main_v44
  refine (gather_row (N := 25000) (n := 32) (R := 4096) (C := 20) (by decide)
    Gen.gather_S25000x32_S4096x20x1_S4096x20x32_2_0_n_n_0_2_132_wf x6 (val_main_v43 (F := Ideal) x0) r c k).trans ?_
  refine congrArg x6 (idx2_ext _ _ (Fin.ext ?_) rfl)
  show min (val_main_v43 (F := Ideal) x0 (ix3 r c (0 : Fin 1))).toInt.toNat (25000 - 1) = min _ 24999
  rw [val_main_v43_apply, show idx_main_v43 (ix3 r c (0 : Fin 1)) = ix2 r c from idx2_ext _ _ rfl rfl, idx1]

theorem hid1 (x0 : IVec S4096x20 32) (x6 : FVec Ideal S25000x32 .f32) (x7 : FVec Ideal S32x64 .f32) (x8 : FVec Ideal S64 .f32)
    (r : Fin 4096) (c : Fin 20) (j : Fin 64) :
    val_main_v49 (F := Ideal) x0 x6 x7 x8 (ix3 r c j)
      = max ((∑ k : Fin 32, x6 (ix2 (rowOf (remap (x0 (ix2 r c))) 25000#32) k) * x7 (ix2 k j)) + x8 (ix1 j)) 0 := by
  rw [val_main_v49_apply, val_main_v48_apply, val_main_v45_apply, val_main_v47_apply, val_main_v46_apply,
    val_main_call5_v0_apply, val_main_call5_cst_apply]
  show max ((∑ k : Fin 32, _) + x8 _) (Ideal.ofBits .f32 0x00000000#32) = _
  rw [Ideal.ofBits_zero_f32]
  refine congrArg₂ (fun a b => max (a + b) 0) (Finset.sum_congr rfl fun k _ => ?_) (congrArg x8 (idx1_ext _ _ rfl))
  rw [show lidx_main_v45 (ix3 r c j) k = ix3 r c k from idx3_ext _ _ rfl rfl rfl,
    show ridx_main_v45 (ix3 r c j) k = ix2 k j from idx2_ext _ _ rfl rfl, gath1]

theorem out1 (x0 : IVec S4096x20 32) (x6 : FVec Ideal S25000x32 .f32) (x7 : FVec Ideal S32x64 .f32) (x8 : FVec Ideal S64 .f32)
    (x9 : FVec Ideal S64x256 .f32) (x10 : FVec Ideal S256 .f32) (r : Fin 4096) (c : Fin 20) (d : Fin 256) :
    val_main_v53 (F := Ideal) x0 x6 x7 x8 x9 x10 (ix3 r c d)
      = mlp (fun k => x6 (ix2 (rowOf (remap (x0 (ix2 r c))) 25000#32) k)) (fun k j => x7 (ix2 k j)) (fun j => x8 (ix1 j))
          (fun j d => x9 (ix2 j d)) (fun d => x10 (ix1 d)) d := by
  rw [val_main_v53_apply, val_main_v50_apply, val_main_v52_apply, val_main_v51_apply]
  unfold mlp
  refine congrArg₂ (fun a b : EReal => a + b) (Finset.sum_congr rfl fun j _ => ?_) (congrArg x10 (idx1_ext _ _ rfl))
  rw [show lidx_main_v50 (ix3 r c d) j = ix3 r c j from idx3_ext _ _ rfl rfl rfl,
    show ridx_main_v50 (ix3 r c d) j = ix2 j d from idx2_ext _ _ rfl rfl, hid1]

theorem stage1 (x0 : IVec S4096x20 32) (x1 : FVec Ideal S25000x16 .f32) (x2 : FVec Ideal S16x64 .f32) (x3 : FVec Ideal S64 .f32)
    (x4 : FVec Ideal S64x256 .f32) (x5 : FVec Ideal S256 .f32)
    (x6 : FVec Ideal S25000x32 .f32) (x7 : FVec Ideal S32x64 .f32) (x8 : FVec Ideal S64 .f32)
    (x9 : FVec Ideal S64x256 .f32) (x10 : FVec Ideal S256 .f32) (r : Fin 4096) (c : Fin 20) (d : Fin 256) :
    val_main_v55 (F := Ideal) x0 x1 x2 x3 x4 x5 x6 x7 x8 x9 x10 (ix3 r c d)
      = Scalar.select (maskw (remap (x0 (ix2 r c))) 25000#32 50000#32)
          (mlp (fun k => x6 (ix2 (rowOf (remap (x0 (ix2 r c))) 25000#32) k)) (fun k j => x7 (ix2 k j)) (fun j => x8 (ix1 j))
            (fun j d => x9 (ix2 j d)) (fun d => x10 (ix1 d)) d) (val_main_v29 (F := Ideal) x0 x1 x2 x3 x4 x5 (ix3 r c d)) := by
  rw [val_main_v55_apply, val_main_call6_v0_apply, val_main_v54_apply,
    show idx_main_v54 (idx_main_call6_v0 (ix3 r c d)) = ix2 r c from idx2_ext _ _ rfl rfl, mask1, out1]

/-! ## Bucket 2 -/

theorem mask2 (x0 : IVec S4096x20 32) (r : Fin 4096) (c : Fin 20) :
    val_main_v60 (F := Ideal) x0 (ix2 r c) = maskw (remap (x0 (ix2 r c))) 50000#32 75000#32 := by
  rw [val_main_v60_apply, val_main_v57_apply, val_main_v59_apply, val_main_v56_apply, val_main_v58_apply,
    val_main_c_15_apply, val_main_c_16_apply, id_apply]
  rfl

theorem idx2 (x0 : IVec S4096x20 32) (r : Fin 4096) (c : Fin 20) :
    val_main_v68 (F := Ideal) x0 (ix2 r c) = idxw (remap (x0 (ix2 r c))) 50000#32 := by
  rw [val_main_v68_apply, val_main_v65_apply, val_main_v67_apply, val_main_v63_apply, val_main_call7_v4_apply,
    val_main_call7_v3_apply, val_main_c_19_apply, val_main_call7_v2_apply, val_main_call7_v1_apply,
    val_main_call7_v0_apply, val_main_c_18_apply, val_main_v62_apply, val_main_v61_apply, val_main_c_17_apply,
    val_main_v64_apply, val_main_c_20_apply, val_main_v66_apply, val_main_c_21_apply, id_apply]
  rfl

theorem gath2 (x0 : IVec S4096x20 32) (x11 : FVec Ideal S25000x64 .f32) (r : Fin 4096) (c : Fin 20) (k : Fin 64) :
    val_main_v70 (F := Ideal) x0 x11 (ix3 r c k) = x11 (ix2 (rowOf (remap (x0 (ix2 r c))) 50000#32) k) := by
  unfold val_main_v70
  refine (gather_row (N := 25000) (n := 64) (R := 4096) (C := 20) (by decide)
    Gen.gather_S25000x64_S4096x20x1_S4096x20x64_2_0_n_n_0_2_164_wf x11 (val_main_v69 (F := Ideal) x0) r c k).trans ?_
  refine congrArg x11 (idx2_ext _ _ (Fin.ext ?_) rfl)
  show min (val_main_v69 (F := Ideal) x0 (ix3 r c (0 : Fin 1))).toInt.toNat (25000 - 1) = min _ 24999
  rw [val_main_v69_apply, show idx_main_v69 (ix3 r c (0 : Fin 1)) = ix2 r c from idx2_ext _ _ rfl rfl, idx2]

theorem hid2 (x0 : IVec S4096x20 32) (x11 : FVec Ideal S25000x64 .f32) (x12 : FVec Ideal S64x64 .f32) (x13 : FVec Ideal S64 .f32)
    (r : Fin 4096) (c : Fin 20) (j : Fin 64) :
    val_main_v75 (F := Ideal) x0 x11 x12 x13 (ix3 r c j)
      = max ((∑ k : Fin 64, x11 (ix2 (rowOf (remap (x0 (ix2 r c))) 50000#32) k) * x12 (ix2 k j)) + x13 (ix1 j)) 0 := by
  rw [val_main_v75_apply, val_main_v74_apply, val_main_v71_apply, val_main_v73_apply, val_main_v72_apply,
    val_main_call8_v0_apply, val_main_call8_cst_apply]
  show max ((∑ k : Fin 64, _) + x13 _) (Ideal.ofBits .f32 0x00000000#32) = _
  rw [Ideal.ofBits_zero_f32]
  refine congrArg₂ (fun a b => max (a + b) 0) (Finset.sum_congr rfl fun k _ => ?_) (congrArg x13 (idx1_ext _ _ rfl))
  rw [show lidx_main_v71 (ix3 r c j) k = ix3 r c k from idx3_ext _ _ rfl rfl rfl,
    show ridx_main_v71 (ix3 r c j) k = ix2 k j from idx2_ext _ _ rfl rfl, gath2]

theorem out2 (x0 : IVec S4096x20 32) (x11 : FVec Ideal S25000x64 .f32) (x12 : FVec Ideal S64x64 .f32) (x13 : FVec Ideal S64 .f32)
    (x14 : FVec Ideal S64x256 .f32) (x15 : FVec Ideal S256 .f32) (r : Fin 4096) (c : Fin 20) (d : Fin 256) :
    val_main_v79 (F := Ideal) x0 x11 x12 x13 x14 x15 (ix3 r c d)
      = mlp (fun k => x11 (ix2 (rowOf (remap (x0 (ix2 r c))) 50000#32) k)) (fun k j => x12 (ix2 k j)) (fun j => x13 (ix1 j))
          (fun j d => x14 (ix2 j d)) (fun d => x15 (ix1 d)) d := by
  rw [val_main_v79_apply, val_main_v76_apply, val_main_v78_apply, val_main_v77_apply]
  unfold mlp
  refine congrArg₂ (fun a b : EReal => a + b) (Finset.sum_congr rfl fun j _ => ?_) (congrArg x15 (idx1_ext _ _ rfl))
  rw [show lidx_main_v76 (ix3 r c d) j = ix3 r c j from idx3_ext _ _ rfl rfl rfl,
    show ridx_main_v76 (ix3 r c d) j = ix2 j d from idx2_ext _ _ rfl rfl, hid2]

theorem stage2 (x0 : IVec S4096x20 32) (x1 : FVec Ideal S25000x16 .f32) (x2 : FVec Ideal S16x64 .f32) (x3 : FVec Ideal S64 .f32)
    (x4 : FVec Ideal S64x256 .f32) (x5 : FVec Ideal S256 .f32)
    (x6 : FVec Ideal S25000x32 .f32) (x7 : FVec Ideal S32x64 .f32) (x8 : FVec Ideal S64 .f32)
    (x9 : FVec Ideal S64x256 .f32) (x10 : FVec Ideal S256 .f32)
    (x11 : FVec Ideal S25000x64 .f32) (x12 : FVec Ideal S64x64 .f32) (x13 : FVec Ideal S64 .f32)
    (x14 : FVec Ideal S64x256 .f32) (x15 : FVec Ideal S256 .f32) (r : Fin 4096) (c : Fin 20) (d : Fin 256) :
    val_main_v81 (F := Ideal) x0 x1 x2 x3 x4 x5 x6 x7 x8 x9 x10 x11 x12 x13 x14 x15 (ix3 r c d)
      = Scalar.select (maskw (remap (x0 (ix2 r c))) 50000#32 75000#32)
          (mlp (fun k => x11 (ix2 (rowOf (remap (x0 (ix2 r c))) 50000#32) k)) (fun k j => x12 (ix2 k j)) (fun j => x13 (ix1 j))
            (fun j d => x14 (ix2 j d)) (fun d => x15 (ix1 d)) d) (val_main_v55 (F := Ideal) x0 x1 x2 x3 x4 x5 x6 x7 x8 x9 x10 (ix3 r c d)) := by
  rw [val_main_v81_apply, val_main_call9_v0_apply, val_main_v80_apply,
    show idx_main_v80 (idx_main_call9_v0 (ix3 r c d)) = ix2 r c from idx2_ext _ _ rfl rfl, mask2, out2]

/-! ## Bucket 3 -/

theorem mask3 (x0 : IVec S4096x20 32) (r : Fin 4096) (c : Fin 20) :
    val_main_v86 (F := Ideal) x0 (ix2 r c) = maskw (remap (x0 (ix2 r c))) 75000#32 100000#32 := by
  rw [val_main_v86_apply, val_main_v83_apply, val_main_v85_apply, val_main_v82_apply, val_main_v84_apply,
    val_main_c_22_apply, val_main_c_23_apply, id_apply]
  rfl

theorem idx3 (x0 : IVec S4096x20 32) (r : Fin 4096) (c : Fin 20) :
    val_main_v94 (F := Ideal) x0 (ix2 r c) = idxw (remap (x0 (ix2 r c))) 75000#32 := by
  rw [val_main_v94_apply, val_main_v91_apply, val_main_v93_apply, val_main_v89_apply, val_main_call10_v4_apply,
    val_main_call10_v3_apply, val_main_c_26_apply, val_main_call10_v2_apply, val_main_call10_v1_apply,
    val_main_call10_v0_apply, val_main_c_25_apply, val_main_v88_apply, val_main_v87_apply, val_main_c_24_apply,
    val_main_v90_apply, val_main_c_27_apply, val_main_v92_apply, val_main_c_28_apply, id_apply]
  rfl

theorem gath3 (x0 : IVec S4096x20 32) (x16 : FVec Ideal S25000x128 .f32) (r : Fin 4096) (c : Fin 20) (k : Fin 128) :
    val_main_v96 (F := Ideal) x0 x16 (ix3 r c k) = x16 (ix2 (rowOf (remap (x0 (ix2 r c))) 75000#32) k) := by
  unfold val_main_v96
  refine (gather_row (N := 25000) (n := 128) (R := 4096) (C := 20) (by decide)
    Gen.gather_S25000x128_S4096x20x1_S4096x20x128_2_0_n_n_0_2_1128_wf x16 (val_main_v95 (F := Ideal) x0) r c k).trans ?_
  refine congrArg x16 (idx2_ext _ _ (Fin.ext ?_) rfl)
  show min (val_main_v95 (F := Ideal) x0 (ix3 r c (0 : Fin 1))).toInt.toNat (25000 - 1) = min _ 24999
  rw [val_main_v95_apply, show idx_main_v95 (ix3 r c (0 : Fin 1)) = ix2 r c from idx2_ext _ _ rfl rfl, idx3]

theorem hid3 (x0 : IVec S4096x20 32) (x16 : FVec Ideal S25000x128 .f32) (x17 : FVec Ideal S128x64 .f32) (x18 : FVec Ideal S64 .f32)
    (r : Fin 4096) (c : Fin 20) (j : Fin 64) :
    val_main_v101 (F := Ideal) x0 x16 x17 x18 (ix3 r c j)
      = max ((∑ k : Fin 128, x16 (ix2 (rowOf (remap (x0 (ix2 r c))) 75000#32) k) * x17 (ix2 k j)) + x18 (ix1 j)) 0 := by
  rw [val_main_v101_apply, val_main_v100_apply, val_main_v97_apply, val_main_v99_apply, val_main_v98_apply,
    val_main_call11_v0_apply, val_main_call11_cst_apply]
  show max ((∑ k : Fin 128, _) + x18 _) (Ideal.ofBits .f32 0x00000000#32) = _
  rw [Ideal.ofBits_zero_f32]
  refine congrArg₂ (fun a b => max (a + b) 0) (Finset.sum_congr rfl fun k _ => ?_) (congrArg x18 (idx1_ext _ _ rfl))
  rw [show lidx_main_v97 (ix3 r c j) k = ix3 r c k from idx3_ext _ _ rfl rfl rfl,
    show ridx_main_v97 (ix3 r c j) k = ix2 k j from idx2_ext _ _ rfl rfl, gath3]

theorem out3 (x0 : IVec S4096x20 32) (x16 : FVec Ideal S25000x128 .f32) (x17 : FVec Ideal S128x64 .f32) (x18 : FVec Ideal S64 .f32)
    (x19 : FVec Ideal S64x256 .f32) (x20 : FVec Ideal S256 .f32) (r : Fin 4096) (c : Fin 20) (d : Fin 256) :
    val_main_v105 (F := Ideal) x0 x16 x17 x18 x19 x20 (ix3 r c d)
      = mlp (fun k => x16 (ix2 (rowOf (remap (x0 (ix2 r c))) 75000#32) k)) (fun k j => x17 (ix2 k j)) (fun j => x18 (ix1 j))
          (fun j d => x19 (ix2 j d)) (fun d => x20 (ix1 d)) d := by
  rw [val_main_v105_apply, val_main_v102_apply, val_main_v104_apply, val_main_v103_apply]
  unfold mlp
  refine congrArg₂ (fun a b : EReal => a + b) (Finset.sum_congr rfl fun j _ => ?_) (congrArg x20 (idx1_ext _ _ rfl))
  rw [show lidx_main_v102 (ix3 r c d) j = ix3 r c j from idx3_ext _ _ rfl rfl rfl,
    show ridx_main_v102 (ix3 r c d) j = ix2 j d from idx2_ext _ _ rfl rfl, hid3]

theorem stage3 (x0 : IVec S4096x20 32) (x1 : FVec Ideal S25000x16 .f32) (x2 : FVec Ideal S16x64 .f32) (x3 : FVec Ideal S64 .f32)
    (x4 : FVec Ideal S64x256 .f32) (x5 : FVec Ideal S256 .f32)
    (x6 : FVec Ideal S25000x32 .f32) (x7 : FVec Ideal S32x64 .f32) (x8 : FVec Ideal S64 .f32)
    (x9 : FVec Ideal S64x256 .f32) (x10 : FVec Ideal S256 .f32)
    (x11 : FVec Ideal S25000x64 .f32) (x12 : FVec Ideal S64x64 .f32) (x13 : FVec Ideal S64 .f32)
    (x14 : FVec Ideal S64x256 .f32) (x15 : FVec Ideal S256 .f32)
    (x16 : FVec Ideal S25000x128 .f32) (x17 : FVec Ideal S128x64 .f32) (x18 : FVec Ideal S64 .f32)
    (x19 : FVec Ideal S64x256 .f32) (x20 : FVec Ideal S256 .f32) (r : Fin 4096) (c : Fin 20) (d : Fin 256) :
    val_main_v107 (F := Ideal) x0 x1 x2 x3 x4 x5 x6 x7 x8 x9 x10 x11 x12 x13 x14 x15 x16 x17 x18 x19 x20 (ix3 r c d)
      = Scalar.select (maskw (remap (x0 (ix2 r c))) 75000#32 100000#32)
          (mlp (fun k => x16 (ix2 (rowOf (remap (x0 (ix2 r c))) 75000#32) k)) (fun k j => x17 (ix2 k j)) (fun j => x18 (ix1 j))
            (fun j d => x19 (ix2 j d)) (fun d => x20 (ix1 d)) d) (val_main_v81 (F := Ideal) x0 x1 x2 x3 x4 x5 x6 x7 x8 x9 x10 x11 x12 x13 x14 x15 (ix3 r c d)) := by
  rw [val_main_v107_apply, val_main_call12_v0_apply, val_main_v106_apply,
    show idx_main_v106 (idx_main_call12_v0 (ix3 r c d)) = ix2 r c from idx2_ext _ _ rfl rfl, mask3, out3]

/-! ## The chain of selects is the specification's case split -/

/-- One bucket's select: under the mask the bucket's value at the row `z - s`, otherwise what was there before. -/
theorem bucket_select {β : Type} (z s e : BitVec 32) (si ei : Int) (hs : s.toInt = si) (he : e.toInt = ei)
    (hei : ei = si + 25000) (G : Fin 25000 → β) (prev : β) :
    Scalar.select (maskw z s e) (G (rowOf z s)) prev
      = if h : si ≤ z.toInt ∧ z.toInt < ei then G ⟨(z.toInt - si).toNat, by omega⟩ else prev := by
  rw [maskw_eq, hs, he]
  by_cases h : si ≤ z.toInt ∧ z.toInt < ei
  · rw [if_pos h, dif_pos h, select_one]
    refine congrArg G (Fin.ext ?_)
    show min (idxw z s).toInt.toNat 24999 = (z.toInt - si).toNat
    rw [idxw_toInt z s (by omega) (by omega), hs]
    omega
  · rw [if_neg h, dif_neg h, select_zero]

theorem chain_spec (T : Tables) (z : BitVec 32) (d : Fin 256) :
    Scalar.select (maskw z 75000#32 100000#32) (mlp (T.emb3 (rowOf z 75000#32)) T.w1_3 T.b1_3 T.w2_3 T.b2_3 d)
      (Scalar.select (maskw z 50000#32 75000#32) (mlp (T.emb2 (rowOf z 50000#32)) T.w1_2 T.b1_2 T.w2_2 T.b2_2 d)
        (Scalar.select (maskw z 25000#32 50000#32) (mlp (T.emb1 (rowOf z 25000#32)) T.w1_1 T.b1_1 T.w2_1 T.b2_1 d)
          (Scalar.select (maskw z 0#32 25000#32) (mlp (T.emb0 (rowOf z 0#32)) T.w1_0 T.b1_0 T.w2_0 T.b2_0 d) 0)))
      = specRow T z.toInt d := by
  rw [bucket_select z 75000#32 100000#32 75000 100000 (by decide) (by decide) (by decide)
      (fun row => mlp (T.emb3 row) T.w1_3 T.b1_3 T.w2_3 T.b2_3 d),
    bucket_select z 50000#32 75000#32 50000 75000 (by decide) (by decide) (by decide)
      (fun row => mlp (T.emb2 row) T.w1_2 T.b1_2 T.w2_2 T.b2_2 d),
    bucket_select z 25000#32 50000#32 25000 50000 (by decide) (by decide) (by decide)
      (fun row => mlp (T.emb1 row) T.w1_1 T.b1_1 T.w2_1 T.b2_1 d),
    bucket_select z 0#32 25000#32 0 25000 (by decide) (by decide) (by decide)
      (fun row => mlp (T.emb0 row) T.w1_0 T.b1_0 T.w2_0 T.b2_0 d)]
  unfold specRow
  by_cases h0 : 0 ≤ z.toInt ∧ z.toInt < 25000
  · have h1 : ¬(25000 ≤ z.toInt ∧ z.toInt < 50000) := by omega
    have h2 : ¬(50000 ≤ z.toInt ∧ z.toInt < 75000) := by omega
    have h3 : ¬(75000 ≤ z.toInt ∧ z.toInt < 100000) := by omega
    rw [dif_neg h3, dif_neg h2, dif_neg h1, dif_pos h0, dif_pos h0]
    refine congrArg (fun row => mlp (T.emb0 row) T.w1_0 T.b1_0 T.w2_0 T.b2_0 d) (Fin.ext ?_)
    show (z.toInt - 0).toNat = z.toInt.toNat
    rw [Int.sub_zero]
  · by_cases h1 : 25000 ≤ z.toInt ∧ z.toInt < 50000
    · have h2 : ¬(50000 ≤ z.toInt ∧ z.toInt < 75000) := by omega
      have h3 : ¬(75000 ≤ z.toInt ∧ z.toInt < 100000) := by omega
      rw [dif_neg h3, dif_neg h2, dif_pos h1, dif_neg h0, dif_pos h1]
    · by_cases h2 : 50000 ≤ z.toInt ∧ z.toInt < 75000
      · have h3 : ¬(75000 ≤ z.toInt ∧ z.toInt < 100000) := by omega
        rw [dif_neg h3, dif_pos h2, dif_neg h0, dif_neg h1, dif_pos h2]
      · by_cases h3 : 75000 ≤ z.toInt ∧ z.toInt < 100000
        · rw [dif_pos h3, dif_neg h0, dif_neg h1, dif_neg h2, dif_pos h3]
        · rw [dif_neg h3, dif_neg h2, dif_neg h1, dif_neg h0, dif_neg h0, dif_neg h1, dif_neg h2, dif_neg h3]

/-- The reference's composed term, over any arguments, is the specification's result array. -/
theorem value_eq (x0 : IVec S4096x20 32) (x1 : FVec Ideal S25000x16 .f32) (x2 : FVec Ideal S16x64 .f32) (x3 : FVec Ideal S64 .f32) (x4 : FVec Ideal S64x256 .f32) (x5 : FVec Ideal S256 .f32) (x6 : FVec Ideal S25000x32 .f32) (x7 : FVec Ideal S32x64 .f32) (x8 : FVec Ideal S64 .f32) (x9 : FVec Ideal S64x256 .f32) (x10 : FVec Ideal S256 .f32) (x11 : FVec Ideal S25000x64 .f32) (x12 : FVec Ideal S64x64 .f32) (x13 : FVec Ideal S64 .f32) (x14 : FVec Ideal S64x256 .f32) (x15 : FVec Ideal S256 .f32) (x16 : FVec Ideal S25000x128 .f32) (x17 : FVec Ideal S128x64 .f32) (x18 : FVec Ideal S64 .f32) (x19 : FVec Ideal S64x256 .f32) (x20 : FVec Ideal S256 .f32) :
    val_main_v107 (F := Ideal) x0 x1 x2 x3 x4 x5 x6 x7 x8 x9 x10 x11 x12 x13 x14 x15 x16 x17 x18 x19 x20 = resultOf x0 (tablesOf x1 x2 x3 x4 x5 x6 x7 x8 x9 x10 x11 x12 x13 x14 x15 x16 x17 x18 x19 x20) := by
  funext j
  obtain ⟨r, c, d, rfl⟩ : ∃ (r : Fin 4096) (c : Fin 20) (d : Fin 256), j = ix3 r c d := ⟨j 0, j 1, j 2, eq_ix3 j⟩
  rw [resultOf_apply, stage3, stage2, stage1, stage0]
  exact chain_spec (tablesOf x1 x2 x3 x4 x5 x6 x7 x8 x9 x10 x11 x12 x13 x14 x15 x16 x17 x18 x19 x20) (remap (x0 (ix2 r c))) d

/-- The reference run's result is the specification's result array of the launched arguments. -/
theorem result_eq (m : (ℓ : Loc nD τ sig) → Buf (Elt Ideal) ℓ) (c : Dev nD) :
    Cert.ReferenceIdeal.Value.res_main_v107 (F := Ideal) m c
      = resultOf (m ((c.tc : Thread nD τ).loc main_arg0)) (tablesOf (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))) := by
  rw [val_main_v107_eq]
  exact value_eq _ _ _ _ _ _ _ _ _ _ _ _ _ _ _ _ _ _ _ _ _

end Cert.ReferenceIdeal.RefValue

end
-- ==== Proof.lean ====
/-
  A size-bucketed embedding perceptron: every token's id picks one of four buckets of 25000 entities (embedding
  widths 16, 32, 64, 128) and a row of that bucket's table; the result row is that bucket's two-layer perceptron of
  the row, and the zero row for an id outside `[0, 100000)` (the sentinel 100000 stands for 0).

  The reference does this bucket by bucket under masks. The kernel program fuses the four buckets: one padded table
  of 256 lanes (each bucket's entries at its own lanes, a one at lane 240) gathered once per token, one
  block-diagonal first-layer matrix whose row 240 carries the first-layer biases, the hidden lanes of the token's own
  bucket kept and the others zeroed, the stacked second-layer matrix, and a one-hot product for the second-layer
  bias; a pipelined region computes twenty blocks of 4096 tokens. Over the extended reals both are the same function
  of the arguments (`Cert.BucketMlp.resultOf`): a product with a zero factor is zero and sums may be regrouped, so
  nothing is asked of the inputs beyond what the two programs read.

  Proved here: each program runs to the end, faults nowhere and leaves its arguments unchanged; the idealization
  records no rewrite; and the two idealized programs, run from memories agreeing on the arguments, end with equal
  results.
-/
import proofs.«401935_j50148038148546_3_alg».proof.Defs
import proofs.«401935_j50148038148546_3_alg».proof.Proof.Gen.Kernel
import proofs.«401935_j50148038148546_3_alg».proof.Proof.Gen.KernelIdeal
import proofs.«401935_j50148038148546_3_alg».proof.Proof.Gen.ReferenceIdeal
import proofs.«401935_j50148038148546_3_alg».proof.Proof.Gen.Pre_finite_inputs
import proofs.«401935_j50148038148546_3_alg».proof.Proof.Gen.ReferenceIdeal.Run
import proofs.«401935_j50148038148546_3_alg».proof.Proof.Gen.ReferenceIdeal.Read
import proofs.«401935_j50148038148546_3_alg».proof.Proof.KernelFrame
import proofs.«401935_j50148038148546_3_alg».proof.Proof.KernelIdealFrame
import proofs.«401935_j50148038148546_3_alg».proof.Proof.KernelValue
import proofs.«401935_j50148038148546_3_alg».proof.Proof.RefValue
import Idealize.ShloMosaic.Adequacy
import Idealize.ShloMosaic.Init

noncomputable section

namespace Cert.Proof

open Idealize.ShloMosaic Idealize.SL.Sem Cert.BucketMlp

/-- The printed kernel program runs and keeps its arguments. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the specification's result array of the arguments they agree on. -/
theorem algebraic : Cert.algebraic_KernelIdeal_ReferenceIdeal := by
  intro m ρ m' ρ' _ hagree
  refine ⟨fun c => resultOf (Cert.KernelIdeal.Hand.idsArr m c) (Cert.KernelIdeal.Hand.tables m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  obtain ⟨h0, h1, h2, h3, h4, h5, h6, h7, h8, h9, h10, h11, h12, h13, h14, h15, h16, h17, h18, h19, h20⟩ := hagree c
  rw [h0, h1, h2, h3, h4, h5, h6, h7, h8, h9, h10, h11, h12, h13, h14, h15, h16, h17, h18, h19, h20]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
